-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v27)) (v3 : (c : Dev Cert.KernelIdeal.nD) → Buf (Elt Ideal) ((c.tc : Thread Cert.KernelIdeal.nD Cert.KernelIdeal.τ).loc Cert.KernelIdeal.main_v13)) (v4 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v27) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_v48) = v3 c
          ∧ r.2.mem ((c.tc : Thread Cert.ReferenceIdeal.nD Cert.ReferenceIdeal.τ).loc Cert.ReferenceIdeal.main_v54) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8320x3 : Shape := ⟨2, ![8320, 3]⟩
abbrev S3x3 : Shape := ⟨2, ![3, 3]⟩
abbrev S2 : Shape := ⟨1, ![2]⟩
abbrev S13x3 : Shape := ⟨2, ![13, 3]⟩
abbrev S128 : Shape := ⟨1, ![128]⟩
abbrev S8192 : Shape := ⟨1, ![8192]⟩
abbrev S_ : Shape := ⟨0, ![]⟩

class Facts : Prop where
  bcast_S_S8320x3 : S_.BroadcastsInDim S8320x3 (![] : Fin 0 → Fin S8320x3.rank)
  reducesTo_S8320x3_S_d0_1 : S8320x3.ReducesTo [0, 1] S_
  h_S_ : 0 < S_.numel
  bcast_S_S3x3 : S_.BroadcastsInDim S3x3 (![] : Fin 0 → Fin S3x3.rank)
  reducesTo_S3x3_S_d0_1 : S3x3.ReducesTo [0, 1] S_
  bcast_S_S2 : S_.BroadcastsInDim S2 (![] : Fin 0 → Fin S2.rank)
  reducesTo_S2_S_d0 : S2.ReducesTo [0] S_
  bcast_S_S128 : S_.BroadcastsInDim S128 (![] : Fin 0 → Fin S128.rank)
  reducesTo_S128_S_d0 : S128.ReducesTo [0] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : IVec S128 32) (main_arg5 : IVec S8192 32) (main_v13 : IVec S_ 1) (main_v15 : IVec S128 1) (main_c_5 : IVec S_ 32) : IVec S_ 1 :=
  let main_v16 : IVec S128 32 := broadcastInDim S128 ![] bcast_S_S128 main_c_5
  let main_v17 : IVec S128 1 := cmpi .slt main_arg4 main_v16
  let main_v18 : IVec S128 1 := andi main_v15 main_v17
  let main_c_6 : IVec S_ 1 := constantI S_ 1 1#1
  let main_v19 : IVec S_ 1 := (fun x v => Host.reduce IntOp.andi x v reducesTo_S128_S_d0 h_S_) main_v18 main_c_6
  let main_v20 : IVec S_ 1 := andi main_v13 main_v19
  let main_c_7 : IVec S_ 32 := constantI S_ 32 4294958976#32
  let main_v21 : IVec S8192 32 := broadcastInDim S8192 ![] bcast_S_S8192 main_c_7
  let main_v22 : IVec S8192 1 := cmpi .sge main_arg5 main_v21
  let main_c_8 : IVec S_ 32 := constantI S_ 32 8320#32
  let main_v23 : IVec S8192 32 := broadcastInDim S8192 ![] bcast_S_S8192 main_c_8
  let main_v24 : IVec S8192 1 := cmpi .slt main_arg5 main_v23
  let main_v25 : IVec S8192 1 := andi main_v22 main_v24
  let main_c_9 : IVec S_ 1 := constantI S_ 1 1#1
  let main_v26 : IVec S_ 1 := (fun x v => Host.reduce IntOp.andi x v reducesTo_S8192_S_d0 h_S_) main_v25 main_c_9
  let main_v27 : IVec S_ 1 := andi main_v20 main_v26
  main_v27

def fn {F : FTy → Type} [FloatOps F] (main_arg0 : FVec F S8320x3 .f32) (main_arg1 : FVec F S3x3 .f32) (main_arg2 : FVec F S2 .f32) (main_arg3 : IVec S13x3 32) (main_arg4 : IVec S128 32) (main_arg5 : IVec S8192 32) : IVec S_ 1 :=
  let main_v0 : FVec F S8320x3 .f32 := Host.absf main_arg0
  let main_cst : FVec F S_ .f32 := constant S_ .f32 0x7F800000#32
  let main_v1 : FVec F S8320x3 .f32 := broadcastInDim S8320x3 ![] bcast_S_S8320x3 main_cst
  let main_v2 : IVec S8320x3 1 := cmpf .olt main_v0 main_v1
  let main_c : IVec S_ 1 := constantI S_ 1 1#1
  let main_v3 : IVec S_ 1 := (fun x v => Host.reduce IntOp.andi x v reducesTo_S8320x3_S_d0_1 h_S_) main_v2 main_c
  let main_v4 : FVec F S3x3 .f32 := Host.absf main_arg1
  let main_cst_0 : FVec F S_ .f32 := constant S_ .f32 0x7F800000#32
  let main_v5 : FVec F S3x3 .f32 := broadcastInDim S3x3 ![] bcast_S_S3x3 main_cst_0
  let main_v6 : IVec S3x3 1 := cmpf .olt main_v4 main_v5
  let main_c_1 : IVec S_ 1 := constantI S_ 1 1#1
  let main_v7 : IVec S_ 1 := (fun x v => Host.reduce IntOp.andi x v reducesTo_S3x3_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_c_4 : IVec S_ 32 := constantI S_ 32 4294958976#32
  let main_v14 : IVec S128 32 := broadcastInDim S128 ![] bcast_S_S128 main_c_4
  let main_v15 : IVec S128 1 := cmpi .sge main_arg4 main_v14
  let main_c_5 : IVec S_ 32 := constantI S_ 32 8320#32
  fn_part1 (F := F) main_arg4 main_arg5 main_v13 main_v15 main_c_5
-- ==== Kernel.lean ====
abbrev S8320x3 : Shape := ⟨2, ![8320, 3]⟩
abbrev S3x3 : Shape := ⟨2, ![3, 3]⟩
abbrev S2 : Shape := ⟨1, ![2]⟩
abbrev S13x3 : Shape := ⟨2, ![13, 3]⟩
abbrev S128 : Shape := ⟨1, ![128]⟩
abbrev S8192 : Shape := ⟨1, ![8192]⟩
abbrev S_ : Shape := ⟨0, ![]⟩
abbrev S1x3 : Shape := ⟨2, ![1, 3]⟩
abbrev S14x3 : Shape := ⟨2, ![14, 3]⟩
abbrev S14x1x3 : Shape := ⟨3, ![14, 1, 3]⟩
abbrev S128x1 : Shape := ⟨2, ![128, 1]⟩
abbrev S1 : Shape := ⟨1, ![1]⟩
abbrev S1x1 : Shape := ⟨2, ![1, 1]⟩
abbrev S128x3 : Shape := ⟨2, ![128, 3]⟩
abbrev S8192x1 : Shape := ⟨2, ![8192, 1]⟩
abbrev S8192x3 : Shape := ⟨2, ![8192, 3]⟩
abbrev S3x8192 : Shape := ⟨2, ![3, 8192]⟩
abbrev S2x1 : Shape := ⟨2, ![2, 1]⟩
abbrev S2x14x128x8192 : Shape := ⟨4, ![2, 14, 128, 8192]⟩
abbrev S2x2x14x128x8192 : Shape := ⟨5, ![2, 2, 14, 128, 8192]⟩
abbrev S1x1x3 : Shape := ⟨3, ![1, 1, 3]⟩
abbrev S2x1x128x4096 : Shape := ⟨4, ![2, 1, 128, 4096]⟩
abbrev S2x2x1x128x4096 : Shape := ⟨5, ![2, 2, 1, 128, 4096]⟩
abbrev S1x4096 : Shape := ⟨2, ![1, 4096]⟩
abbrev S128x4096 : Shape := ⟨2, ![128, 4096]⟩
abbrev S1x1x128x4096 : Shape := ⟨4, ![1, 1, 128, 4096]⟩
abbrev S1x2x1x128x4096 : Shape := ⟨5, ![1, 2, 1, 128, 4096]⟩
abbrev S2x128x4096 : Shape := ⟨3, ![2, 128, 4096]⟩
abbrev S1x128x4096 : Shape := ⟨3, ![1, 128, 4096]⟩
abbrev S29360128 : Shape := ⟨1, ![29360128]⟩
abbrev S2x29360128 : Shape := ⟨2, ![2, 29360128]⟩
abbrev S1x1x128x1 : Shape := ⟨4, ![1, 1, 128, 1]⟩
abbrev S1x14x128x8192 : Shape := ⟨4, ![1, 14, 128, 8192]⟩
abbrev S1x1x1x8192 : Shape := ⟨4, ![1, 1, 1, 8192]⟩
abbrev S28x3 : Shape := ⟨2, ![28, 3]⟩
abbrev S2x14x1x1x3 : Shape := ⟨5, ![2, 14, 1, 1, 3]⟩
abbrev S2x14x128x8192x3 : Shape := ⟨5, ![2, 14, 128, 8192, 3]⟩
abbrev S29360128x3 : Shape := ⟨2, ![29360128, 3]⟩

abbrev nBuf : Space → Nat
  | .hbm => 81
  | .vmem => 9
  | .smem => 0
  | _ => 0

abbrev bufTy : (tb : Table) → Fin (tcTables nBuf tb) → BufTy
  | .hbm, ⟨0, _⟩ => ⟨S8320x3, .f32⟩
  | .hbm, ⟨1, _⟩ => ⟨S3x3, .f32⟩
  | .hbm, ⟨2, _⟩ => ⟨S2, .f32⟩
  | .hbm, ⟨3, _⟩ => ⟨S13x3, .i32⟩
  | .hbm, ⟨4, _⟩ => ⟨S128, .i32⟩
  | .hbm, ⟨5, _⟩ => ⟨S8192, .i32⟩
  | .hbm, ⟨6, _⟩ => ⟨S_, .f32⟩
  | .hbm, ⟨7, _⟩ => ⟨S1x3, .f32⟩
  | .hbm, ⟨8, _⟩ => ⟨S13x3, .f32⟩
  | .hbm, ⟨9, _⟩ => ⟨S14x3, .f32⟩
  | .hbm, ⟨10, _⟩ => ⟨S14x3, .f32⟩
  | .hbm, ⟨11, _⟩ => ⟨S14x1x3, .f32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S_, .i32⟩
  | .hbm, ⟨16, _⟩ => ⟨S128, .i32⟩
  | .hbm, ⟨17, _⟩ => ⟨S128, .i32⟩
  | .hbm, ⟨18, _⟩ => ⟨S128, .i32⟩
  | .hbm, ⟨19, _⟩ => ⟨S128x1, .i32⟩
  | .hbm, ⟨20, _⟩ => ⟨S1, .i32⟩
  | .hbm, ⟨21, _⟩ => ⟨S_, .i32⟩
  | .hbm, ⟨22, _⟩ => ⟨S128x1, .i32⟩
  | .hbm, ⟨23, _⟩ => ⟨S128x1, .i1⟩
  | .hbm, ⟨24, _⟩ => ⟨S1x1, .i32⟩
  | .hbm, ⟨25, _⟩ => ⟨S128x1, .i32⟩
  | .hbm, ⟨26, _⟩ => ⟨S128x1, .i1⟩
  | .hbm, ⟨27, _⟩ => ⟨S128x1, .i1⟩
  | .hbm, ⟨28, _⟩ => ⟨S_, .i1⟩
  | .hbm, ⟨29, _⟩ => ⟨S128, .i1⟩
  | .hbm, ⟨30, _⟩ => ⟨S128x3, .f32⟩
  | .hbm, ⟨31, _⟩ => ⟨S128x3, .i1⟩
  | .hbm, ⟨32, _⟩ => ⟨S_, .f32⟩
  | .hbm, ⟨33, _⟩ => ⟨S128x3, .f32⟩
  | .hbm, ⟨34, _⟩ => ⟨S128x3, .f32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S8192x1, .i32⟩
  | .hbm, ⟨43, _⟩ => ⟨S1, .i32⟩
  | .hbm, ⟨44, _⟩ => ⟨S_, .i32⟩
  | .hbm, ⟨45, _⟩ => ⟨S8192x1, .i32⟩
  | .hbm, ⟨46, _⟩ => ⟨S8192x1, .i1⟩
  | .hbm, ⟨47, _⟩ => ⟨S1x1, .i32⟩
  | .hbm, ⟨48, _⟩ => ⟨S8192x1, .i32⟩
  | .hbm, ⟨49, _⟩ => ⟨S8192x1, .i1⟩
  | .hbm, ⟨50, _⟩ => ⟨S8192x1, .i1⟩
  | .hbm, ⟨51, _⟩ => ⟨S_, .i1⟩
  | .hbm, ⟨52, _⟩ => ⟨S8192, .i1⟩
  | .hbm, ⟨53, _⟩ => ⟨S8192x3, .f32⟩
  | .hbm, ⟨54, _⟩ => ⟨S8192x3, .i1⟩
  | .hbm, ⟨55, _⟩ => ⟨S_, .f32⟩
  | .hbm, ⟨56, _⟩ => ⟨S8192x3, .f32⟩
  | .hbm, ⟨57, _⟩ => ⟨S8192x3, .f32⟩
  | .hbm, ⟨58, _⟩ => ⟨S3x8192, .f32⟩
  | .hbm, ⟨59, _⟩ => ⟨S2x1, .f32⟩
  | .hbm, ⟨60, _⟩ => ⟨S2x14x128x8192, .f32⟩
  | .hbm, ⟨61, _⟩ => ⟨S2x2x14x128x8192, .i32⟩
  | .hbm, ⟨62, _⟩ => ⟨S_, .i32⟩
  | .hbm, ⟨63, _⟩ => ⟨S2x2x14x128x8192, .i32⟩
  | .hbm, ⟨64, _⟩ => ⟨S2x2x14x128x8192, .i1⟩
  | .hbm, ⟨65, _⟩ => ⟨S2x2x14x128x8192, .i1⟩
  | .hbm, ⟨66, _⟩ => ⟨S29360128, .f32⟩
  | .hbm, ⟨67, _⟩ => ⟨S2x29360128, .i1⟩
  | .hbm, ⟨68, _⟩ => ⟨S1x1x128x1, .i32⟩
  | .hbm, ⟨69, _⟩ => ⟨S1x14x128x8192, .i32⟩
  | .hbm, ⟨70, _⟩ => ⟨S1x1x1x8192, .i32⟩
  | .hbm, ⟨71, _⟩ => ⟨S1x14x128x8192, .i32⟩
  | .hbm, ⟨72, _⟩ => ⟨S2x14x128x8192, .i32⟩
  | .hbm, ⟨73, _⟩ => ⟨S2x14x128x8192, .i32⟩
  | .hbm, ⟨74, _⟩ => ⟨S29360128, .i32⟩
  | .hbm, ⟨75, _⟩ => ⟨S29360128, .i32⟩
  | .hbm, ⟨76, _⟩ => ⟨S14x3, .f32⟩
  | .hbm, ⟨77, _⟩ => ⟨S28x3, .f32⟩
  | .hbm, ⟨78, _⟩ => ⟨S2x14x1x1x3, .f32⟩
  | .hbm, ⟨79, _⟩ => ⟨S2x14x128x8192x3, .f32⟩
  | .hbm, ⟨80, _⟩ => ⟨S29360128x3, .f32⟩
  | .local _ .vmem, ⟨0, _⟩ => ⟨S128x3, .f32⟩
  | .local _ .vmem, ⟨1, _⟩ => ⟨S1x1x3, .f32⟩
  | .local _ .vmem, ⟨2, _⟩ => ⟨S1x1x3, .f32⟩
  | .local _ .vmem, ⟨3, _⟩ => ⟨S3x8192, .f32⟩
  | .local _ .vmem, ⟨4, _⟩ => ⟨S2x1, .f32⟩
  | .local _ .vmem, ⟨5, _⟩ => ⟨S2x1x128x4096, .f32⟩
  | .local _ .vmem, ⟨6, _⟩ => ⟨S2x1x128x4096, .f32⟩
  | .local _ .vmem, ⟨7, _⟩ => ⟨S2x2x1x128x4096, .i32⟩
  | .local _ .vmem, ⟨8, _⟩ => ⟨S2x2x1x128x4096, .i32⟩
  | _, _ => ⟨S8320x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v5 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9_0 : Ref sig .tc := ⟨.hbm, 60, rfl⟩
abbrev main_v9_1 : Ref sig .tc := ⟨.hbm, 61, rfl⟩
abbrev main_c : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![14, 2], ![false, false]⟩

def k0_mult1 (i : grid0.Coords) : BitVec 32 :=
  let arg1 : BitVec 32 := BitVec.ofNat 32 (i 1).val
  let c4096_i32 : BitVec 32 := 4096#32
  let v0 : BitVec 32 := Scalar.muli arg1 c4096_i32
  v0
def k0_off1 (i : grid0.Coords) : Fin 2 → Nat :=
  let c0_6 : Index := 0#32
  let arg1 : BitVec 32 := BitVec.ofNat 32 (i 1).val
  let c4096_i32 : BitVec 32 := 4096#32
  let v0 : BitVec 32 := Scalar.muli arg1 c4096_i32
  let v1 : BitVec 32 := v0
  let v16 : Index := Scalar.indexCast v1
  ![0, v16.toNat]
def k0_off2 (i : grid0.Coords) : Fin 2 → Nat :=
  let c1_7 : Index := 1#32
  let arg1 : BitVec 32 := BitVec.ofNat 32 (i 1).val
  let c4096_i32 : BitVec 32 := 4096#32
  let v0 : BitVec 32 := Scalar.muli arg1 c4096_i32
  let v1 : BitVec 32 := v0
  let v19 : Index := Scalar.indexCast v1
  ![1, v19.toNat]
def k0_off3 (i : grid0.Coords) : Fin 2 → Nat :=
  let c2_8 : Index := 2#32
  let arg1 : BitVec 32 := BitVec.ofNat 32 (i 1).val
  let c4096_i32 : BitVec 32 := 4096#32
  let v0 : BitVec 32 := Scalar.muli arg1 c4096_i32
  let v1 : BitVec 32 := v0
  let v22 : Index := Scalar.indexCast v1
  ![2, v22.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat, arg1.toNat]

abbrev stage0_0 : Fin 1 → Memref sig .tc .vmem S128x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2x1x128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x2x1x128x4096 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S1x3 : S_.BroadcastsInDim S1x3 (![] : Fin 0 → Fin S1x3.rank)
  concatenates_S1x3_S13x3_S14x3_d0 : Shape.Concatenates [S1x3, S13x3] S14x3 0
  shapeCasts_S14x3_S14x1x3 : S14x3.ShapeCasts S14x1x3
  bcast_S_S128 : S_.BroadcastsInDim S128 (![] : Fin 0 → Fin S128.rank)
  bcast_S128_S128x1_0 : S128.BroadcastsInDim S128x1 (![0] : Fin 1 → Fin S128x1.rank)
  bcast_S_S128x1 : S_.BroadcastsInDim S128x1 (![] : Fin 0 → Fin S128x1.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  reducesTo_S128x1_S128_d1 : S128x1.ReducesTo [1] S128
  h_S_ : 0 < S_.numel
  bcast_S128_S128x3_0 : S128.BroadcastsInDim S128x3 (![0] : Fin 1 → Fin S128x3.rank)
  bcast_S_S128x3 : S_.BroadcastsInDim S128x3 (![] : Fin 0 → Fin S128x3.rank)
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1x1_S8192x1_0_1 : S1x1.BroadcastsInDim S8192x1 (![0, 1] : Fin 2 → Fin S8192x1.rank)
  reducesTo_S8192x1_S8192_d1 : S8192x1.ReducesTo [1] S8192
  bcast_S8192_S8192x3_0 : S8192.BroadcastsInDim S8192x3 (![0] : Fin 1 → Fin S8192x3.rank)
  bcast_S_S8192x3 : S_.BroadcastsInDim S8192x3 (![] : Fin 0 → Fin S8192x3.rank)
  transposes_S8192x3_S3x8192_1_0 : S8192x3.Transposes [1, 0] S3x8192
  shapeCasts_S2_S2x1 : S2.ShapeCasts S2x1
  inb_S128x3_S128x1_0_0 : ∀ a, (![0, 0] : Fin 2 → Nat) a + S128x1.size a ≤ S128x3.size a
  h_S128x1 : 0 < S128x1.numel
  shapeCasts_S128x1_S128x1 : S128x1.ShapeCasts S128x1
  inb_S128x3_S128x1_0_1 : ∀ a, (![0, 1] : Fin 2 → Nat) a + S128x1.size a ≤ S128x3.size a
  inb_S128x3_S128x1_0_2 : ∀ a, (![0, 2] : Fin 2 → Nat) a + S128x1.size a ≤ S128x3.size a
  inb_S1x1x3_S1x1x3_0_0_0 : ∀ a, (![0, 0, 0] : Fin 3 → Nat) a + S1x1x3.size a ≤ S1x1x3.size a
  h_S1x1x3 : 0 < S1x1x3.numel
  shapeCasts_S1x1x3_S1x3 : S1x1x3.ShapeCasts S1x3
  slices_S1x3_o0_0_S1x1 : S1x3.Slices ![0, 0] S1x1
  inpos_S1x1_p0_0 : ∀ a, (![0, 0] : Fin 2 → Nat) a < S1x1.size a
  slices_S1x3_o0_1_S1x1 : S1x3.Slices ![0, 1] S1x1
  slices_S1x3_o0_2_S1x1 : S1x3.Slices ![0, 2] S1x1
  h_S1x4096 : 0 < S1x4096.numel
  shapeCasts_S1x4096_S1x4096 : S1x4096.ShapeCasts S1x4096
  broadcasts_S128x1_S128x4096 : S128x1.Broadcasts S128x4096
  broadcasts_S1x4096_S128x4096 : S1x4096.Broadcasts S128x4096
  inb_S2x1x128x4096_S1x1x128x4096_0_0_0_0 : ∀ a, (![0, 0, 0, 0] : Fin 4 → Nat) a + S1x1x128x4096.size a ≤ S2x1x128x4096.size a
  h_S1x1x128x4096 : 0 < S1x1x128x4096.numel
  shapeCasts_S1x1x128x4096_S128x4096 : S1x1x128x4096.ShapeCasts S128x4096
  shapeCasts_S128x4096_S1x1x128x4096 : S128x4096.ShapeCasts S1x1x128x4096
  inb_S2x1x128x4096_S1x1x128x4096_1_0_0_0 : ∀ a, (![1, 0, 0, 0] : Fin 4 → Nat) a + S1x1x128x4096.size a ≤ S2x1x128x4096.size a
  inb_S2x1_S1x1_0_0 : ∀ a, (![0, 0] : Fin 2 → Nat) a + S1x1.size a ≤ S2x1.size a
  h_S1x1 : 0 < S1x1.numel
  inb_S2x2x1x128x4096_S1x2x1x128x4096_0_0_0_0_0 : ∀ a, (![0, 0, 0, 0, 0] : Fin 5 → Nat) a + S1x2x1x128x4096.size a ≤ S2x2x1x128x4096.size a
  squeezes_S1x2x1x128x4096_S2x128x4096 : S1x2x1x128x4096.Squeezes S2x128x4096
  inb_S2x128x4096_S1x128x4096_0_0_0 : ∀ a, (![0, 0, 0] : Fin 3 → Nat) a + S1x128x4096.size a ≤ S2x128x4096.size a
  h_S1x128x4096 : 0 < S1x128x4096.numel
  natLt_1_32 : 1 < 32
  shapeCasts_S1x128x4096_S128x4096 : S1x128x4096.ShapeCasts S128x4096
  shapeCasts_S128x4096_S1x128x4096 : S128x4096.ShapeCasts S1x128x4096
  inb_S2x128x4096_S1x128x4096_1_0_0 : ∀ a, (![1, 0, 0] : Fin 3 → Nat) a + S1x128x4096.size a ≤ S2x128x4096.size a
  inb_S2x1_S1x1_1_0 : ∀ a, (![1, 0] : Fin 2 → Nat) a + S1x1.size a ≤ S2x1.size a
  inb_S2x2x1x128x4096_S1x2x1x128x4096_1_0_0_0_0 : ∀ a, (![1, 0, 0, 0, 0] : Fin 5 → Nat) a + S1x2x1x128x4096.size a ≤ S2x2x1x128x4096.size a
  bcast_S_S2x2x14x128x8192 : S_.BroadcastsInDim S2x2x14x128x8192 (![] : Fin 0 → Fin S2x2x14x128x8192.rank)
  shapeCasts_S2x14x128x8192_S29360128 : S2x14x128x8192.ShapeCasts S29360128
  shapeCasts_S2x2x14x128x8192_S2x29360128 : S2x2x14x128x8192.ShapeCasts S2x29360128
  shapeCasts_S128_S1x1x128x1 : S128.ShapeCasts S1x1x128x1
  bcast_S1x1x128x1_S1x14x128x8192_0_1_2_3 : S1x1x128x1.BroadcastsInDim S1x14x128x8192 (![0, 1, 2, 3] : Fin 4 → Fin S1x14x128x8192.rank)
  shapeCasts_S8192_S1x1x1x8192 : S8192.ShapeCasts S1x1x1x8192
  bcast_S1x1x1x8192_S1x14x128x8192_0_1_2_3 : S1x1x1x8192.BroadcastsInDim S1x14x128x8192 (![0, 1, 2, 3] : Fin 4 → Fin S1x14x128x8192.rank)
  concatenates_S1x14x128x8192_S1x14x128x8192_S2x14x128x8192_d0 : Shape.Concatenates [S1x14x128x8192, S1x14x128x8192] S2x14x128x8192 0
  concatenates_S14x3_S14x3_S28x3_d0 : Shape.Concatenates [S14x3, S14x3] S28x3 0
  shapeCasts_S28x3_S2x14x1x1x3 : S28x3.ShapeCasts S2x14x1x1x3
  bcast_S2x14x1x1x3_S2x14x128x8192x3_0_1_2_3_4 : S2x14x1x1x3.BroadcastsInDim S2x14x128x8192x3 (![0, 1, 2, 3, 4] : Fin 5 → Fin S2x14x128x8192x3.rank)
  shapeCasts_S2x14x128x8192x3_S29360128x3 : S2x14x128x8192x3.ShapeCasts S29360128x3
  dot_S14x3_S3x3_S14x3_1_0_0_1_n_n_wf : DotDims.WF S14x3 S3x3 S14x3 [1] [0] [0] [1] [] []
  gather_S8320x3_S128x1_S128x3_1_0_n_n_0_1_13_wf : GatherDims.WF S8320x3 S128x1 S128x3 [1] [0] [] [0] [] 1 ![1, 3]
  gather_S8320x3_S8192x1_S8192x3_1_0_n_n_0_1_13_wf : GatherDims.WF S8320x3 S8192x1 S8192x3 [1] [0] [] [0] [] 1 ![1, 3]
  hrank0 : 0 < grid0.rank
  k0_mult1_dvd : ∀ i : grid0.Coords, 128 ∣ (k0_mult1 i).toNat
  k0_off1_inb : ∀ i : grid0.Coords, ∀ a, (k0_off1 i) a + S1x4096.size a ≤ S3x8192.size a
  k0_off2_inb : ∀ i : grid0.Coords, ∀ a, (k0_off2 i) a + S1x4096.size a ≤ S3x8192.size a
  k0_off3_inb : ∀ i : grid0.Coords, ∀ a, (k0_off3 i) a + S1x4096.size a ≤ S3x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x3.size a ≤ S128x3.size a
  hwx0_0 : ∀ i : grid0.Coords, EltTy.bits .f32 = 32 ∨ (Rect.block (s := S128x3) S128x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x3.size a ≤ S14x1x3.size a
  hwx0_1 : ∀ i : grid0.Coords, EltTy.bits .f32 = 32 ∨ (Rect.block (s := S14x1x3) S1x1x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x8192.size a ≤ S3x8192.size a
  hwx0_2 : ∀ i : grid0.Coords, EltTy.bits .f32 = 32 ∨ (Rect.block (s := S3x8192) S3x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x1.size a ≤ S2x1.size a
  hwx0_3 : ∀ i : grid0.Coords, EltTy.bits .f32 = 32 ∨ (Rect.block (s := S2x1) S2x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1x128x4096.size a ≤ S2x14x128x8192.size a
  hwx0_4 : ∀ i : grid0.Coords, EltTy.bits .f32 = 32 ∨ (Rect.block (s := S2x14x128x8192) S2x1x128x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x2x1x128x4096.size a ≤ S2x2x14x128x8192.size a
  hwx0_5 : ∀ i : grid0.Coords, EltTy.bits .i32 = 32 ∨ (Rect.block (s := S2x2x14x128x8192) S2x2x1x128x4096.size (cc0_transform_5 i) (hinb0_5 i)).WholeWords (EltTy.packing .i32)

variable [Facts₀]

def dot_S14x3_S3x3_S14x3_1_0_0_1_n_n : DotDims S14x3 S3x3 S14x3 where
  lhsContracting := [1]
  rhsContracting := [0]
  lhsNonContracting := [0]
  rhsNonContracting := [1]
  lhsBatch := []
  rhsBatch := []
  wf := dot_S14x3_S3x3_S14x3_1_0_0_1_n_n_wf
def gather_S8320x3_S128x1_S128x3_1_0_n_n_0_1_13 : GatherDims S8320x3 S128x1 S128x3 where
  offsetDims := [1]
  collapsedSliceDims := [0]
  operandBatchingDims := []
  startIndicesBatchingDims := []
  startIndexMap := [0]
  indexVectorDim := 1
  sliceSizes := ![1, 3]
  wf := gather_S8320x3_S128x1_S128x3_1_0_n_n_0_1_13_wf
def gather_S8320x3_S8192x1_S8192x3_1_0_n_n_0_1_13 : GatherDims S8320x3 S8192x1 S8192x3 where
  offsetDims := [1]
  collapsedSliceDims := [0]
  operandBatchingDims := []
  startIndicesBatchingDims := []
  startIndexMap := [0]
  indexVectorDim := 1
  sliceSizes := ![1, 3]
  wf := gather_S8320x3_S8192x1_S8192x3_1_0_n_n_0_1_13_wf

abbrev win0_0 : Pipeline.Window sig grid0 :=
  Pipeline.Window.ofSpec (Memref.whole main_v5) S128x3.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x1x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S3x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9_0) S2x1x128x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_1) S2x2x1x128x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8320x3 : Shape := ⟨2, ![8320, 3]⟩
abbrev S3x3 : Shape := ⟨2, ![3, 3]⟩
abbrev S2 : Shape := ⟨1, ![2]⟩
abbrev S13x3 : Shape := ⟨2, ![13, 3]⟩
abbrev S128 : Shape := ⟨1, ![128]⟩
abbrev S8192 : Shape := ⟨1, ![8192]⟩
abbrev S_ : Shape := ⟨0, ![]⟩
abbrev S1x3 : Shape := ⟨2, ![1, 3]⟩
abbrev S14x3 : Shape := ⟨2, ![14, 3]⟩
abbrev S128x1 : Shape := ⟨2, ![128, 1]⟩
abbrev S128x8192 : Shape := ⟨2, ![128, 8192]⟩
abbrev S1048576 : Shape := ⟨1, ![1048576]⟩
abbrev S1x8192 : Shape := ⟨2, ![1, 8192]⟩
abbrev S1048576x1 : Shape := ⟨2, ![1048576, 1]⟩
abbrev S1048576x3 : Shape := ⟨2, ![1048576, 3]⟩
abbrev S1x1048576x3 : Shape := ⟨3, ![1, 1048576, 3]⟩
abbrev S14x1x3 : Shape := ⟨3, ![14, 1, 3]⟩
abbrev S14x1048576x3 : Shape := ⟨3, ![14, 1048576, 3]⟩
abbrev S14x1048576 : Shape := ⟨2, ![14, 1048576]⟩
abbrev S14680064 : Shape := ⟨1, ![14680064]⟩
abbrev S1x1048576 : Shape := ⟨2, ![1, 1048576]⟩
abbrev S14680064x3 : Shape := ⟨2, ![14680064, 3]⟩
abbrev S29360128 : Shape := ⟨1, ![29360128]⟩
abbrev S29360128x3 : Shape := ⟨2, ![29360128, 3]⟩
abbrev S1x29360128 : Shape := ⟨2, ![1, 29360128]⟩
abbrev S2x1 : Shape := ⟨2, ![2, 1]⟩
abbrev S2x29360128 : Shape := ⟨2, ![2, 29360128]⟩

abbrev nBuf : Space → Nat
  | .hbm => 67
  | .vmem => 0
  | .smem => 0
  | _ => 0

abbrev bufTy : (tb : Table) → Fin (tcTables nBuf tb) → BufTy
  | .hbm, ⟨0, _⟩ => ⟨S8320x3, .f32⟩
  | .hbm, ⟨1, _⟩ => ⟨S3x3, .f32⟩
  | .hbm, ⟨2, _⟩ => ⟨S2, .f32⟩
  | .hbm, ⟨3, _⟩ => ⟨S13x3, .i32⟩
  | .hbm, ⟨4, _⟩ => ⟨S128, .i32⟩
  | .hbm, ⟨5, _⟩ => ⟨S8192, .i32⟩
  | .hbm, ⟨6, _⟩ => ⟨S_, .f32⟩
  | .hbm, ⟨7, _⟩ => ⟨S1x3, .f32⟩
  | .hbm, ⟨8, _⟩ => ⟨S13x3, .f32⟩
  | .hbm, ⟨9, _⟩ => ⟨S14x3, .f32⟩
  | .hbm, ⟨10, _⟩ => ⟨S14x3, .f32⟩
  | .hbm, ⟨11, _⟩ => ⟨S128x1, .i32⟩
  | .hbm, ⟨12, _⟩ => ⟨S128x8192, .i32⟩
  | .hbm, ⟨13, _⟩ => ⟨S1048576, .i32⟩
  | .hbm, ⟨14, _⟩ => ⟨S1x8192, .i32⟩
  | .hbm, ⟨15, _⟩ => ⟨S128x8192, .i32⟩
  | .hbm, ⟨16, _⟩ => ⟨S1048576, .i32⟩
  | .hbm, ⟨17, _⟩ => ⟨S_, .i32⟩
  | .hbm, ⟨18, _⟩ => ⟨S1048576, .i32⟩
  | .hbm, ⟨19, _⟩ => ⟨S1048576, .i1⟩
  | .hbm, ⟨20, _⟩ => ⟨S_, .i32⟩
  | .hbm, ⟨21, _⟩ => ⟨S1048576, .i32⟩
  | .hbm, ⟨22, _⟩ => ⟨S1048576, .i32⟩
  | .hbm, ⟨23, _⟩ => ⟨S1048576, .i32⟩
  | .hbm, ⟨24, _⟩ => ⟨S1048576x1, .i32⟩
  | .hbm, ⟨25, _⟩ => ⟨S1048576x3, .f32⟩
  | .hbm, ⟨26, _⟩ => ⟨S1x1048576x3, .f32⟩
  | .hbm, ⟨27, _⟩ => ⟨S_, .i32⟩
  | .hbm, ⟨28, _⟩ => ⟨S1048576, .i32⟩
  | .hbm, ⟨29, _⟩ => ⟨S1048576, .i1⟩
  | .hbm, ⟨30, _⟩ => ⟨S_, .i32⟩
  | .hbm, ⟨31, _⟩ => ⟨S1048576, .i32⟩
  | .hbm, ⟨32, _⟩ => ⟨S1048576, .i32⟩
  | .hbm, ⟨33, _⟩ => ⟨S1048576, .i32⟩
  | .hbm, ⟨34, _⟩ => ⟨S1048576x1, .i32⟩
  | .hbm, ⟨35, _⟩ => ⟨S1048576x3, .f32⟩
  | .hbm, ⟨36, _⟩ => ⟨S1x1048576x3, .f32⟩
  | .hbm, ⟨37, _⟩ => ⟨S1x1048576x3, .f32⟩
  | .hbm, ⟨38, _⟩ => ⟨S14x1x3, .f32⟩
  | .hbm, ⟨39, _⟩ => ⟨S14x1048576x3, .f32⟩
  | .hbm, ⟨40, _⟩ => ⟨S14x1048576x3, .f32⟩
  | .hbm, ⟨41, _⟩ => ⟨S14x1048576x3, .f32⟩
  | .hbm, ⟨42, _⟩ => ⟨S14x1048576x3, .f32⟩
  | .hbm, ⟨43, _⟩ => ⟨S_, .f32⟩
  | .hbm, ⟨44, _⟩ => ⟨S14x1048576, .f32⟩
  | .hbm, ⟨45, _⟩ => ⟨S14680064, .f32⟩
  | .hbm, ⟨46, _⟩ => ⟨S1x1048576, .i32⟩
  | .hbm, ⟨47, _⟩ => ⟨S14x1048576, .i32⟩
  | .hbm, ⟨48, _⟩ => ⟨S14680064, .i32⟩
  | .hbm, ⟨49, _⟩ => ⟨S1x1048576, .i32⟩
  | .hbm, ⟨50, _⟩ => ⟨S14x1048576, .i32⟩
  | .hbm, ⟨51, _⟩ => ⟨S14680064, .i32⟩
  | .hbm, ⟨52, _⟩ => ⟨S14x1x3, .f32⟩
  | .hbm, ⟨53, _⟩ => ⟨S14x1048576x3, .f32⟩
  | .hbm, ⟨54, _⟩ => ⟨S14680064x3, .f32⟩
  | .hbm, ⟨55, _⟩ => ⟨S29360128, .i32⟩
  | .hbm, ⟨56, _⟩ => ⟨S29360128, .i32⟩
  | .hbm, ⟨57, _⟩ => ⟨S14680064x3, .f32⟩
  | .hbm, ⟨58, _⟩ => ⟨S29360128x3, .f32⟩
  | .hbm, ⟨59, _⟩ => ⟨S29360128x3, .f32⟩
  | .hbm, ⟨60, _⟩ => ⟨S29360128, .f32⟩
  | .hbm, ⟨61, _⟩ => ⟨S1x29360128, .f32⟩
  | .hbm, ⟨62, _⟩ => ⟨S2, .f32⟩
  | .hbm, ⟨63, _⟩ => ⟨S2x1, .f32⟩
  | .hbm, ⟨64, _⟩ => ⟨S2x29360128, .f32⟩
  | .hbm, ⟨65, _⟩ => ⟨S2x29360128, .f32⟩
  | .hbm, ⟨66, _⟩ => ⟨S2x29360128, .i1⟩
  | _, _ => ⟨S8320x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]

class Facts₀ : Prop where
  bcast_S_S1x3 : S_.BroadcastsInDim S1x3 (![] : Fin 0 → Fin S1x3.rank)
  concatenates_S1x3_S13x3_S14x3_d0 : Shape.Concatenates [S1x3, S13x3] S14x3 0
  bcast_S128_S128x1_0 : S128.BroadcastsInDim S128x1 (![0] : Fin 1 → Fin S128x1.rank)
  bcast_S128x1_S128x8192_0_1 : S128x1.BroadcastsInDim S128x8192 (![0, 1] : Fin 2 → Fin S128x8192.rank)
  shapeCasts_S128x8192_S1048576 : S128x8192.ShapeCasts S1048576
  bcast_S8192_S1x8192_1 : S8192.BroadcastsInDim S1x8192 (![1] : Fin 1 → Fin S1x8192.rank)
  bcast_S1x8192_S128x8192_0_1 : S1x8192.BroadcastsInDim S128x8192 (![0, 1] : Fin 2 → Fin S128x8192.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x3_S1x1048576x3_1_2 : S1048576x3.BroadcastsInDim S1x1048576x3 (![1, 2] : Fin 2 → Fin S1x1048576x3.rank)
  bcast_S14x3_S14x1x3_0_2 : S14x3.BroadcastsInDim S14x1x3 (![0, 2] : Fin 2 → Fin S14x1x3.rank)
  bcast_S1x1048576x3_S14x1048576x3_0_1_2 : S1x1048576x3.BroadcastsInDim S14x1048576x3 (![0, 1, 2] : Fin 3 → Fin S14x1048576x3.rank)
  bcast_S14x1x3_S14x1048576x3_0_1_2 : S14x1x3.BroadcastsInDim S14x1048576x3 (![0, 1, 2] : Fin 3 → Fin S14x1048576x3.rank)
  reducesTo_S14x1048576x3_S14x1048576_d2 : S14x1048576x3.ReducesTo [2] S14x1048576
  h_S_ : 0 < S_.numel
  shapeCasts_S14x1048576_S14680064 : S14x1048576.ShapeCasts S14680064
  bcast_S1048576_S1x1048576_1 : S1048576.BroadcastsInDim S1x1048576 (![1] : Fin 1 → Fin S1x1048576.rank)
  bcast_S1x1048576_S14x1048576_0_1 : S1x1048576.BroadcastsInDim S14x1048576 (![0, 1] : Fin 2 → Fin S14x1048576.rank)
  shapeCasts_S14x1048576x3_S14680064x3 : S14x1048576x3.ShapeCasts S14680064x3
  concatenates_S14680064_S14680064_S29360128_d0 : Shape.Concatenates [S14680064, S14680064] S29360128 0
  concatenates_S14680064x3_S14680064x3_S29360128x3_d0 : Shape.Concatenates [S14680064x3, S14680064x3] S29360128x3 0
  bcast_S29360128_S1x29360128_1 : S29360128.BroadcastsInDim S1x29360128 (![1] : Fin 1 → Fin S1x29360128.rank)
  bcast_S2_S2x1_0 : S2.BroadcastsInDim S2x1 (![0] : Fin 1 → Fin S2x1.rank)
  bcast_S1x29360128_S2x29360128_0_1 : S1x29360128.BroadcastsInDim S2x29360128 (![0, 1] : Fin 2 → Fin S2x29360128.rank)
  bcast_S2x1_S2x29360128_0_1 : S2x1.BroadcastsInDim S2x29360128 (![0, 1] : Fin 2 → Fin S2x29360128.rank)
  dot_S14x3_S3x3_S14x3_1_0_0_1_n_n_wf : DotDims.WF S14x3 S3x3 S14x3 [1] [0] [0] [1] [] []
  gather_S8320x3_S1048576x1_S1048576x3_1_0_n_n_0_1_13_wf : GatherDims.WF S8320x3 S1048576x1 S1048576x3 [1] [0] [] [0] [] 1 ![1, 3]
  dot_S29360128x3_S3x3_S29360128x3_1_0_0_1_n_n_wf : DotDims.WF S29360128x3 S3x3 S29360128x3 [1] [0] [0] [1] [] []

variable [Facts₀]

def dot_S14x3_S3x3_S14x3_1_0_0_1_n_n : DotDims S14x3 S3x3 S14x3 where
  lhsContracting := [1]
  rhsContracting := [0]
  lhsNonContracting := [0]
  rhsNonContracting := [1]
  lhsBatch := []
  rhsBatch := []
  wf := dot_S14x3_S3x3_S14x3_1_0_0_1_n_n_wf
def gather_S8320x3_S1048576x1_S1048576x3_1_0_n_n_0_1_13 : GatherDims S8320x3 S1048576x1 S1048576x3 where
  offsetDims := [1]
  collapsedSliceDims := [0]
  operandBatchingDims := []
  startIndicesBatchingDims := []
  startIndexMap := [0]
  indexVectorDim := 1
  sliceSizes := ![1, 3]
  wf := gather_S8320x3_S1048576x1_S1048576x3_1_0_n_n_0_1_13_wf
def dot_S29360128x3_S3x3_S29360128x3_1_0_0_1_n_n : DotDims S29360128x3 S3x3 S29360128x3 where
  lhsContracting := [1]
  rhsContracting := [0]
  lhsNonContracting := [0]
  rhsNonContracting := [1]
  lhsBatch := []
  rhsBatch := []
  wf := dot_S29360128x3_S3x3_S29360128x3_1_0_0_1_n_n_wf

class Facts : Prop extends Facts₀ where

variable [Facts]
-- ==== Proof.LibViewWrite.lean ====
/-
  Reading a buffer through one view after a store through another view of the same buffer.

  A view `v` of a buffer, a rectangle `R` of it, that rectangle re-indexed by another shape of as many elements
  (row-major on both sides), and a rectangle `r'` of the re-indexed one: a store through the last view puts the
  payload's element `x` where `v` has its index `R (reshape (r' x))`, and touches nothing else. So reading through
  `v` at `y` finds the payload at `x` when `y` is that index, and what was there before when `y` is no such index.
-/
import Idealize.ShloMosaic.Signature.Memref

noncomputable section

namespace Cert.ViewWrite

open Idealize.ShloMosaic

variable {sig : RefSig} {κ : Kind} {sp : Space} {Val : EltTy → Type} {s s₂ : Shape} {e : EltTy}

/-- The store's own element: `y` is the place of payload element `x`. -/
theorem read_write_sub_hit (v : View sig κ sp s e) (R : Rect s) (hn : s₂.numel = R.shape.numel) (r' : Rect s₂)
    (f : v.ty.Contents Val) (w : r'.shape.Idx → Val e) (x : r'.shape.Idx) (y : s.Idx)
    (hxy : R.emb (Shape.reshapeEquiv hn (r'.emb x)) = y) :
    v.read Val ((((v.slice R).reshape s₂ hn).slice r').write Val f w Finset.univ) y = w x := by
  have he : (((v.slice R).reshape s₂ hn).slice r').emb x = v.emb y := by rw [← hxy]; rfl
  rw [View.read_apply, ← he, View.write_emb_of_mem _ _ (Finset.mem_univ x), cast_cast, cast_eq]

/-- Any other element: `y` is the place of no payload element, and keeps what it held. -/
theorem read_write_sub_miss (v : View sig κ sp s e) (R : Rect s) (hn : s₂.numel = R.shape.numel) (r' : Rect s₂)
    (f : v.ty.Contents Val) (w : r'.shape.Idx → Val e) (y : s.Idx)
    (hy : ∀ x : r'.shape.Idx, R.emb (Shape.reshapeEquiv hn (r'.emb x)) ≠ y) :
    v.read Val ((((v.slice R).reshape s₂ hn).slice r').write Val f w Finset.univ) y = v.read Val f y := by
  rw [View.read_apply, View.read_apply, View.write_of_not_mem]
  intro hmem
  obtain ⟨x, -, hx⟩ := Finset.mem_map.mp hmem
  exact hy x (v.emb.injective hx)

end Cert.ViewWrite

end
-- ==== Proof.KB.Body.lean ====
/-
  The kernel body at one grid point, as a triple, and what its two output blocks hold afterwards.

  The body reads the three coordinate columns of the first atoms' block `x0 : [128, 3]`, the image's shift `x1 : [1, 1, 3]`,
  and, of the second atoms' table `x2 : [3, 8192]`, the three rows restricted to the point's 4096 columns; from these it
  computes one `[128, 4096]` tile of squared lengths (`d2blk`) and stores it into BOTH half slots of the first output
  block; then for each cutoff `r` it compares the tile with the cutoff's square and stores the widened bits into both half
  slots of row `r` of the second output block, through a view of that row (a slice with its unit axis dropped).
  After the body every element of both blocks has been stored: the first block holds the tile at `(h, 0, p, q) ↦ (p, q)`,
  the second holds cutoff `r`'s bits at `(r, h, 0, p, q) ↦ (p, q)`, whatever the blocks held before.
-/
import proofs.«417794_j5214090297976_3_alg».proof.Proof.Gen.Kernel.Frame
import proofs.«417794_j5214090297976_3_alg».proof.Proof.Gen.Kernel.Skeleton
import proofs.«417794_j5214090297976_3_alg».proof.Proof.LibViewWrite
import Idealize.ShloMosaic.Lib.Pipeline.Frame
import Idealize.ShloMosaic.Lib.Exec.Geometry
import Idealize.ShloMosaic.Lib.ValueIdx
import Idealize.ShloMosaic.Lib.ValueLayout

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- Column `k` of the first atoms' block, -/
abbrev rP0 : Rect S128x3 := Rect.unit (s := S128x3) ![0, 0] S128x1.size inb_S128x3_S128x1_0_0
abbrev rP1 : Rect S128x3 := Rect.unit (s := S128x3) ![0, 1] S128x1.size inb_S128x3_S128x1_0_1
abbrev rP2 : Rect S128x3 := Rect.unit (s := S128x3) ![0, 2] S128x1.size inb_S128x3_S128x1_0_2
/-- the shift's whole block, -/
abbrev rS : Rect S1x1x3 := Rect.unit (s := S1x1x3) ![0, 0, 0] S1x1x3.size inb_S1x1x3_S1x1x3_0_0_0
/-- row `k` of the second atoms' table over the point's 4096 columns, -/
abbrev rQ0 (i : grid0.Coords) : Rect S3x8192 := Rect.unit (s := S3x8192) (k0_off1 i) S1x4096.size (k0_off1_inb i)
abbrev rQ1 (i : grid0.Coords) : Rect S3x8192 := Rect.unit (s := S3x8192) (k0_off2 i) S1x4096.size (k0_off2_inb i)
abbrev rQ2 (i : grid0.Coords) : Rect S3x8192 := Rect.unit (s := S3x8192) (k0_off3 i) S1x4096.size (k0_off3_inb i)
/-- cutoff `r`'s one element, -/
abbrev rC0 : Rect S2x1 := Rect.unit (s := S2x1) ![0, 0] S1x1.size inb_S2x1_S1x1_0_0
abbrev rC1 : Rect S2x1 := Rect.unit (s := S2x1) ![1, 0] S1x1.size inb_S2x1_S1x1_1_0
/-- half slot `h` of the first output block, -/
abbrev rD0 : Rect S2x1x128x4096 := Rect.unit (s := S2x1x128x4096) ![0, 0, 0, 0] S1x1x128x4096.size inb_S2x1x128x4096_S1x1x128x4096_0_0_0_0
abbrev rD1 : Rect S2x1x128x4096 := Rect.unit (s := S2x1x128x4096) ![1, 0, 0, 0] S1x1x128x4096.size inb_S2x1x128x4096_S1x1x128x4096_1_0_0_0
/-- row `r` of the second output block, and half slot `h` of such a row with the row's unit axes dropped. -/
abbrev rM0 : Rect S2x2x1x128x4096 := Rect.unit (s := S2x2x1x128x4096) ![0, 0, 0, 0, 0] S1x2x1x128x4096.size inb_S2x2x1x128x4096_S1x2x1x128x4096_0_0_0_0_0
abbrev rM1 : Rect S2x2x1x128x4096 := Rect.unit (s := S2x2x1x128x4096) ![1, 0, 0, 0, 0] S1x2x1x128x4096.size inb_S2x2x1x128x4096_S1x2x1x128x4096_1_0_0_0_0
abbrev rH0 : Rect S2x128x4096 := Rect.unit (s := S2x128x4096) ![0, 0, 0] S1x128x4096.size inb_S2x128x4096_S1x128x4096_0_0_0
abbrev rH1 : Rect S2x128x4096 := Rect.unit (s := S2x128x4096) ![1, 0, 0] S1x128x4096.size inb_S2x128x4096_S1x128x4096_1_0_0

/-! ## What the body computes -/

/-- The tile of squared lengths at point `i`, from the three input blocks. -/
def d2blk (i : grid0.Coords) (x0 : Vec F S128x3 .f32) (x1 : Vec F S1x1x3 .f32) (x2 : Vec F S3x8192 .f32) : FVec F S128x4096 .f32 :=
  k0_pay4 (View.ld x0 rP0) (View.ld x0 rP1) (View.ld x0 rP2) (View.ld x1 rS) (View.ld x2 (rQ0 i)) (View.ld x2 (rQ1 i)) (View.ld x2 (rQ2 i))

/-- The first output block after the body: the tile in both half slots (the later store listed first). -/
def out4 (i : grid0.Coords) (x0 : Vec F S128x3 .f32) (x1 : Vec F S1x1x3 .f32) (x2 : Vec F S3x8192 .f32) : Vec F S2x1x128x4096 .f32 :=
  View.canon [⟨rD1, k0_pay6 (d2blk i x0 x1 x2)⟩, ⟨rD0, k0_pay5 (d2blk i x0 x1 x2)⟩]

theorem cover4 (p1 p0 : Vec F S1x1x128x4096 .f32) (y : S2x1x128x4096.Idx) :
    ∃ pc ∈ ([⟨rD1, p1⟩, ⟨rD0, p0⟩] : List (View.Piece (Elt F) S2x1x128x4096 .f32)), y ∈ pc.1.set :=
  View.cover_of_tiled [⟨rD1, p1⟩, ⟨rD0, p0⟩] S1x1x128x4096.size (by rfl) y

/-- The second output block after the body: cutoff `y 0`'s widened bits, half slot `y 1`, at `(y 3, y 4)`. -/
def out5 (i : grid0.Coords) (x0 : Vec F S128x3 .f32) (x1 : Vec F S1x1x3 .f32) (x2 : Vec F S3x8192 .f32) (x3 : Vec F S2x1 .f32) :
    Vec F S2x2x1x128x4096 .i32 := fun y =>
  let z : S1x128x4096.Idx := ix3 (⟨0, Nat.one_pos⟩ : Fin 1) (⟨(y 3).val, (y 3).isLt⟩ : Fin 128) (⟨(y 4).val, (y 4).isLt⟩ : Fin 4096)
  if (y 0).val = 0 then
    (if (y 1).val = 0 then k0_pay8 (d2blk i x0 x1 x2) (View.ld x3 rC0) z else k0_pay9 (d2blk i x0 x1 x2) (View.ld x3 rC0) z)
  else
    (if (y 1).val = 0 then k0_pay2 (d2blk i x0 x1 x2) (View.ld x3 rC1) z else k0_pay3 (d2blk i x0 x1 x2) (View.ld x3 rC1) z)

/-! ## Where the four bit stores land -/

/-- The place, in the second output block, of element `x` of the store into half slot `b` of row `a`: the row's
    rectangle after the dropped unit axes are put back, `(a, b, 0, x 1, x 2)`. -/
theorem place (a b : Fin 2)
    (inbA : ∀ ax, (![a.val, 0, 0, 0, 0] : Fin 5 → Nat) ax + S1x2x1x128x4096.size ax ≤ S2x2x1x128x4096.size ax)
    (inbB : ∀ ax, (![b.val, 0, 0] : Fin 3 → Nat) ax + S1x128x4096.size ax ≤ S2x128x4096.size ax)
    (hn : S2x128x4096.numel = (Rect.unit (s := S2x2x1x128x4096) ![a.val, 0, 0, 0, 0] S1x2x1x128x4096.size inbA).shape.numel)
    (x : (Rect.unit (s := S2x128x4096) ![b.val, 0, 0] S1x128x4096.size inbB).shape.Idx) :
    (Rect.unit (s := S2x2x1x128x4096) ![a.val, 0, 0, 0, 0] S1x2x1x128x4096.size inbA).emb
        (Shape.reshapeEquiv hn ((Rect.unit (s := S2x128x4096) ![b.val, 0, 0] S1x128x4096.size inbB).emb x))
      = ix5 a b (⟨0, Nat.one_pos⟩ : Fin 1) (⟨(x 1).val, (x 1).isLt⟩ : Fin 128) (⟨(x 2).val, (x 2).isLt⟩ : Fin 4096) := by
  have hx0 : (x 0).val = 0 := by have := (x 0).isLt; change (x 0).val < 1 at this; omega
  have h1 : (Rect.unit (s := S2x128x4096) ![b.val, 0, 0] S1x128x4096.size inbB).emb x
      = ix3 b (⟨(x 1).val, (x 1).isLt⟩ : Fin 128) (⟨(x 2).val, (x 2).isLt⟩ : Fin 4096) := by
    funext ax; apply Fin.ext
    match ax with
    | ⟨0, _⟩ => show b.val + 1 * (x 0).val = b.val; omega
    | ⟨1, _⟩ => show 0 + 1 * (x 1).val = (x 1).val; omega
    | ⟨2, _⟩ => show 0 + 1 * (x 2).val = (x 2).val; omega
  rw [h1]
  have h2 := reshapeEquiv_ix3_1a1bc (a := 2) (b := 128) (c := 4096) hn b (⟨(x 1).val, (x 1).isLt⟩ : Fin 128) (⟨(x 2).val, (x 2).isLt⟩ : Fin 4096)
  rw [h2]
  funext ax; apply Fin.ext
  match ax with
  | ⟨0, _⟩ => show a.val + 1 * 0 = a.val; omega
  | ⟨1, _⟩ => show 0 + 1 * b.val = b.val; omega
  | ⟨2, _⟩ => show 0 + 1 * 0 = 0; omega
  | ⟨3, _⟩ => show 0 + 1 * (x 1).val = (x 1).val; omega
  | ⟨4, _⟩ => show 0 + 1 * (x 2).val = (x 2).val; omega

/-! ## The second output block after the four bit stores -/

/-- The dropped-unit-axes view of row `a` of the second output block has as many elements as the row. -/
theorem hnum (RA : Rect S2x2x1x128x4096) (hz : RA.size = S1x2x1x128x4096.size) : S2x128x4096.numel = RA.shape.numel := by
  show S2x128x4096.numel = (⟨5, RA.size⟩ : Shape).numel
  rw [hz]; rfl

/-- Four stores, one into each half slot of each row (row 0 first, half slot 0 first), through the rows' views:
    read back through the whole block, element `(a, b, 0, p, q)` is the payload stored into half slot `b` of row `a`,
    at `(0, p, q)` — each store's own elements found there, every later store missing them. -/
theorem read5 {κ : Kind} {sp : Space} {Val : EltTy → Type} (v : View sig κ sp S2x2x1x128x4096 .i32) (f : v.ty.Contents Val)
    (hn0 : S2x128x4096.numel = rM0.shape.numel) (hn1 : S2x128x4096.numel = rM1.shape.numel)
    (p00 p01 p10 p11 : S1x128x4096.Idx → Val .i32) :
    v.read Val
        ((((v.slice rM1).reshape S2x128x4096 hn1).slice rH1).write Val
          ((((v.slice rM1).reshape S2x128x4096 hn1).slice rH0).write Val
            ((((v.slice rM0).reshape S2x128x4096 hn0).slice rH1).write Val
              ((((v.slice rM0).reshape S2x128x4096 hn0).slice rH0).write Val f p00 Finset.univ)
              p01 Finset.univ)
            p10 Finset.univ)
          p11 Finset.univ)
      = fun y =>
          let z : S1x128x4096.Idx := ix3 (⟨0, Nat.one_pos⟩ : Fin 1) (⟨(y 3).val, (y 3).isLt⟩ : Fin 128) (⟨(y 4).val, (y 4).isLt⟩ : Fin 4096)
          if (y 0).val = 0 then (if (y 1).val = 0 then p00 z else p01 z) else (if (y 1).val = 0 then p10 z else p11 z) := by
  funext y
  obtain ⟨a, b, u, p, q, rfl⟩ : ∃ (a : Fin 2) (b : Fin 2) (u : Fin 1) (p : Fin 128) (q : Fin 4096), y = ix5 a b u p q :=
    ⟨y 0, y 1, y 2, y 3, y 4, eq_ix5 y⟩
  obtain rfl : u = ⟨0, Nat.one_pos⟩ := Subsingleton.elim _ _
  -- the element's own store, whichever it is, is at payload index (0, p, q)
  have hit : ∀ (a' b' : Fin 2) inbA inbB hn, a' = a → b' = b →
      (Rect.unit (s := S2x2x1x128x4096) ![a'.val, 0, 0, 0, 0] S1x2x1x128x4096.size inbA).emb
        (Shape.reshapeEquiv hn ((Rect.unit (s := S2x128x4096) ![b'.val, 0, 0] S1x128x4096.size inbB).emb
          (ix3 (⟨0, Nat.one_pos⟩ : Fin 1) p q))) = ix5 a b (⟨0, Nat.one_pos⟩ : Fin 1) p q := by
    intro a' b' inbA inbB hn ha hb; subst ha; subst hb
    exact place a' b' inbA inbB hn _
  -- a store into another row or half slot has no element there
  have miss : ∀ (a' b' : Fin 2) inbA inbB hn, (a' ≠ a ∨ b' ≠ b) →
      ∀ x, (Rect.unit (s := S2x2x1x128x4096) ![a'.val, 0, 0, 0, 0] S1x2x1x128x4096.size inbA).emb
        (Shape.reshapeEquiv hn ((Rect.unit (s := S2x128x4096) ![b'.val, 0, 0] S1x128x4096.size inbB).emb x))
          ≠ ix5 a b (⟨0, Nat.one_pos⟩ : Fin 1) p q := by
    intro a' b' inbA inbB hn hne x hx
    rw [place a' b' inbA inbB hn x] at hx
    rcases hne with h | h
    · exact h (by have := congrFun hx 0; exact this)
    · exact h (by have := congrFun hx 1; exact this)
  match a, b with
  | ⟨0, _⟩, ⟨0, _⟩ =>
    rw [Cert.ViewWrite.read_write_sub_miss v rM1 hn1 rH1 _ p11 _ (miss 1 1 _ _ hn1 (Or.inl (Fin.ne_of_val_ne (show (1 : ℕ) ≠ 0 by decide)))),
      Cert.ViewWrite.read_write_sub_miss v rM1 hn1 rH0 _ p10 _ (miss 1 0 _ _ hn1 (Or.inl (Fin.ne_of_val_ne (show (1 : ℕ) ≠ 0 by decide)))),
      Cert.ViewWrite.read_write_sub_miss v rM0 hn0 rH1 _ p01 _ (miss 0 1 _ _ hn0 (Or.inr (Fin.ne_of_val_ne (show (1 : ℕ) ≠ 0 by decide)))),
      Cert.ViewWrite.read_write_sub_hit v rM0 hn0 rH0 _ p00 _ _ (hit 0 0 _ _ hn0 rfl rfl)]
    rfl
  | ⟨0, _⟩, ⟨1, _⟩ =>
    rw [Cert.ViewWrite.read_write_sub_miss v rM1 hn1 rH1 _ p11 _ (miss 1 1 _ _ hn1 (Or.inl (Fin.ne_of_val_ne (show (1 : ℕ) ≠ 0 by decide)))),
      Cert.ViewWrite.read_write_sub_miss v rM1 hn1 rH0 _ p10 _ (miss 1 0 _ _ hn1 (Or.inl (Fin.ne_of_val_ne (show (1 : ℕ) ≠ 0 by decide)))),
      Cert.ViewWrite.read_write_sub_hit v rM0 hn0 rH1 _ p01 _ _ (hit 0 1 _ _ hn0 rfl rfl)]
    rfl
  | ⟨1, _⟩, ⟨0, _⟩ =>
    rw [Cert.ViewWrite.read_write_sub_miss v rM1 hn1 rH1 _ p11 _ (miss 1 1 _ _ hn1 (Or.inr (Fin.ne_of_val_ne (show (1 : ℕ) ≠ 0 by decide)))),
      Cert.ViewWrite.read_write_sub_hit v rM1 hn1 rH0 _ p10 _ _ (hit 1 0 _ _ hn1 rfl rfl)]
    rfl
  | ⟨1, _⟩, ⟨1, _⟩ =>
    rw [Cert.ViewWrite.read_write_sub_hit v rM1 hn1 rH1 _ p11 _ _ (hit 1 1 _ _ hn1 rfl rfl)]
    rfl

/-! ## The body's triple -/

set_option maxHeartbeats 8000000 in
/-- The kernel body on whole staging memrefs — the four inputs' at read contents, the two outputs' at anything — runs
    to the continuation holding the inputs' as they were, the first output's at `out4` and the second's at `out5`. The
    second output's memref is taken as its whole buffer (its view covers it), which is what the stores through the
    rows' views are stepped against; what they leave is `read5`. -/
theorem sound_kernel (c : Dev nD) (E : Set ℕ) (i : grid0.Coords)
    (arg2 : Memref sig .tc .vmem S128x3 .f32) (harg2 : arg2.IsWhole) (arg3 : Memref sig .tc .vmem S1x1x3 .f32) (harg3 : arg3.IsWhole)
    (arg4 : Memref sig .tc .vmem S3x8192 .f32) (harg4 : arg4.IsWhole) (arg5 : Memref sig .tc .vmem S2x1 .f32) (harg5 : arg5.IsWhole)
    (arg6 : Memref sig .tc .vmem S2x1x128x4096 .f32) (harg6 : arg6.IsWhole) (arg7 : Memref sig .tc .vmem S2x2x1x128x4096 .i32) (harg7 : arg7.IsWhole)
    (x0 : Vec F S128x3 .f32) (x1 : Vec F S1x1x3 .f32) (x2 : Vec F S3x8192 .f32) (x3 : Vec F S2x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out4 i x0 x1 x2)
            ∗ owns (c : Thread nD τ) arg7 fullShare (out5 i x0 x1 x2 x3)) -∗ K ⟨⟩))
      ⊢ wp frame (wpE (defs₀ (F := F)) Variants.none c none) E (cc0__nbl_kernel i arg2 harg2 arg3 harg3 arg4 harg4 arg5 harg5 arg6 harg6 arg7 harg7) K := by
  simp only [cc0__nbl_kernel_eq_skeleton]; unfold cc0__nbl_kernel_skel
  repeat (first | (simp only [k0_part2_eq_skeleton]; unfold k0_part2_skel) | (simp only [k0_part1_eq_skeleton]; unfold k0_part1_skel))
  unfold owns
  rw [harg7.set_eq_univ]
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4 _ _)
  iexists _; isplitr
  swap; · iexact H5
  ipureintro
  sl_unfold_run_names
  exact read5 arg7.view f5 (hnum rM0 rfl) (hnum rM1 rfl) _ _ _ _

end Cert.Kernel.Body

end
-- ==== Proof.KB.Run.lean ====
/-
  The proof data of the one pipeline, the body's obligation at every grid point, and the program's run.

  After the body at point `t` each of the four input buffers still holds its block, the first output's buffer holds
  the tile of squared lengths of the point's blocks in both half slots, and the second output's the two cutoffs' bits
  (`out4`, `out5` of the blocks). Nothing is carried from one point to the next.
-/
import proofs.«417794_j5214090297976_3_alg».proof.Proof.KB.Body

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input's buffer at its block,
    the outputs' at `out4` / `out5` of the point's blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (grid0.coords t) (iblk m c 0 t) (iblk m c 1 t) (iblk m c 2 t)
    | ⟨5, _⟩ => out5 (grid0.coords t) (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out4 (grid0.coords t) (iblk m c 0 t) (iblk m c 1 t) (iblk m c 2 t) := by dsimp only [dats]
theorem after0_5 (c : Dev nD) (t : Fin cfg0.N) :
    (dats m 0 c).after 5 t = out5 (grid0.coords t) (iblk m c 0 t) (iblk m c 1 t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's owed count pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters: every weakly fair execution of the program terminates, and in every final
    state each array of the pipeline holds what the library computes from the proof data and every other unscoped
    buffer what the host lines after the region leave in it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end without a fault and leaves its six argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KI.Body.lean ====
/-
  The kernel body at one grid point, as a triple, and what its two output blocks hold afterwards.

  The body reads the three coordinate columns of the first atoms' block `x0 : [128, 3]`, the image's shift `x1 : [1, 1, 3]`,
  and, of the second atoms' table `x2 : [3, 8192]`, the three rows restricted to the point's 4096 columns; from these it
  computes one `[128, 4096]` tile of squared lengths (`d2blk`) and stores it into BOTH half slots of the first output
  block; then for each cutoff `r` it compares the tile with the cutoff's square and stores the widened bits into both half
  slots of row `r` of the second output block, through a view of that row (a slice with its unit axis dropped).
  After the body every element of both blocks has been stored: the first block holds the tile at `(h, 0, p, q) ↦ (p, q)`,
  the second holds cutoff `r`'s bits at `(r, h, 0, p, q) ↦ (p, q)`, whatever the blocks held before.
-/
import proofs.«417794_j5214090297976_3_alg».proof.Proof.Gen.KernelIdeal.Frame
import proofs.«417794_j5214090297976_3_alg».proof.Proof.Gen.KernelIdeal.Skeleton
import proofs.«417794_j5214090297976_3_alg».proof.Proof.LibViewWrite
import Idealize.ShloMosaic.Lib.Pipeline.Frame
import Idealize.ShloMosaic.Lib.Exec.Geometry
import Idealize.ShloMosaic.Lib.ValueIdx
import Idealize.ShloMosaic.Lib.ValueLayout

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- Column `k` of the first atoms' block, -/
abbrev rP0 : Rect S128x3 := Rect.unit (s := S128x3) ![0, 0] S128x1.size inb_S128x3_S128x1_0_0
abbrev rP1 : Rect S128x3 := Rect.unit (s := S128x3) ![0, 1] S128x1.size inb_S128x3_S128x1_0_1
abbrev rP2 : Rect S128x3 := Rect.unit (s := S128x3) ![0, 2] S128x1.size inb_S128x3_S128x1_0_2
/-- the shift's whole block, -/
abbrev rS : Rect S1x1x3 := Rect.unit (s := S1x1x3) ![0, 0, 0] S1x1x3.size inb_S1x1x3_S1x1x3_0_0_0
/-- row `k` of the second atoms' table over the point's 4096 columns, -/
abbrev rQ0 (i : grid0.Coords) : Rect S3x8192 := Rect.unit (s := S3x8192) (k0_off1 i) S1x4096.size (k0_off1_inb i)
abbrev rQ1 (i : grid0.Coords) : Rect S3x8192 := Rect.unit (s := S3x8192) (k0_off2 i) S1x4096.size (k0_off2_inb i)
abbrev rQ2 (i : grid0.Coords) : Rect S3x8192 := Rect.unit (s := S3x8192) (k0_off3 i) S1x4096.size (k0_off3_inb i)
/-- cutoff `r`'s one element, -/
abbrev rC0 : Rect S2x1 := Rect.unit (s := S2x1) ![0, 0] S1x1.size inb_S2x1_S1x1_0_0
abbrev rC1 : Rect S2x1 := Rect.unit (s := S2x1) ![1, 0] S1x1.size inb_S2x1_S1x1_1_0
/-- half slot `h` of the first output block, -/
abbrev rD0 : Rect S2x1x128x4096 := Rect.unit (s := S2x1x128x4096) ![0, 0, 0, 0] S1x1x128x4096.size inb_S2x1x128x4096_S1x1x128x4096_0_0_0_0
abbrev rD1 : Rect S2x1x128x4096 := Rect.unit (s := S2x1x128x4096) ![1, 0, 0, 0] S1x1x128x4096.size inb_S2x1x128x4096_S1x1x128x4096_1_0_0_0
/-- row `r` of the second output block, and half slot `h` of such a row with the row's unit axes dropped. -/
abbrev rM0 : Rect S2x2x1x128x4096 := Rect.unit (s := S2x2x1x128x4096) ![0, 0, 0, 0, 0] S1x2x1x128x4096.size inb_S2x2x1x128x4096_S1x2x1x128x4096_0_0_0_0_0
abbrev rM1 : Rect S2x2x1x128x4096 := Rect.unit (s := S2x2x1x128x4096) ![1, 0, 0, 0, 0] S1x2x1x128x4096.size inb_S2x2x1x128x4096_S1x2x1x128x4096_1_0_0_0_0
abbrev rH0 : Rect S2x128x4096 := Rect.unit (s := S2x128x4096) ![0, 0, 0] S1x128x4096.size inb_S2x128x4096_S1x128x4096_0_0_0
abbrev rH1 : Rect S2x128x4096 := Rect.unit (s := S2x128x4096) ![1, 0, 0] S1x128x4096.size inb_S2x128x4096_S1x128x4096_1_0_0

/-! ## What the body computes -/

/-- The tile of squared lengths at point `i`, from the three input blocks. -/
def d2blk (i : grid0.Coords) (x0 : Vec F S128x3 .f32) (x1 : Vec F S1x1x3 .f32) (x2 : Vec F S3x8192 .f32) : FVec F S128x4096 .f32 :=
  k0_pay4 (View.ld x0 rP0) (View.ld x0 rP1) (View.ld x0 rP2) (View.ld x1 rS) (View.ld x2 (rQ0 i)) (View.ld x2 (rQ1 i)) (View.ld x2 (rQ2 i))

/-- The first output block after the body: the tile in both half slots (the later store listed first). -/
def out4 (i : grid0.Coords) (x0 : Vec F S128x3 .f32) (x1 : Vec F S1x1x3 .f32) (x2 : Vec F S3x8192 .f32) : Vec F S2x1x128x4096 .f32 :=
  View.canon [⟨rD1, k0_pay6 (d2blk i x0 x1 x2)⟩, ⟨rD0, k0_pay5 (d2blk i x0 x1 x2)⟩]

theorem cover4 (p1 p0 : Vec F S1x1x128x4096 .f32) (y : S2x1x128x4096.Idx) :
    ∃ pc ∈ ([⟨rD1, p1⟩, ⟨rD0, p0⟩] : List (View.Piece (Elt F) S2x1x128x4096 .f32)), y ∈ pc.1.set :=
  View.cover_of_tiled [⟨rD1, p1⟩, ⟨rD0, p0⟩] S1x1x128x4096.size (by rfl) y

/-- The second output block after the body: cutoff `y 0`'s widened bits, half slot `y 1`, at `(y 3, y 4)`. -/
def out5 (i : grid0.Coords) (x0 : Vec F S128x3 .f32) (x1 : Vec F S1x1x3 .f32) (x2 : Vec F S3x8192 .f32) (x3 : Vec F S2x1 .f32) :
    Vec F S2x2x1x128x4096 .i32 := fun y =>
  let z : S1x128x4096.Idx := ix3 (⟨0, Nat.one_pos⟩ : Fin 1) (⟨(y 3).val, (y 3).isLt⟩ : Fin 128) (⟨(y 4).val, (y 4).isLt⟩ : Fin 4096)
  if (y 0).val = 0 then
    (if (y 1).val = 0 then k0_pay8 (d2blk i x0 x1 x2) (View.ld x3 rC0) z else k0_pay9 (d2blk i x0 x1 x2) (View.ld x3 rC0) z)
  else
    (if (y 1).val = 0 then k0_pay2 (d2blk i x0 x1 x2) (View.ld x3 rC1) z else k0_pay3 (d2blk i x0 x1 x2) (View.ld x3 rC1) z)

/-! ## Where the four bit stores land -/

/-- The place, in the second output block, of element `x` of the store into half slot `b` of row `a`: the row's
    rectangle after the dropped unit axes are put back, `(a, b, 0, x 1, x 2)`. -/
theorem place (a b : Fin 2)
    (inbA : ∀ ax, (![a.val, 0, 0, 0, 0] : Fin 5 → Nat) ax + S1x2x1x128x4096.size ax ≤ S2x2x1x128x4096.size ax)
    (inbB : ∀ ax, (![b.val, 0, 0] : Fin 3 → Nat) ax + S1x128x4096.size ax ≤ S2x128x4096.size ax)
    (hn : S2x128x4096.numel = (Rect.unit (s := S2x2x1x128x4096) ![a.val, 0, 0, 0, 0] S1x2x1x128x4096.size inbA).shape.numel)
    (x : (Rect.unit (s := S2x128x4096) ![b.val, 0, 0] S1x128x4096.size inbB).shape.Idx) :
    (Rect.unit (s := S2x2x1x128x4096) ![a.val, 0, 0, 0, 0] S1x2x1x128x4096.size inbA).emb
        (Shape.reshapeEquiv hn ((Rect.unit (s := S2x128x4096) ![b.val, 0, 0] S1x128x4096.size inbB).emb x))
      = ix5 a b (⟨0, Nat.one_pos⟩ : Fin 1) (⟨(x 1).val, (x 1).isLt⟩ : Fin 128) (⟨(x 2).val, (x 2).isLt⟩ : Fin 4096) := by
  have hx0 : (x 0).val = 0 := by have := (x 0).isLt; change (x 0).val < 1 at this; omega
  have h1 : (Rect.unit (s := S2x128x4096) ![b.val, 0, 0] S1x128x4096.size inbB).emb x
      = ix3 b (⟨(x 1).val, (x 1).isLt⟩ : Fin 128) (⟨(x 2).val, (x 2).isLt⟩ : Fin 4096) := by
    funext ax; apply Fin.ext
    match ax with
    | ⟨0, _⟩ => show b.val + 1 * (x 0).val = b.val; omega
    | ⟨1, _⟩ => show 0 + 1 * (x 1).val = (x 1).val; omega
    | ⟨2, _⟩ => show 0 + 1 * (x 2).val = (x 2).val; omega
  rw [h1]
  have h2 := reshapeEquiv_ix3_1a1bc (a := 2) (b := 128) (c := 4096) hn b (⟨(x 1).val, (x 1).isLt⟩ : Fin 128) (⟨(x 2).val, (x 2).isLt⟩ : Fin 4096)
  rw [h2]
  funext ax; apply Fin.ext
  match ax with
  | ⟨0, _⟩ => show a.val + 1 * 0 = a.val; omega
  | ⟨1, _⟩ => show 0 + 1 * b.val = b.val; omega
  | ⟨2, _⟩ => show 0 + 1 * 0 = 0; omega
  | ⟨3, _⟩ => show 0 + 1 * (x 1).val = (x 1).val; omega
  | ⟨4, _⟩ => show 0 + 1 * (x 2).val = (x 2).val; omega

/-! ## The second output block after the four bit stores -/

/-- The dropped-unit-axes view of row `a` of the second output block has as many elements as the row. -/
theorem hnum (RA : Rect S2x2x1x128x4096) (hz : RA.size = S1x2x1x128x4096.size) : S2x128x4096.numel = RA.shape.numel := by
  show S2x128x4096.numel = (⟨5, RA.size⟩ : Shape).numel
  rw [hz]; rfl

/-- Four stores, one into each half slot of each row (row 0 first, half slot 0 first), through the rows' views:
    read back through the whole block, element `(a, b, 0, p, q)` is the payload stored into half slot `b` of row `a`,
    at `(0, p, q)` — each store's own elements found there, every later store missing them. -/
theorem read5 {κ : Kind} {sp : Space} {Val : EltTy → Type} (v : View sig κ sp S2x2x1x128x4096 .i32) (f : v.ty.Contents Val)
    (hn0 : S2x128x4096.numel = rM0.shape.numel) (hn1 : S2x128x4096.numel = rM1.shape.numel)
    (p00 p01 p10 p11 : S1x128x4096.Idx → Val .i32) :
    v.read Val
        ((((v.slice rM1).reshape S2x128x4096 hn1).slice rH1).write Val
          ((((v.slice rM1).reshape S2x128x4096 hn1).slice rH0).write Val
            ((((v.slice rM0).reshape S2x128x4096 hn0).slice rH1).write Val
              ((((v.slice rM0).reshape S2x128x4096 hn0).slice rH0).write Val f p00 Finset.univ)
              p01 Finset.univ)
            p10 Finset.univ)
          p11 Finset.univ)
      = fun y =>
          let z : S1x128x4096.Idx := ix3 (⟨0, Nat.one_pos⟩ : Fin 1) (⟨(y 3).val, (y 3).isLt⟩ : Fin 128) (⟨(y 4).val, (y 4).isLt⟩ : Fin 4096)
          if (y 0).val = 0 then (if (y 1).val = 0 then p00 z else p01 z) else (if (y 1).val = 0 then p10 z else p11 z) := by
  funext y
  obtain ⟨a, b, u, p, q, rfl⟩ : ∃ (a : Fin 2) (b : Fin 2) (u : Fin 1) (p : Fin 128) (q : Fin 4096), y = ix5 a b u p q :=
    ⟨y 0, y 1, y 2, y 3, y 4, eq_ix5 y⟩
  obtain rfl : u = ⟨0, Nat.one_pos⟩ := Subsingleton.elim _ _
  -- the element's own store, whichever it is, is at payload index (0, p, q)
  have hit : ∀ (a' b' : Fin 2) inbA inbB hn, a' = a → b' = b →
      (Rect.unit (s := S2x2x1x128x4096) ![a'.val, 0, 0, 0, 0] S1x2x1x128x4096.size inbA).emb
        (Shape.reshapeEquiv hn ((Rect.unit (s := S2x128x4096) ![b'.val, 0, 0] S1x128x4096.size inbB).emb
          (ix3 (⟨0, Nat.one_pos⟩ : Fin 1) p q))) = ix5 a b (⟨0, Nat.one_pos⟩ : Fin 1) p q := by
    intro a' b' inbA inbB hn ha hb; subst ha; subst hb
    exact place a' b' inbA inbB hn _
  -- a store into another row or half slot has no element there
  have miss : ∀ (a' b' : Fin 2) inbA inbB hn, (a' ≠ a ∨ b' ≠ b) →
      ∀ x, (Rect.unit (s := S2x2x1x128x4096) ![a'.val, 0, 0, 0, 0] S1x2x1x128x4096.size inbA).emb
        (Shape.reshapeEquiv hn ((Rect.unit (s := S2x128x4096) ![b'.val, 0, 0] S1x128x4096.size inbB).emb x))
          ≠ ix5 a b (⟨0, Nat.one_pos⟩ : Fin 1) p q := by
    intro a' b' inbA inbB hn hne x hx
    rw [place a' b' inbA inbB hn x] at hx
    rcases hne with h | h
    · exact h (by have := congrFun hx 0; exact this)
    · exact h (by have := congrFun hx 1; exact this)
  match a, b with
  | ⟨0, _⟩, ⟨0, _⟩ =>
    rw [Cert.ViewWrite.read_write_sub_miss v rM1 hn1 rH1 _ p11 _ (miss 1 1 _ _ hn1 (Or.inl (Fin.ne_of_val_ne (show (1 : ℕ) ≠ 0 by decide)))),
      Cert.ViewWrite.read_write_sub_miss v rM1 hn1 rH0 _ p10 _ (miss 1 0 _ _ hn1 (Or.inl (Fin.ne_of_val_ne (show (1 : ℕ) ≠ 0 by decide)))),
      Cert.ViewWrite.read_write_sub_miss v rM0 hn0 rH1 _ p01 _ (miss 0 1 _ _ hn0 (Or.inr (Fin.ne_of_val_ne (show (1 : ℕ) ≠ 0 by decide)))),
      Cert.ViewWrite.read_write_sub_hit v rM0 hn0 rH0 _ p00 _ _ (hit 0 0 _ _ hn0 rfl rfl)]
    rfl
  | ⟨0, _⟩, ⟨1, _⟩ =>
    rw [Cert.ViewWrite.read_write_sub_miss v rM1 hn1 rH1 _ p11 _ (miss 1 1 _ _ hn1 (Or.inl (Fin.ne_of_val_ne (show (1 : ℕ) ≠ 0 by decide)))),
      Cert.ViewWrite.read_write_sub_miss v rM1 hn1 rH0 _ p10 _ (miss 1 0 _ _ hn1 (Or.inl (Fin.ne_of_val_ne (show (1 : ℕ) ≠ 0 by decide)))),
      Cert.ViewWrite.read_write_sub_hit v rM0 hn0 rH1 _ p01 _ _ (hit 0 1 _ _ hn0 rfl rfl)]
    rfl
  | ⟨1, _⟩, ⟨0, _⟩ =>
    rw [Cert.ViewWrite.read_write_sub_miss v rM1 hn1 rH1 _ p11 _ (miss 1 1 _ _ hn1 (Or.inr (Fin.ne_of_val_ne (show (1 : ℕ) ≠ 0 by decide)))),
      Cert.ViewWrite.read_write_sub_hit v rM1 hn1 rH0 _ p10 _ _ (hit 1 0 _ _ hn1 rfl rfl)]
    rfl
  | ⟨1, _⟩, ⟨1, _⟩ =>
    rw [Cert.ViewWrite.read_write_sub_hit v rM1 hn1 rH1 _ p11 _ _ (hit 1 1 _ _ hn1 rfl rfl)]
    rfl

/-! ## The body's triple -/

set_option maxHeartbeats 8000000 in
/-- The kernel body on whole staging memrefs — the four inputs' at read contents, the two outputs' at anything — runs
    to the continuation holding the inputs' as they were, the first output's at `out4` and the second's at `out5`. The
    second output's memref is taken as its whole buffer (its view covers it), which is what the stores through the
    rows' views are stepped against; what they leave is `read5`. -/
theorem sound_kernel (c : Dev nD) (E : Set ℕ) (i : grid0.Coords)
    (arg2 : Memref sig .tc .vmem S128x3 .f32) (harg2 : arg2.IsWhole) (arg3 : Memref sig .tc .vmem S1x1x3 .f32) (harg3 : arg3.IsWhole)
    (arg4 : Memref sig .tc .vmem S3x8192 .f32) (harg4 : arg4.IsWhole) (arg5 : Memref sig .tc .vmem S2x1 .f32) (harg5 : arg5.IsWhole)
    (arg6 : Memref sig .tc .vmem S2x1x128x4096 .f32) (harg6 : arg6.IsWhole) (arg7 : Memref sig .tc .vmem S2x2x1x128x4096 .i32) (harg7 : arg7.IsWhole)
    (x0 : Vec F S128x3 .f32) (x1 : Vec F S1x1x3 .f32) (x2 : Vec F S3x8192 .f32) (x3 : Vec F S2x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out4 i x0 x1 x2)
            ∗ owns (c : Thread nD τ) arg7 fullShare (out5 i x0 x1 x2 x3)) -∗ K ⟨⟩))
      ⊢ wp frame (wpE (defs₀ (F := F)) Variants.none c none) E (cc0__nbl_kernel i arg2 harg2 arg3 harg3 arg4 harg4 arg5 harg5 arg6 harg6 arg7 harg7) K := by
  simp only [cc0__nbl_kernel_eq_skeleton]; unfold cc0__nbl_kernel_skel
  repeat (first | (simp only [k0_part2_eq_skeleton]; unfold k0_part2_skel) | (simp only [k0_part1_eq_skeleton]; unfold k0_part1_skel))
  unfold owns
  rw [harg7.set_eq_univ]
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4 _ _)
  iexists _; isplitr
  swap; · iexact H5
  ipureintro
  sl_unfold_run_names
  exact read5 arg7.view f5 (hnum rM0 rfl) (hnum rM1 rfl) _ _ _ _

end Cert.KernelIdeal.Body

end
-- ==== Proof.KI.Run.lean ====
/-
  The proof data of the one pipeline, the body's obligation at every grid point, and the program's run.

  After the body at point `t` each of the four input buffers still holds its block, the first output's buffer holds
  the tile of squared lengths of the point's blocks in both half slots, and the second output's the two cutoffs' bits
  (`out4`, `out5` of the blocks). Nothing is carried from one point to the next.
-/
import proofs.«417794_j5214090297976_3_alg».proof.Proof.KI.Body

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input's buffer at its block,
    the outputs' at `out4` / `out5` of the point's blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (grid0.coords t) (iblk m c 0 t) (iblk m c 1 t) (iblk m c 2 t)
    | ⟨5, _⟩ => out5 (grid0.coords t) (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out4 (grid0.coords t) (iblk m c 0 t) (iblk m c 1 t) (iblk m c 2 t) := by dsimp only [dats]
theorem after0_5 (c : Dev nD) (t : Fin cfg0.N) :
    (dats m 0 c).after 5 t = out5 (grid0.coords t) (iblk m c 0 t) (iblk m c 1 t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's owed count pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters: every weakly fair execution of the program terminates, and in every final
    state each array of the pipeline holds what the library computes from the proof data and every other unscoped
    buffer what the host lines after the region leave in it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end without a fault and leaves its six argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.LibColumn.lean ====
/-
  Column vectors read at an index, and a two-entry weight matrix built from them.

  A vector [a] viewed as a column [a, 1] reads its entry p at (p, 0); a column [a, 1] broadcast along a second axis
  to [a, b] reads, at (p, k), the column's entry p.  From these: the matrix whose row p holds (one − w p) at the
  column numbered by the word i p, w p at the column numbered by the next word, and zero elsewhere, when it is
  spelt with two selects over comparisons of a column-number iota against the broadcast words.  And the sum of
  an [a, b] matrix along its second axis, read at p: the sum of row p's entries.
-/
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.Column

open Idealize.ShloMosaic Idealize.ShloMosaic.ValueIdx

variable {α : Type}

/-- An [a] array cast to [a, 1] reads, at (p, u), the operand at p, whatever the unit coordinate u. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, k), the operand's one column at p. -/
theorem broadcastTo_a1_ab_apply {a b : ℕ} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- A select on a word comparison for equality is a conditional on the equality. -/
theorem select_cmpi_eq {w : ℕ} (A B : BitVec w) (x y : α) :
    Scalar.select (IntOp.cmpi .eq A B) x y = if A = B then x else y := by
  unfold Scalar.select
  exact if_congr StableHlo.Predicate.cmpi_eq_iff rfl rfl

/-- THE WEIGHT MATRIX at (p, k): one − w p where column k is the word i p, w p where it is the next word, else zero. -/
theorem weights_apply {a b : ℕ} (i : IVec ⟨1, ![a]⟩ 32) (w : FVec Ideal ⟨1, ![a]⟩ .f32) (one zero : Ideal .f32)
    (hc : (⟨1, ![a]⟩ : Shape).ShapeCasts ⟨2, ![a, 1]⟩) (hc' : (⟨2, ![a, 1]⟩ : Shape).ShapeCasts ⟨2, ![a, 1]⟩)
    (hb : (⟨2, ![a, 1]⟩ : Shape).Broadcasts ⟨2, ![a, b]⟩) (hi : (⟨2, ![a, b]⟩ : Shape).Iotas .tc 32 [1])
    (p : Fin a) (k : Fin b) :
    select (cmpi .eq (iota .tc ⟨2, ![a, b]⟩ 32 [1] hi) (broadcastTo ⟨2, ![a, b]⟩ (shapeCast ⟨2, ![a, 1]⟩ i hc) hb))
        (broadcastTo ⟨2, ![a, b]⟩ (shapeCast ⟨2, ![a, 1]⟩
          (subf (broadcast ⟨2, ![a, 1]⟩ one) (shapeCast ⟨2, ![a, 1]⟩ w hc)) hc') hb)
        (select (cmpi .eq (iota .tc ⟨2, ![a, b]⟩ 32 [1] hi)
            (broadcastTo ⟨2, ![a, b]⟩ (addi (shapeCast ⟨2, ![a, 1]⟩ i hc) (broadcast ⟨2, ![a, 1]⟩ 1#32)) hb))
          (broadcastTo ⟨2, ![a, b]⟩ (shapeCast ⟨2, ![a, 1]⟩ (shapeCast ⟨2, ![a, 1]⟩ w hc) hc') hb)
          (broadcast ⟨2, ![a, b]⟩ zero)) (ix2 p k)
      = if BitVec.ofNat 32 k.val = i (ix1 p) then one - w (ix1 p)
        else if BitVec.ofNat 32 k.val = i (ix1 p) + 1#32 then w (ix1 p) else zero := by
  rw [select_apply, select_apply]
  show Scalar.select (IntOp.cmpi .eq (iota .tc ⟨2, ![a, b]⟩ 32 [1] hi (ix2 p k)) _) _
      (Scalar.select (IntOp.cmpi .eq (iota .tc ⟨2, ![a, b]⟩ 32 [1] hi (ix2 p k)) _) _ _) = _
  rw [select_cmpi_eq, select_cmpi_eq, iota_single_apply, broadcastTo_a1_ab_apply, broadcastTo_a1_ab_apply,
    broadcastTo_a1_ab_apply, broadcastTo_a1_ab_apply, shapeCast_self, shapeCast_self, shapeCast_a_a1_apply]
  show (if BitVec.ofNat 32 k.val = i (ix1 p) then one - shapeCast ⟨2, ![a, 1]⟩ w hc (ix2 p 0) else
      if BitVec.ofNat 32 k.val = shapeCast ⟨2, ![a, 1]⟩ i hc (ix2 p 0) + 1#32
      then shapeCast ⟨2, ![a, 1]⟩ w hc (ix2 p 0) else zero) = _
  rw [shapeCast_a_a1_apply, shapeCast_a_a1_apply]

/-- The index over p with lane c inserted on the second axis is (p, c). -/
theorem lift_lane {a b : ℕ} (h : (⟨2, ![a, b]⟩ : Shape).Reduces [1] ⟨1, ![a]⟩) (p : Fin a) (c : Fin b) :
    h.lift (ix1 p) c = ix2 p c := by
  funext ax; refine Fin.ext ?_
  show h.liftVal (ix1 p) c.val ax = (ix2 p c ax).val
  match ax with
  | ⟨0, _⟩ => simp [Shape.Reduces.liftVal]
  | ⟨1, _⟩ => simp [Shape.Reduces.liftVal]

/-- A sum along the second axis into a zero accumulator, read at p: the sum of row p. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ c : Fin b, src (ix2 p c) :=
  (Ideal.multiReduction_add_single src _ h hφ hacc (ix1 p)).trans
    (Finset.sum_congr rfl fun c _ => congrArg src (lift_lane h p c))

end Cert.Column

end
-- ==== Proof.KI.Tile.lean ====
/-
  The body's payloads read at an index, on the extended reals.

  Entry `(p, q)` of the tile of squared lengths depends on row `p` of the first atoms' block, column `q` of the point's
  4096 columns of the second atoms' table, and the image's shift: with `e k = (P k - Q k) + S k` for the three coordinates
  it is `e 0 · e 0 + e 1 · e 1 + e 2 · e 2`. A cutoff's stored word at `(0, p, q)` is the comparison bit "tile entry below the
  cutoff's square", widened to 32 bits; a widened bit is nonzero exactly when the bit is one.
-/
import proofs.«417794_j5214090297976_3_alg».proof.Proof.KI.Body
import proofs.«417794_j5214090297976_3_alg».proof.Proof.LibColumn
import Idealize.ShloMosaic.Lib.Pipeline.Value

set_option maxRecDepth 16384

noncomputable section

namespace Cert.KernelIdeal.Body

open Cert.KernelIdeal Cert.KernelIdeal.Gen
open Idealize.ShloMosaic Idealize.ShloMosaic.ValueIdx

/-- The squared length from the three coordinates of the two atoms and of the shift. -/
def tileAt (P Q S : Fin 3 → EReal) : EReal :=
  ((P 0 - Q 0) + S 0) * ((P 0 - Q 0) + S 0) + ((P 1 - Q 1) + S 1) * ((P 1 - Q 1) + S 1) + ((P 2 - Q 2) + S 2) * ((P 2 - Q 2) + S 2)

/-! ## The loads read at an index -/

/-- Column `k` of the first atoms' block, loaded as a `[128, 1]` column, reads row `p` of that column. -/
theorem ldP (x0 : Vec Ideal S128x3 .f32) (o : Nat) (inb : ∀ a, (![0, o] : Fin 2 → Nat) a + S128x1.size a ≤ S128x3.size a)
    (p : Fin 128) (k : Fin 3) (hk : k.val = o) :
    View.ld x0 (Rect.unit (s := S128x3) ![0, o] S128x1.size inb) (ix2 p (0 : Fin 1)) = x0 (ix2 p k) := by
  show x0 _ = x0 _
  congr 1
  funext a; apply Fin.ext
  match a with
  | ⟨0, _⟩ => show 0 + 1 * p.val = p.val; omega
  | ⟨1, _⟩ => show o + 1 * 0 = k.val; omega

/-- Row `k` of the second atoms' table over the point's columns, loaded as a `[1, 4096]` row, reads the table's
    column `4096 · (i 1) + q` at `q`. -/
theorem ldQ (x2 : Vec Ideal S3x8192 .f32) (off : Fin 2 → Nat) (inb : ∀ a, off a + S1x4096.size a ≤ S3x8192.size a)
    (k : Fin 3) (c : Nat) (hoff : off = ![k.val, c]) (q : Fin 4096) (Q : Fin 8192) (hQ : Q.val = c + q.val) :
    View.ld x2 (Rect.unit (s := S3x8192) off S1x4096.size inb) (ix2 (0 : Fin 1) q) = x2 (ix2 k Q) := by
  subst hoff
  show x2 _ = x2 _
  congr 1
  funext a; apply Fin.ext
  match a with
  | ⟨0, _⟩ => show k.val + 1 * 0 = k.val; omega
  | ⟨1, _⟩ => show c + 1 * q.val = Q.val; omega

/-- The one element of a `[1, 1]` array. -/
theorem extractAt_00 {α : Type} (v : S1x1.Idx → α) : extractAt ![0, 0] v inpos_S1x1_p0_0 = v (ix2 (0 : Fin 1) (0 : Fin 1)) := by
  unfold extractAt
  congr 1
  funext a; apply Fin.ext
  match a with
  | ⟨0, _⟩ => rfl
  | ⟨1, _⟩ => rfl

/-- Coordinate `k` of the shift: the block with its leading unit axis dropped, cut to column `k`, its one element. -/
theorem shift_apply (x1 : Vec Ideal S1x1x3 .f32) (o : Nat) (hs : S1x3.Slices ![0, o] S1x1) (k : Fin 3) (hk : k.val = o) :
    extractAt ![0, 0] (extractStridedSlice S1x1 ![0, o] (shapeCast S1x3 (View.ld x1 rS) shapeCasts_S1x1x3_S1x3) hs) inpos_S1x1_p0_0
      = x1 (ix3 (0 : Fin 1) (0 : Fin 1) k) := by
  have e : View.ld x1 rS = x1 := View.ld_unit_zero (S := S1x1x3) (by funext a; match a with | ⟨0, _⟩ => rfl | ⟨1, _⟩ => rfl | ⟨2, _⟩ => rfl) _ x1
  rw [e, extractAt_00, slice2_axis1_apply o _ hs (0 : Fin 1) (0 : Fin 1) k (by rw [hk]; rfl), shapeCast_1ab_ab_apply]

/-- One coordinate's term at `(p, q)`: the column's entry `p` minus the row's entry `q`, plus the shift's scalar. -/
theorem coord_apply (P : Vec Ideal S128x1 .f32) (R : Vec Ideal S1x4096 .f32) (s : Ideal .f32) (p : Fin 128) (q : Fin 4096) :
    addf (subf (broadcastTo S128x4096 (shapeCast S128x1 P shapeCasts_S128x1_S128x1) broadcasts_S128x1_S128x4096)
        (broadcastTo S128x4096 (shapeCast S1x4096 R shapeCasts_S1x4096_S1x4096) broadcasts_S1x4096_S128x4096))
      (broadcast S128x4096 s) (ix2 p q) = (P (ix2 p (0 : Fin 1)) - R (ix2 (0 : Fin 1) q)) + s := by
  rw [shapeCast_self, shapeCast_self, addf_apply, subf_apply, broadcast_apply, Cert.Column.broadcastTo_a1_ab_apply, broadcastTo_1b_ab_apply]

/-- THE TILE AT `(p, q)`: column `q` of the point's columns is column `Q = 4096 · (i 1) + q` of the table. -/
theorem d2blk_apply (i : grid0.Coords) (x0 : Vec Ideal S128x3 .f32) (x1 : Vec Ideal S1x1x3 .f32) (x2 : Vec Ideal S3x8192 .f32)
    (p : Fin 128) (q : Fin 4096) (Q : Fin 8192) (hQ : Q.val = 4096 * (i 1).val + q.val) :
    d2blk i x0 x1 x2 (ix2 p q)
      = tileAt (fun k => x0 (ix2 p k)) (fun k => x2 (ix2 k Q)) (fun k => x1 (ix3 (0 : Fin 1) (0 : Fin 1) k)) := by
  unfold d2blk k0_pay4
  simp only [addf_apply, mulf_apply, subf_apply, broadcast_apply, shapeCast_self,
    Cert.Column.broadcastTo_a1_ab_apply, broadcastTo_1b_ab_apply]
  rw [shift_apply x1 0 _ 0 rfl, shift_apply x1 1 _ 1 rfl, shift_apply x1 2 _ 2 rfl,
    ldP x0 0 _ p 0 rfl, ldP x0 1 _ p 1 rfl, ldP x0 2 _ p 2 rfl,
    ldQ x2 (k0_off1 i) (k0_off1_inb i) 0 _ (k0_off1_eq i) q Q hQ,
    ldQ x2 (k0_off2 i) (k0_off2_inb i) 1 _ (k0_off2_eq i) q Q hQ,
    ldQ x2 (k0_off3 i) (k0_off3_inb i) 2 _ (k0_off3_eq i) q Q hQ]
  rfl

/-! ## The cutoffs' stored words -/

/-- Cutoff `r`'s one element, loaded as a `[1, 1]` block. -/
theorem ldC (x3 : Vec Ideal S2x1 .f32) (o : Nat) (inb : ∀ a, (![o, 0] : Fin 2 → Nat) a + S1x1.size a ≤ S2x1.size a)
    (r : Fin 2) (hr : r.val = o) :
    View.ld x3 (Rect.unit (s := S2x1) ![o, 0] S1x1.size inb) (ix2 (0 : Fin 1) (0 : Fin 1)) = x3 (ix2 r (0 : Fin 1)) := by
  show x3 _ = x3 _
  congr 1
  funext a; apply Fin.ext
  match a with
  | ⟨0, _⟩ => show o + 1 * 0 = r.val; omega
  | ⟨1, _⟩ => show 0 + 1 * 0 = 0; rfl

/-- The comparison bit of a tile against a cutoff's `[1, 1]` block, at `(p, q)`. -/
theorem cmp_apply (d : FVec Ideal S128x4096 .f32) (v : Vec Ideal S1x1 .f32) (p : Fin 128) (q : Fin 4096) :
    cmpf .olt d (broadcast S128x4096 (Scalar.mulf (extractAt ![0, 0] v inpos_S1x1_p0_0) (extractAt ![0, 0] v inpos_S1x1_p0_0))) (ix2 p q)
      = FloatOps.cmpf (F := Ideal) .olt (d (ix2 p q)) (v (ix2 (0 : Fin 1) (0 : Fin 1)) * v (ix2 (0 : Fin 1) (0 : Fin 1))) := by
  rw [cmpf_apply, broadcast_apply, extractAt_00, Ideal.scalar_mulf_def]

/-- A cutoff's stored words: the comparison bit against the cutoff's square, widened. Row 0's two stores, -/
theorem pay8_apply (d : FVec Ideal S128x4096 .f32) (x3 : Vec Ideal S2x1 .f32) (u : Fin 1) (p : Fin 128) (q : Fin 4096) :
    k0_pay8 d (View.ld x3 rC0) (ix3 u p q)
      = (FloatOps.cmpf (F := Ideal) .olt (d (ix2 p q)) (x3 (ix2 (0 : Fin 2) (0 : Fin 1)) * x3 (ix2 (0 : Fin 2) (0 : Fin 1)))).setWidth 32 := by
  unfold k0_pay8 k0_pay7
  rw [shapeCast_ab_1ab_apply, extui_apply, cmp_apply, ldC x3 0 _ 0 rfl]
theorem pay9_apply (d : FVec Ideal S128x4096 .f32) (x3 : Vec Ideal S2x1 .f32) (u : Fin 1) (p : Fin 128) (q : Fin 4096) :
    k0_pay9 d (View.ld x3 rC0) (ix3 u p q)
      = (FloatOps.cmpf (F := Ideal) .olt (d (ix2 p q)) (x3 (ix2 (0 : Fin 2) (0 : Fin 1)) * x3 (ix2 (0 : Fin 2) (0 : Fin 1)))).setWidth 32 := by
  unfold k0_pay9 k0_pay7
  rw [shapeCast_ab_1ab_apply, extui_apply, cmp_apply, ldC x3 0 _ 0 rfl]
/-- and row 1's. -/
theorem pay2_apply (d : FVec Ideal S128x4096 .f32) (x3 : Vec Ideal S2x1 .f32) (u : Fin 1) (p : Fin 128) (q : Fin 4096) :
    k0_pay2 d (View.ld x3 rC1) (ix3 u p q)
      = (FloatOps.cmpf (F := Ideal) .olt (d (ix2 p q)) (x3 (ix2 (1 : Fin 2) (0 : Fin 1)) * x3 (ix2 (1 : Fin 2) (0 : Fin 1)))).setWidth 32 := by
  unfold k0_pay2 k0_pay1
  rw [shapeCast_ab_1ab_apply, extui_apply, cmp_apply, ldC x3 1 _ 1 rfl]
theorem pay3_apply (d : FVec Ideal S128x4096 .f32) (x3 : Vec Ideal S2x1 .f32) (u : Fin 1) (p : Fin 128) (q : Fin 4096) :
    k0_pay3 d (View.ld x3 rC1) (ix3 u p q)
      = (FloatOps.cmpf (F := Ideal) .olt (d (ix2 p q)) (x3 (ix2 (1 : Fin 2) (0 : Fin 1)) * x3 (ix2 (1 : Fin 2) (0 : Fin 1)))).setWidth 32 := by
  unfold k0_pay3 k0_pay1
  rw [shapeCast_ab_1ab_apply, extui_apply, cmp_apply, ldC x3 1 _ 1 rfl]

/-- A bit widened to a word is nonzero exactly when the bit is one. -/
theorem ne_zero_setWidth (b : BitVec 1) : IntOp.cmpi .ne (b.setWidth 32) 0#32 = b := by
  by_cases h : b = 1#1
  · subst h; decide
  · rw [eq_zero_of_ne_one h]; decide

/-! ## The tile's two stored copies -/

/-- A `[128, 4096]` array cast to `[1, 1, 128, 4096]` reads, at `(u, u', p, q)`, the operand at `(p, q)`. -/
theorem shapeCast_ab_11ab_apply {α : Type} (x : S128x4096.Idx → α) (h : S128x4096.ShapeCasts S1x1x128x4096)
    (u u' : Fin 1) (p : Fin 128) (q : Fin 4096) : shapeCast S1x1x128x4096 x h (ix4 u u' p q) = x (ix2 p q) :=
  shapeCast_apply x h _ _ (by
    have hu : u.val = 0 := by omega
    have hu' : u'.val = 0 := by omega
    rw [Shape.rowMajor_val_two, Shape.rowMajor_val_four]
    show p.val * 4096 + q.val = ((u.val * 1 + u'.val) * 128 + p.val) * 4096 + q.val
    omega)

/-- Both copies of the tile stored into the first output block read the tile: `(u, u', p, q) ↦ (p, q)`. -/
theorem pay5_apply (d : FVec Ideal S128x4096 .f32) (u u' : Fin 1) (p : Fin 128) (q : Fin 4096) :
    k0_pay5 d (ix4 u u' p q) = d (ix2 p q) := by
  unfold k0_pay5
  exact shapeCast_ab_11ab_apply d _ u u' p q
theorem pay6_apply (d : FVec Ideal S128x4096 .f32) (u u' : Fin 1) (p : Fin 128) (q : Fin 4096) :
    k0_pay6 d (ix4 u u' p q) = d (ix2 p q) := by
  unfold k0_pay6
  exact shapeCast_ab_11ab_apply d _ u u' p q

end Cert.KernelIdeal.Body

end
-- ==== Proof.KI.Arrays.lean ====
/-
  From blocks to arrays: what the two result arrays of the pallas_call hold after the run.

  Point `t = (s, j)` of the 14 × 2 grid writes back the first output's block `[2, 1, 128, 4096]` at block index
  `(0, s, 0, j)` of the array `[2, 14, 128, 8192]`, and the second output's block `[2, 2, 1, 128, 4096]` at `(0, 0, s, 0, j)` of
  `[2, 2, 14, 128, 8192]`; its input blocks are the whole first-atom table, row `s` of the shifts, the whole second-atom
  table and the whole cutoff column. So element `(h, s, a, b)` of the first array is the squared length built from row
  `a` of the first atoms, column `b` of the second atoms and shift `s` (the point's column `q` is table column
  `4096 · j + q`), and element `(r, h, s, a, b)` of the second is cutoff `r`'s widened comparison bit of that squared length.
  Every element of both arrays lies in exactly the block of the point `(s, b / 4096)`.
-/
import proofs.«417794_j5214090297976_3_alg».proof.Proof.KI.Run
import proofs.«417794_j5214090297976_3_alg».proof.Proof.KI.Tile
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-! ## The four arrays the region reads, at their literal types -/

abbrev e5 (c : Dev nD) : FVec Ideal S128x3 .f32 := V m c main_v5
abbrev e4 (c : Dev nD) : FVec Ideal S14x1x3 .f32 := V m c main_v4
abbrev e7 (c : Dev nD) : FVec Ideal S3x8192 .f32 := V m c main_v7
abbrev e8 (c : Dev nD) : FVec Ideal S2x1 .f32 := V m c main_v8

/-- The squared length of first atom `a`, second atom `b` under shift `s`, from those arrays. -/
def sq (c : Dev nD) (s : Fin 14) (a : Fin 128) (b : Fin 8192) : EReal :=
  tileAt (fun k => e5 m c (ix2 a k)) (fun k => e7 m c (ix2 k b)) (fun k => e4 m c (ix3 s (0 : Fin 1) k))

/-- What the first result array ends holding, -/
def G4 (c : Dev nD) : S2x14x128x8192.Idx → EReal := fun y =>
  sq m c ⟨(y 1).val, (y 1).isLt⟩ ⟨(y 2).val, (y 2).isLt⟩ ⟨(y 3).val, (y 3).isLt⟩

/-- and the second: cutoff `y 0`'s comparison bit, widened. -/
def G5 (c : Dev nD) : S2x2x14x128x8192.Idx → BitVec 32 := fun y =>
  (FloatOps.cmpf (F := Ideal) .olt (sq m c ⟨(y 2).val, (y 2).isLt⟩ ⟨(y 3).val, (y 3).isLt⟩ ⟨(y 4).val, (y 4).isLt⟩)
    (e8 m c (ix2 (⟨(y 0).val, (y 0).isLt⟩ : Fin 2) (0 : Fin 1)) * e8 m c (ix2 (⟨(y 0).val, (y 0).isLt⟩ : Fin 2) (0 : Fin 1)))).setWidth 32

/-! ## The printed index maps over the grid -/

/-- Each window's block index at point `t`, coordinate by coordinate, in terms of the point's grid coordinates. -/
theorem idx_facts : ∀ t : Fin cfg0.N,
    win0_0.index t (0 : Fin 2) = 0 ∧ win0_0.index t (1 : Fin 2) = 0
    ∧ win0_1.index t (0 : Fin 3) = (grid0.coords t (0 : Fin 2)).val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 4) = 0 ∧ win0_4.index t (1 : Fin 4) = (grid0.coords t (0 : Fin 2)).val
      ∧ win0_4.index t (2 : Fin 4) = 0 ∧ win0_4.index t (3 : Fin 4) = (grid0.coords t (1 : Fin 2)).val
    ∧ win0_5.index t (0 : Fin 5) = 0 ∧ win0_5.index t (1 : Fin 5) = 0 ∧ win0_5.index t (2 : Fin 5) = (grid0.coords t (0 : Fin 2)).val
      ∧ win0_5.index t (3 : Fin 5) = 0 ∧ win0_5.index t (4 : Fin 5) = (grid0.coords t (1 : Fin 2)).val
    ∧ (grid0.coords t (0 : Fin 2)).val < 14 ∧ (grid0.coords t (1 : Fin 2)).val < 2 :=
  (by decide +kernel : ∀ t : Fin grid0.N, _)

/-- Every pair of grid coordinates is some point's. -/
theorem coords_onto : ∀ (s : Fin 14) (j : Fin 2), ∃ t : Fin cfg0.N,
    (grid0.coords t (0 : Fin 2)).val = s.val ∧ (grid0.coords t (1 : Fin 2)).val = j.val :=
  (by decide +kernel : ∀ (s : Fin 14) (j : Fin 2), ∃ t : Fin grid0.N,
    (grid0.coords t (0 : Fin 2)).val = s.val ∧ (grid0.coords t (1 : Fin 2)).val = j.val)

/-! ## The output blocks after the body, read at an index -/

theorem ix2_congr {n0 n1 : Nat} {a a' : Fin n0} {b b' : Fin n1} (ha : a.val = a'.val) (hb : b.val = b'.val) : ix2 a b = ix2 a' b' := by
  rw [Fin.ext ha, Fin.ext hb]
theorem ix3_congr {n0 n1 n2 : Nat} {a a' : Fin n0} {b b' : Fin n1} {c c' : Fin n2} (ha : a.val = a'.val) (hb : b.val = b'.val)
    (hc : c.val = c'.val) : ix3 a b c = ix3 a' b' c' := by
  rw [Fin.ext ha, Fin.ext hb, Fin.ext hc]

/-- The first output block holds the tile in both half slots: `(h, 0, p, q) ↦ (p, q)`. -/
theorem out4_apply (i : grid0.Coords) (x0 : Vec Ideal S128x3 .f32) (x1 : Vec Ideal S1x1x3 .f32) (x2 : Vec Ideal S3x8192 .f32)
    (h : Fin 2) (u : Fin 1) (p : Fin 128) (q : Fin 4096) :
    out4 i x0 x1 x2 (ix4 h u p q) = d2blk i x0 x1 x2 (ix2 p q) := by
  unfold out4
  refine (View.canon_apply_of_pieces
    (fun y : S2x1x128x4096.Idx => d2blk i x0 x1 x2 (ix2 (⟨(y 2).val, (y 2).isLt⟩ : Fin 128) (⟨(y 3).val, (y 3).isLt⟩ : Fin 4096)))
    _ ?_ (ix4 h u p q) (cover4 _ _ _)).trans rfl
  intro pc hpc x
  rcases List.mem_cons.mp hpc with rfl | hpc
  · obtain ⟨a, b, p', q', rfl⟩ : ∃ (a : Fin 1) (b : Fin 1) (p' : Fin 128) (q' : Fin 4096), x = ix4 a b p' q' :=
      ⟨x 0, x 1, x 2, x 3, eq_ix4 x⟩
    show k0_pay6 (d2blk i x0 x1 x2) (ix4 a b p' q') = d2blk i x0 x1 x2 _
    refine (pay6_apply (d2blk i x0 x1 x2) a b p' q').trans (congrArg (d2blk i x0 x1 x2) (ix2_congr ?_ ?_))
    · show p'.val = 0 + 1 * p'.val; omega
    · show q'.val = 0 + 1 * q'.val; omega
  · rcases List.mem_cons.mp hpc with rfl | hpc
    · obtain ⟨a, b, p', q', rfl⟩ : ∃ (a : Fin 1) (b : Fin 1) (p' : Fin 128) (q' : Fin 4096), x = ix4 a b p' q' :=
        ⟨x 0, x 1, x 2, x 3, eq_ix4 x⟩
      show k0_pay5 (d2blk i x0 x1 x2) (ix4 a b p' q') = d2blk i x0 x1 x2 _
      refine (pay5_apply (d2blk i x0 x1 x2) a b p' q').trans (congrArg (d2blk i x0 x1 x2) (ix2_congr ?_ ?_))
      · show p'.val = 0 + 1 * p'.val; omega
      · show q'.val = 0 + 1 * q'.val; omega
    · exact absurd hpc List.not_mem_nil

/-! ## What each point writes back -/

/-- The four input blocks at point `t`, at their literal types. -/
abbrev b0 (c : Dev nD) (t : Fin cfg0.N) : Vec Ideal S128x3 .f32 := iblk m c 0 t
abbrev b1 (c : Dev nD) (t : Fin cfg0.N) : Vec Ideal S1x1x3 .f32 := iblk m c 1 t
abbrev b2 (c : Dev nD) (t : Fin cfg0.N) : Vec Ideal S3x8192 .f32 := iblk m c 2 t
abbrev b3 (c : Dev nD) (t : Fin cfg0.N) : Vec Ideal S2x1 .f32 := iblk m c 3 t

set_option maxHeartbeats 1000000 in
/-- The first atoms' block is the whole table at every point. -/
theorem b0_apply (c : Dev nD) (t : Fin cfg0.N) (p : Fin 128) (k : Fin 3) : b0 m c t (ix2 p k) = e5 m c (ix2 p k) := by
  obtain ⟨f00, f01, -⟩ := idx_facts t
  show V m c main_v5 (((cfg0.win 0).blk t).view.emb (ix2 p k)) = V m c main_v5 (ix2 p k)
  refine congrArg _ ?_
  funext ax; apply Fin.ext
  match ax with
  | ⟨0, _⟩ => show win0_0.index t (0 : Fin 2) * 128 + 1 * p.val = p.val; omega
  | ⟨1, _⟩ => show win0_0.index t (1 : Fin 2) * 3 + 1 * k.val = k.val; omega

set_option maxHeartbeats 1000000 in
/-- The shift's block at point `(s, j)` is row `s` of the shifts. -/
theorem b1_apply (c : Dev nD) (t : Fin cfg0.N) (k : Fin 3) (s : Fin 14) (hs : s.val = (grid0.coords t (0 : Fin 2)).val) :
    b1 m c t (ix3 (0 : Fin 1) (0 : Fin 1) k) = e4 m c (ix3 s (0 : Fin 1) k) := by
  obtain ⟨-, -, f10, f11, f12, -⟩ := idx_facts t
  show V m c main_v4 (((cfg0.win 1).blk t).view.emb (ix3 (0 : Fin 1) (0 : Fin 1) k)) = V m c main_v4 (ix3 s (0 : Fin 1) k)
  refine congrArg _ ?_
  funext ax; apply Fin.ext
  match ax with
  | ⟨0, _⟩ => show win0_1.index t (0 : Fin 3) * 1 + 1 * 0 = s.val; omega
  | ⟨1, _⟩ => show win0_1.index t (1 : Fin 3) * 1 + 1 * 0 = 0; omega
  | ⟨2, _⟩ => show win0_1.index t (2 : Fin 3) * 3 + 1 * k.val = k.val; omega

set_option maxHeartbeats 1000000 in
/-- The second atoms' block is the whole table at every point. -/
theorem b2_apply (c : Dev nD) (t : Fin cfg0.N) (k : Fin 3) (b : Fin 8192) : b2 m c t (ix2 k b) = e7 m c (ix2 k b) := by
  obtain ⟨-, -, -, -, -, f20, f21, -⟩ := idx_facts t
  show V m c main_v7 (((cfg0.win 2).blk t).view.emb (ix2 k b)) = V m c main_v7 (ix2 k b)
  refine congrArg _ ?_
  funext ax; apply Fin.ext
  match ax with
  | ⟨0, _⟩ => show win0_2.index t (0 : Fin 2) * 3 + 1 * k.val = k.val; omega
  | ⟨1, _⟩ => show win0_2.index t (1 : Fin 2) * 8192 + 1 * b.val = b.val; omega

set_option maxHeartbeats 1000000 in
/-- The cutoffs' block is the whole column at every point. -/
theorem b3_apply (c : Dev nD) (t : Fin cfg0.N) (r : Fin 2) : b3 m c t (ix2 r (0 : Fin 1)) = e8 m c (ix2 r (0 : Fin 1)) := by
  obtain ⟨-, -, -, -, -, -, -, f30, f31, -⟩ := idx_facts t
  show V m c main_v8 (((cfg0.win 3).blk t).view.emb (ix2 r (0 : Fin 1))) = V m c main_v8 (ix2 r (0 : Fin 1))
  refine congrArg _ ?_
  funext ax; apply Fin.ext
  match ax with
  | ⟨0, _⟩ => show win0_3.index t (0 : Fin 2) * 2 + 1 * r.val = r.val; omega
  | ⟨1, _⟩ => show win0_3.index t (1 : Fin 2) * 1 + 1 * 0 = 0; omega

/-- The squared length the body computes at point `t = (s, j)`, entry `(p, q)`, is the array-level one: row `p`, column
    `4096 · j + q`, shift `s`. -/
theorem tile_at (c : Dev nD) (t : Fin cfg0.N) (p : Fin 128) (q : Fin 4096) (s : Fin 14) (b : Fin 8192)
    (hs : s.val = (grid0.coords t (0 : Fin 2)).val) (hb : b.val = 4096 * (grid0.coords t (1 : Fin 2)).val + q.val) :
    d2blk (grid0.coords t) (b0 m c t) (b1 m c t) (b2 m c t) (ix2 p q) = sq m c s p b := by
  refine (d2blk_apply (grid0.coords t) (b0 m c t) (b1 m c t) (b2 m c t) p q b hb).trans ?_
  have h0 : (fun k : Fin 3 => b0 m c t (ix2 p k)) = fun k => e5 m c (ix2 p k) := funext fun k => b0_apply m c t p k
  have h2 : (fun k : Fin 3 => b2 m c t (ix2 k b)) = fun k => e7 m c (ix2 k b) := funext fun k => b2_apply m c t k b
  have h1 : (fun k : Fin 3 => b1 m c t (ix3 (0 : Fin 1) (0 : Fin 1) k)) = fun k => e4 m c (ix3 s (0 : Fin 1) k) :=
    funext fun k => b1_apply m c t k s hs
  exact congr (congr (congrArg tileAt h0) h2) h1

set_option maxHeartbeats 1000000 in
/-- WHAT POINT `t` WRITES BACK into the first result array is its block of `G4`. -/
theorem flushed4_eq (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4]
  obtain ⟨f00, f01, f10, f11, f12, f20, f21, f30, f31, f40, f41, f42, f43, f50, f51, f52, f53, f54, hs', hj'⟩ := idx_facts t
  funext j
  obtain ⟨h, u, p, q, rfl⟩ : ∃ (h : Fin 2) (u : Fin 1) (p : Fin 128) (q : Fin 4096), j = ix4 h u p q := ⟨j 0, j 1, j 2, j 3, eq_ix4 j⟩
  show out4 (grid0.coords t) (b0 m c t) (b1 m c t) (b2 m c t) (ix4 h u p q)
    = G4 m c (((cfg0.win 4).blk t).view.emb (ix4 h u p q))
  refine (out4_apply (grid0.coords t) (b0 m c t) (b1 m c t) (b2 m c t) h u p q).trans ?_
  have hu : u.val = 0 := by omega
  refine (tile_at m c t p q ⟨(grid0.coords t (0 : Fin 2)).val, hs'⟩ ⟨4096 * (grid0.coords t (1 : Fin 2)).val + q.val, by omega⟩ rfl rfl).trans ?_
  have hemb : ((cfg0.win 4).blk t).view.emb (ix4 h u p q)
      = ix4 h (⟨(grid0.coords t (0 : Fin 2)).val, hs'⟩ : Fin 14) p
          (⟨4096 * (grid0.coords t (1 : Fin 2)).val + q.val, by omega⟩ : Fin 8192) := by
    funext ax; apply Fin.ext
    match ax with
    | ⟨0, _⟩ => show win0_4.index t (0 : Fin 4) * 2 + 1 * h.val = h.val; omega
    | ⟨1, _⟩ => show win0_4.index t (1 : Fin 4) * 1 + 1 * u.val = (grid0.coords t (0 : Fin 2)).val; omega
    | ⟨2, _⟩ => show win0_4.index t (2 : Fin 4) * 128 + 1 * p.val = p.val; omega
    | ⟨3, _⟩ => show win0_4.index t (3 : Fin 4) * 4096 + 1 * q.val = 4096 * (grid0.coords t (1 : Fin 2)).val + q.val; omega
  rw [hemb]
  rfl

/-- An index of the first result array is in point `t`'s block iff each coordinate is in the block's range. -/
theorem mem_blk4 (t : Fin cfg0.N) (i : S2x14x128x8192.Idx) :
    i ∈ ((cfg0.win 4).blk t).view.set ↔ ∀ a : Fin 4, win0_4.index t a * S2x1x128x4096.size a ≤ (i a).val
      ∧ (i a).val < win0_4.index t a * S2x1x128x4096.size a + S2x1x128x4096.size a := by
  show i ∈ ((View.whole main_v9_0).slice (win0_4.rect t)).set ↔ _
  rw [View.set_slice_whole, Rect.mem_set_unit]
  exact Iff.rfl

/-- Every index of it is in the block of the point `(s, b / 4096)`. -/
theorem cover4arr (i : S2x14x128x8192.Idx) :
    ∃ t : Fin cfg0.N, (cfg0.win 4).flush t = true ∧ i ∈ ((cfg0.win 4).blk t).view.set := by
  have h0 : (i 0).val < 2 := (i 0).isLt
  have h1 : (i 1).val < 14 := (i 1).isLt
  have h2 : (i 2).val < 128 := (i 2).isLt
  have h3 : (i 3).val < 8192 := (i 3).isLt
  obtain ⟨t, ht0, ht1⟩ := coords_onto ⟨(i 1).val, h1⟩ ⟨(i 3).val / 4096, by omega⟩
  obtain ⟨f00, f01, f10, f11, f12, f20, f21, f30, f31, f40, f41, f42, f43, f50, f51, f52, f53, f54, hs', hj'⟩ := idx_facts t
  refine ⟨t, flush0_4 t, ?_⟩
  rw [mem_blk4]
  intro a
  have e1 : (grid0.coords t (0 : Fin 2)).val = (i 1).val := ht0
  have e3 : (grid0.coords t (1 : Fin 2)).val = (i 3).val / 4096 := ht1
  match a with
  | ⟨0, _⟩ => show win0_4.index t (0 : Fin 4) * 2 ≤ (i 0).val ∧ (i 0).val < win0_4.index t (0 : Fin 4) * 2 + 2; omega
  | ⟨1, _⟩ => show win0_4.index t (1 : Fin 4) * 1 ≤ (i 1).val ∧ (i 1).val < win0_4.index t (1 : Fin 4) * 1 + 1; omega
  | ⟨2, _⟩ => show win0_4.index t (2 : Fin 4) * 128 ≤ (i 2).val ∧ (i 2).val < win0_4.index t (2 : Fin 4) * 128 + 128; omega
  | ⟨3, _⟩ => show win0_4.index t (3 : Fin 4) * 4096 ≤ (i 3).val ∧ (i 3).val < win0_4.index t (3 : Fin 4) * 4096 + 4096; omega

/-- THE FIRST RESULT ARRAY after the run. -/
theorem final4 (c : Dev nD) : (dats m 0 c).arrAt 4 cfg0.N = G4 m c :=
  (dats m 0 c).arrAt_eq_of_cover 4 (G4 m c) (fun t _ => flushed4_eq m c t) (cover4arr)

/-! ## The second result array -/

/-- `G5` at explicit coordinates. -/
theorem G5_at (c : Dev nD) (r h : Fin 2) (s : Fin 14) (a : Fin 128) (b : Fin 8192) :
    G5 m c (ix5 r h s a b)
      = (FloatOps.cmpf (F := Ideal) .olt (sq m c s a b) (e8 m c (ix2 r (0 : Fin 1)) * e8 m c (ix2 r (0 : Fin 1)))).setWidth 32 := rfl

/-- The second output block after the body at `(r, h, 0, p, q)`: cutoff `r`'s comparison bit of tile entry `(p, q)`, widened. -/
theorem out5_apply (i : grid0.Coords) (x0 : Vec Ideal S128x3 .f32) (x1 : Vec Ideal S1x1x3 .f32) (x2 : Vec Ideal S3x8192 .f32)
    (x3 : Vec Ideal S2x1 .f32) (r h : Fin 2) (u : Fin 1) (p : Fin 128) (q : Fin 4096) :
    out5 i x0 x1 x2 x3 (ix5 r h u p q)
      = (FloatOps.cmpf (F := Ideal) .olt (d2blk i x0 x1 x2 (ix2 p q)) (x3 (ix2 r (0 : Fin 1)) * x3 (ix2 r (0 : Fin 1)))).setWidth 32 := by
  match r, h with
  | ⟨0, _⟩, ⟨0, _⟩ => exact pay8_apply (d2blk i x0 x1 x2) x3 ⟨0, Nat.one_pos⟩ p q
  | ⟨0, _⟩, ⟨1, _⟩ => exact pay9_apply (d2blk i x0 x1 x2) x3 ⟨0, Nat.one_pos⟩ p q
  | ⟨1, _⟩, ⟨0, _⟩ => exact pay2_apply (d2blk i x0 x1 x2) x3 ⟨0, Nat.one_pos⟩ p q
  | ⟨1, _⟩, ⟨1, _⟩ => exact pay3_apply (d2blk i x0 x1 x2) x3 ⟨0, Nat.one_pos⟩ p q

set_option maxHeartbeats 1000000 in
/-- WHAT POINT `t` WRITES BACK into the second result array is its block of `G5`. -/
theorem flushed5_eq (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  obtain ⟨f00, f01, f10, f11, f12, f20, f21, f30, f31, f40, f41, f42, f43, f50, f51, f52, f53, f54, hs', hj'⟩ := idx_facts t
  funext j
  obtain ⟨r, h, u, p, q, rfl⟩ : ∃ (r : Fin 2) (h : Fin 2) (u : Fin 1) (p : Fin 128) (q : Fin 4096), j = ix5 r h u p q :=
    ⟨j 0, j 1, j 2, j 3, j 4, eq_ix5 j⟩
  show out5 (grid0.coords t) (b0 m c t) (b1 m c t) (b2 m c t) (b3 m c t) (ix5 r h u p q)
    = G5 m c (((cfg0.win 5).blk t).view.emb (ix5 r h u p q))
  have hu : u.val = 0 := by omega
  have hemb : ((cfg0.win 5).blk t).view.emb (ix5 r h u p q)
      = ix5 r h (⟨(grid0.coords t (0 : Fin 2)).val, hs'⟩ : Fin 14) p
          (⟨4096 * (grid0.coords t (1 : Fin 2)).val + q.val, by omega⟩ : Fin 8192) := by
    funext ax; apply Fin.ext
    match ax with
    | ⟨0, _⟩ => show win0_5.index t (0 : Fin 5) * 2 + 1 * r.val = r.val; omega
    | ⟨1, _⟩ => show win0_5.index t (1 : Fin 5) * 2 + 1 * h.val = h.val; omega
    | ⟨2, _⟩ => show win0_5.index t (2 : Fin 5) * 1 + 1 * u.val = (grid0.coords t (0 : Fin 2)).val; omega
    | ⟨3, _⟩ => show win0_5.index t (3 : Fin 5) * 128 + 1 * p.val = p.val; omega
    | ⟨4, _⟩ => show win0_5.index t (4 : Fin 5) * 4096 + 1 * q.val = 4096 * (grid0.coords t (1 : Fin 2)).val + q.val; omega
  rw [hemb, G5_at, out5_apply,
    tile_at m c t p q (⟨(grid0.coords t (0 : Fin 2)).val, hs'⟩ : Fin 14)
      (⟨4096 * (grid0.coords t (1 : Fin 2)).val + q.val, by omega⟩ : Fin 8192) rfl rfl, b3_apply]

/-- An index of the second result array is in point `t`'s block iff each coordinate is in the block's range. -/
theorem mem_blk5 (t : Fin cfg0.N) (i : S2x2x14x128x8192.Idx) :
    i ∈ ((cfg0.win 5).blk t).view.set ↔ ∀ a : Fin 5, win0_5.index t a * S2x2x1x128x4096.size a ≤ (i a).val
      ∧ (i a).val < win0_5.index t a * S2x2x1x128x4096.size a + S2x2x1x128x4096.size a := by
  show i ∈ ((View.whole main_v9_1).slice (win0_5.rect t)).set ↔ _
  rw [View.set_slice_whole, Rect.mem_set_unit]
  exact Iff.rfl

/-- Every index of it is in the block of the point `(s, b / 4096)`. -/
theorem cover5arr (i : S2x2x14x128x8192.Idx) :
    ∃ t : Fin cfg0.N, (cfg0.win 5).flush t = true ∧ i ∈ ((cfg0.win 5).blk t).view.set := by
  have h0 : (i 0).val < 2 := (i 0).isLt
  have h1 : (i 1).val < 2 := (i 1).isLt
  have h2 : (i 2).val < 14 := (i 2).isLt
  have h3 : (i 3).val < 128 := (i 3).isLt
  have h4 : (i 4).val < 8192 := (i 4).isLt
  obtain ⟨t, ht0, ht1⟩ := coords_onto ⟨(i 2).val, h2⟩ ⟨(i 4).val / 4096, by omega⟩
  obtain ⟨f00, f01, f10, f11, f12, f20, f21, f30, f31, f40, f41, f42, f43, f50, f51, f52, f53, f54, hs', hj'⟩ := idx_facts t
  refine ⟨t, flush0_5 t, ?_⟩
  rw [mem_blk5]
  intro a
  have e2 : (grid0.coords t (0 : Fin 2)).val = (i 2).val := ht0
  have e4' : (grid0.coords t (1 : Fin 2)).val = (i 4).val / 4096 := ht1
  match a with
  | ⟨0, _⟩ => show win0_5.index t (0 : Fin 5) * 2 ≤ (i 0).val ∧ (i 0).val < win0_5.index t (0 : Fin 5) * 2 + 2; omega
  | ⟨1, _⟩ => show win0_5.index t (1 : Fin 5) * 2 ≤ (i 1).val ∧ (i 1).val < win0_5.index t (1 : Fin 5) * 2 + 2; omega
  | ⟨2, _⟩ => show win0_5.index t (2 : Fin 5) * 1 ≤ (i 2).val ∧ (i 2).val < win0_5.index t (2 : Fin 5) * 1 + 1; omega
  | ⟨3, _⟩ => show win0_5.index t (3 : Fin 5) * 128 ≤ (i 3).val ∧ (i 3).val < win0_5.index t (3 : Fin 5) * 128 + 128; omega
  | ⟨4, _⟩ => show win0_5.index t (4 : Fin 5) * 4096 ≤ (i 4).val ∧ (i 4).val < win0_5.index t (4 : Fin 5) * 4096 + 4096; omega

/-- THE SECOND RESULT ARRAY after the run. -/
theorem final5 (c : Dev nD) : (dats m 0 c).arrAt 5 cfg0.N = G5 m c :=
  (dats m 0 c).arrAt_eq_of_cover 5 (G5 m c) (fun t _ => flushed5_eq m c t) (cover5arr)

end Cert.KernelIdeal.Body

end
-- ==== Proof.Spec.lean ====
/-
  The mathematics of the neighbour-list kernel, with no program in sight.

  Inputs: positions `pos : [8320, 3]`, a cell matrix `cell : [3, 3]`, two cutoffs, thirteen integer half-shifts
  `shifts : [13, 3]`, and two index lists `ml : [128]`, `mm : [8192]` into the rows of `pos`.
  A zero row is put in front of the shifts (the centre image): fourteen fractional shifts `sfr s`, and their cartesian
  images `SV s c = ∑ k, sfr s k · cell k c`. For an image `s`, a first atom `ml[a]` and a second atom `mm[b]` the
  displacement is `(pos[ml[a]] - pos[mm[b]]) + SV s`, its squared length `D2`, and for each cutoff `r` the bit
  `D2 < cutoffs[r]²`. Every result is listed twice (direction `h = 0, 1`): the index pair swapped, the offset negated
  in the first half, the squared length and the bits repeated. The flat position of `(h, s, a, b)` is
  `((h·14 + s)·128 + a)·8192 + b`.

  An index into `pos` is read as Python reads it: a negative one counts from the end (`wrapIdx`), and the row actually
  read is the wrapped index clamped into the array (`rowOf`); under the precondition `-8320 ≤ i < 8320` the clamp does
  nothing and never needs to be opened.
-/
import Idealize.ShloMosaic.PureOps.Ideal
import Idealize.ShloMosaic.Lib.ValueIdx
import Idealize.ShloMosaic.Lib.ValueLayout

noncomputable section

open scoped BigOperators

namespace Cert.Spec

open Idealize.ShloMosaic Idealize.ShloMosaic.ValueIdx

abbrev S8320x3 : Shape := ⟨2, ![8320, 3]⟩
abbrev S3x3 : Shape := ⟨2, ![3, 3]⟩
abbrev S2 : Shape := ⟨1, ![2]⟩
abbrev S13x3 : Shape := ⟨2, ![13, 3]⟩
abbrev S14x3 : Shape := ⟨2, ![14, 3]⟩
abbrev S128 : Shape := ⟨1, ![128]⟩
abbrev S8192 : Shape := ⟨1, ![8192]⟩
abbrev S29360128 : Shape := ⟨1, ![29360128]⟩
abbrev S29360128x3 : Shape := ⟨2, ![29360128, 3]⟩
abbrev S2x29360128 : Shape := ⟨2, ![2, 29360128]⟩

/-! ## Indices into the position table -/

/-- A negative index counts from the end of the 8320 rows. -/
def wrapIdx (i : BitVec 32) : BitVec 32 := Scalar.select (IntOp.cmpi .slt i 0#32) (IntOp.addi i 8320#32) i

/-- The row a start index reads: the signed value clamped into `[0, 8319]`. -/
def rowOf (w : BitVec 32) : Fin 8320 := ⟨min w.toInt.toNat 8319, by omega⟩

/-- Coordinate `c` of the atom an index names. -/
def posAt (pos : FVec Ideal S8320x3 .f32) (i : BitVec 32) (c : Fin 3) : EReal := pos (ix2 (rowOf (wrapIdx i)) c)

/-! ## The fourteen shifts -/

/-- The fractional shifts: a zero row, then the thirteen integer half-shifts as reals. -/
def sfr (shifts : IVec S13x3 32) (s : Fin 14) (k : Fin 3) : EReal :=
  if h : s.val = 0 then Ideal.ofBits .f32 0x00000000#32
  else FloatOps.sitofp (F := Ideal) .f32 (shifts (ix2 (⟨s.val - 1, by omega⟩ : Fin 13) k))

/-- Their cartesian images under the cell matrix. -/
def SV (shifts : IVec S13x3 32) (cell : FVec Ideal S3x3 .f32) (s : Fin 14) (c : Fin 3) : EReal :=
  ∑ k : Fin 3, sfr shifts s k * cell (ix2 k c)

/-- The same as a `[14, 3]` array. -/
def SVvec (shifts : IVec S13x3 32) (cell : FVec Ideal S3x3 .f32) : FVec Ideal S14x3 .f32 :=
  fun j => SV shifts cell ⟨(j 0).val, idx2_lt0 j⟩ ⟨(j 1).val, idx2_lt1 j⟩

/-! ## One pair under one image -/

/-- Coordinate `c` of the displacement of atom `ml[a]` from atom `mm[b]` under image `s`. -/
def disp (pos : FVec Ideal S8320x3 .f32) (cell : FVec Ideal S3x3 .f32) (shifts : IVec S13x3 32) (ml : IVec S128 32) (mm : IVec S8192 32)
    (s : Fin 14) (a : Fin 128) (b : Fin 8192) (c : Fin 3) : EReal :=
  (posAt pos (ml (ix1 a)) c - posAt pos (mm (ix1 b)) c) + SV shifts cell s c

/-- Its squared length, summed in the order x, y, z. -/
def D2 (pos : FVec Ideal S8320x3 .f32) (cell : FVec Ideal S3x3 .f32) (shifts : IVec S13x3 32) (ml : IVec S128 32) (mm : IVec S8192 32)
    (s : Fin 14) (a : Fin 128) (b : Fin 8192) : EReal :=
  disp pos cell shifts ml mm s a b 0 * disp pos cell shifts ml mm s a b 0
    + disp pos cell shifts ml mm s a b 1 * disp pos cell shifts ml mm s a b 1
    + disp pos cell shifts ml mm s a b 2 * disp pos cell shifts ml mm s a b 2

/-- The squared length is the sum over the three coordinates started from zero (how a reduction states it). -/
theorem D2_eq_sum (pos : FVec Ideal S8320x3 .f32) (cell : FVec Ideal S3x3 .f32) (shifts : IVec S13x3 32) (ml : IVec S128 32) (mm : IVec S8192 32)
    (s : Fin 14) (a : Fin 128) (b : Fin 8192) :
    (0 : EReal) + ∑ c : Fin 3, disp pos cell shifts ml mm s a b c * disp pos cell shifts ml mm s a b c = D2 pos cell shifts ml mm s a b := by
  rw [Fin.sum_univ_three, zero_add]; rfl

/-- The in-range bit of cutoff `r`: the squared length is below the cutoff's square. -/
def inRange (cutoffs : FVec Ideal S2 .f32) (d2 : EReal) (r : Fin 2) : BitVec 1 :=
  FloatOps.cmpf (F := Ideal) .olt d2 (cutoffs (ix1 r) * cutoffs (ix1 r))

/-! ## The flat position of `(h, s, a, b)` -/

/-- `((h·14 + s)·128 + a)·8192 + b`. -/
def flat4 (h : Fin 2) (s : Fin 14) (a : Fin 128) (b : Fin 8192) : Fin 29360128 :=
  ⟨((h.val * 14 + s.val) * 128 + a.val) * 8192 + b.val, by have := h.isLt; have := s.isLt; have := a.isLt; have := b.isLt; omega⟩

def hOf (p : Fin 29360128) : Fin 2 := ⟨p.val / 14680064, by have := p.isLt; omega⟩
def sOf (p : Fin 29360128) : Fin 14 := ⟨p.val / 1048576 % 14, by omega⟩
def aOf (p : Fin 29360128) : Fin 128 := ⟨p.val / 8192 % 128, by omega⟩
def bOf (p : Fin 29360128) : Fin 8192 := ⟨p.val % 8192, by omega⟩

theorem flat4_of (p : Fin 29360128) : flat4 (hOf p) (sOf p) (aOf p) (bOf p) = p := by
  apply Fin.ext; show ((p.val / 14680064 * 14 + p.val / 1048576 % 14) * 128 + p.val / 8192 % 128) * 8192 + p.val % 8192 = p.val
  have := p.isLt; omega

theorem hOf_flat4 (h : Fin 2) (s : Fin 14) (a : Fin 128) (b : Fin 8192) : hOf (flat4 h s a b) = h := by
  apply Fin.ext; show (((h.val * 14 + s.val) * 128 + a.val) * 8192 + b.val) / 14680064 = h.val
  have := h.isLt; have := s.isLt; have := a.isLt; have := b.isLt; omega
theorem sOf_flat4 (h : Fin 2) (s : Fin 14) (a : Fin 128) (b : Fin 8192) : sOf (flat4 h s a b) = s := by
  apply Fin.ext; show (((h.val * 14 + s.val) * 128 + a.val) * 8192 + b.val) / 1048576 % 14 = s.val
  have := h.isLt; have := s.isLt; have := a.isLt; have := b.isLt; omega
theorem aOf_flat4 (h : Fin 2) (s : Fin 14) (a : Fin 128) (b : Fin 8192) : aOf (flat4 h s a b) = a := by
  apply Fin.ext; show (((h.val * 14 + s.val) * 128 + a.val) * 8192 + b.val) / 8192 % 128 = a.val
  have := h.isLt; have := s.isLt; have := a.isLt; have := b.isLt; omega
theorem bOf_flat4 (h : Fin 2) (s : Fin 14) (a : Fin 128) (b : Fin 8192) : bOf (flat4 h s a b) = b := by
  apply Fin.ext; show (((h.val * 14 + s.val) * 128 + a.val) * 8192 + b.val) % 8192 = b.val
  have := h.isLt; have := s.isLt; have := a.isLt; have := b.isLt; omega

/-- Every flat position is the position of some `(h, s, a, b)`. -/
theorem exists_flat4 (p : Fin 29360128) : ∃ h s a b, p = flat4 h s a b := ⟨_, _, _, _, (flat4_of p).symm⟩

/-! ## The five results, as whole arrays -/

/-- First atom of each listed pair: `ml[a]` in the first half, `mm[b]` in the second. -/
def G_idx_i (ml : IVec S128 32) (mm : IVec S8192 32) : IVec S29360128 32 :=
  fun j => let p : Fin 29360128 := ⟨(j 0).val, (j 0).isLt⟩
    if (hOf p).val = 0 then ml (ix1 (aOf p)) else mm (ix1 (bOf p))

/-- Second atom of each listed pair: the other one. -/
def G_idx_j (ml : IVec S128 32) (mm : IVec S8192 32) : IVec S29360128 32 :=
  fun j => let p : Fin 29360128 := ⟨(j 0).val, (j 0).isLt⟩
    if (hOf p).val = 0 then mm (ix1 (bOf p)) else ml (ix1 (aOf p))

/-- The cartesian offset of each listed pair: minus the image's shift in the first half, the shift in the second. -/
def G_off (cell : FVec Ideal S3x3 .f32) (shifts : IVec S13x3 32) : FVec Ideal S29360128x3 .f32 :=
  fun j => let p : Fin 29360128 := ⟨(j 0).val, idx2_lt0 j⟩; let c : Fin 3 := ⟨(j 1).val, idx2_lt1 j⟩
    if (hOf p).val = 0 then -(SV shifts cell (sOf p) c) else SV shifts cell (sOf p) c

/-- The squared length of each listed pair (the same in both halves). -/
def G_d2 (pos : FVec Ideal S8320x3 .f32) (cell : FVec Ideal S3x3 .f32) (shifts : IVec S13x3 32) (ml : IVec S128 32) (mm : IVec S8192 32) :
    FVec Ideal S29360128 .f32 :=
  fun j => let p : Fin 29360128 := ⟨(j 0).val, (j 0).isLt⟩
    D2 pos cell shifts ml mm (sOf p) (aOf p) (bOf p)

/-- The in-range bits: cutoff `r`, listed pair `p`. -/
def G_mask (pos : FVec Ideal S8320x3 .f32) (cell : FVec Ideal S3x3 .f32) (cutoffs : FVec Ideal S2 .f32) (shifts : IVec S13x3 32)
    (ml : IVec S128 32) (mm : IVec S8192 32) : IVec S2x29360128 1 :=
  fun j => let r : Fin 2 := ⟨(j 0).val, idx2_lt0 j⟩; let p : Fin 29360128 := ⟨(j 1).val, idx2_lt1 j⟩
    inRange cutoffs (D2 pos cell shifts ml mm (sOf p) (aOf p) (bOf p)) r

/-! The results read at the flat position of `(h, s, a, b)`. -/

theorem G_idx_i_flat (ml : IVec S128 32) (mm : IVec S8192 32) (h : Fin 2) (s : Fin 14) (a : Fin 128) (b : Fin 8192) :
    G_idx_i ml mm (ix1 (flat4 h s a b)) = if h.val = 0 then ml (ix1 a) else mm (ix1 b) := by
  show (if (hOf (flat4 h s a b)).val = 0 then ml (ix1 (aOf (flat4 h s a b))) else mm (ix1 (bOf (flat4 h s a b)))) = _
  rw [hOf_flat4, aOf_flat4, bOf_flat4]
theorem G_idx_j_flat (ml : IVec S128 32) (mm : IVec S8192 32) (h : Fin 2) (s : Fin 14) (a : Fin 128) (b : Fin 8192) :
    G_idx_j ml mm (ix1 (flat4 h s a b)) = if h.val = 0 then mm (ix1 b) else ml (ix1 a) := by
  show (if (hOf (flat4 h s a b)).val = 0 then mm (ix1 (bOf (flat4 h s a b))) else ml (ix1 (aOf (flat4 h s a b)))) = _
  rw [hOf_flat4, aOf_flat4, bOf_flat4]
theorem G_off_flat (cell : FVec Ideal S3x3 .f32) (shifts : IVec S13x3 32) (h : Fin 2) (s : Fin 14) (a : Fin 128) (b : Fin 8192) (c : Fin 3) :
    G_off cell shifts (ix2 (flat4 h s a b) c) = if h.val = 0 then -(SV shifts cell s c) else SV shifts cell s c := by
  show (if (hOf (flat4 h s a b)).val = 0 then -(SV shifts cell (sOf (flat4 h s a b)) c) else SV shifts cell (sOf (flat4 h s a b)) c) = _
  rw [hOf_flat4, sOf_flat4]
theorem G_d2_flat (pos : FVec Ideal S8320x3 .f32) (cell : FVec Ideal S3x3 .f32) (shifts : IVec S13x3 32) (ml : IVec S128 32) (mm : IVec S8192 32)
    (h : Fin 2) (s : Fin 14) (a : Fin 128) (b : Fin 8192) :
    G_d2 pos cell shifts ml mm (ix1 (flat4 h s a b)) = D2 pos cell shifts ml mm s a b := by
  show D2 pos cell shifts ml mm (sOf (flat4 h s a b)) (aOf (flat4 h s a b)) (bOf (flat4 h s a b)) = _
  rw [sOf_flat4, aOf_flat4, bOf_flat4]
theorem G_mask_flat (pos : FVec Ideal S8320x3 .f32) (cell : FVec Ideal S3x3 .f32) (cutoffs : FVec Ideal S2 .f32) (shifts : IVec S13x3 32)
    (ml : IVec S128 32) (mm : IVec S8192 32) (r : Fin 2) (h : Fin 2) (s : Fin 14) (a : Fin 128) (b : Fin 8192) :
    G_mask pos cell cutoffs shifts ml mm (ix2 r (flat4 h s a b)) = inRange cutoffs (D2 pos cell shifts ml mm s a b) r := by
  show inRange cutoffs (D2 pos cell shifts ml mm (sOf (flat4 h s a b)) (aOf (flat4 h s a b)) (bOf (flat4 h s a b))) r = _
  rw [sOf_flat4, aOf_flat4, bOf_flat4]

end Cert.Spec

end
-- ==== Proof.KHostDefs.lean ====
/-
  The six argument arrays of the neighbour-list program, named at their literal types, and the two arrays its
  kernel call leaves (squared lengths, in-range words), read after the host operations that follow the call.
-/
import proofs.«417794_j5214090297976_3_alg».proof.Proof.Gen.KernelIdeal.Frame
import proofs.«417794_j5214090297976_3_alg».proof.Proof.Spec

noncomputable section

namespace Cert.KernelIdeal.KHost

open Cert.KernelIdeal Cert.KernelIdeal.Gen Cert.Spec Idealize.ShloMosaic Idealize.ShloMosaic.ValueIdx
open Idealize.SL.Sem

variable (m : (ℓ : Loc nD τ sig) → Buf (Elt Ideal) ℓ)

/-- positions, 8320 rows of 3 -/
abbrev a0 (c : Dev nD) : FVec Ideal S8320x3 .f32 := m ((c.tc : Thread nD τ).loc main_arg0)
/-- cell matrix, 3 by 3 -/
abbrev a1 (c : Dev nD) : FVec Ideal S3x3 .f32 := m ((c.tc : Thread nD τ).loc main_arg1)
/-- the two cutoffs -/
abbrev a2 (c : Dev nD) : FVec Ideal S2 .f32 := m ((c.tc : Thread nD τ).loc main_arg2)
/-- integer half-shifts, 13 rows of 3 -/
abbrev a3 (c : Dev nD) : IVec S13x3 32 := m ((c.tc : Thread nD τ).loc main_arg3)
/-- first index list, 128 entries -/
abbrev a4 (c : Dev nD) : IVec S128 32 := m ((c.tc : Thread nD τ).loc main_arg4)
/-- second index list, 8192 entries -/
abbrev a5 (c : Dev nD) : IVec S8192 32 := m ((c.tc : Thread nD τ).loc main_arg5)

section Tail

variable (dats : (p : Fin 1) → (c : Dev nD) → Pipeline.Dat τ (Elt Ideal) Unit ℕ (UR sig nD τ) ℕ (cfgs p) c)

/-- The buffers after the host operations that follow the call. -/
abbrev Tl (c : Dev nD) (b : Ref sig .tc) : Buf (Elt Ideal) ((c.tc : Thread nD τ).loc b) :=
  Pipeline.afterTail₀ cfgs dats 0 (V0 m) [hostOps1] c b

/-- The call's first result (2 x 14 x 128 x 8192 squared lengths), as the call leaves it. -/
abbrev out4 (c : Dev nD) : FVec Ideal S2x14x128x8192 .f32 := (dats 0 c).arrAt 4 cfg0.N
/-- The call's second result (2 x 2 x 14 x 128 x 8192 words), as the call leaves it. -/
abbrev out5 (c : Dev nD) : IVec S2x2x14x128x8192 32 := (dats 0 c).arrAt 5 cfg0.N

end Tail

end Cert.KernelIdeal.KHost

end
-- ==== Proof.KHostShiftMath.lean ====
/-
  The fourteen shift images, as the host computes them: a zero row is put on top of the thirteen integer half-shifts
  (converted to reals), and the fourteen rows are multiplied by the cell matrix. Read at (s, c) the product is the sum
  over k of row s at k times the cell matrix at (k, c).
-/
import proofs.«417794_j5214090297976_3_alg».proof.Proof.Gen.KernelIdeal
import proofs.«417794_j5214090297976_3_alg».proof.Proof.Spec
import Idealize.ShloMosaic.Lib.Pipeline.Value
import Idealize.ShloMosaic.PureOps.Ideal.Laws

noncomputable section

namespace Cert.KernelIdeal.KHost

open Cert.KernelIdeal Cert.KernelIdeal.Gen Cert.Spec Idealize.ShloMosaic Idealize.ShloMosaic.ValueIdx
open Idealize.SL.Sem

/-- The zero row on top of the converted half-shifts. -/
def shiftRows (x3 : IVec S13x3 32) : FVec Ideal S14x3 .f32 :=
  concatenate S14x3 0
    [⟨S1x3, broadcastInDim S1x3 ![] bcast_S_S1x3 (constant (F := Ideal) S_ .f32 0x00000000#32)⟩,
     ⟨S13x3, sitofp (F := Ideal) .f32 x3⟩] concatenates_S1x3_S13x3_S14x3_d0

/-- Row 0 is zero, row s + 1 is half-shift s. -/
theorem shiftRows_apply (x3 : IVec S13x3 32) (s : Fin 14) (k : Fin 3) : shiftRows x3 (ix2 s k) = sfr x3 s k := by
  unfold shiftRows sfr
  by_cases h0 : s.val = 0
  · rw [dif_pos h0]
    refine (concatenate_pair_apply_left (0 : Fin S14x3.rank) _ _ concatenates_S1x3_S13x3_S14x3_d0 (ix2 s k) rfl
      (ix2 (0 : Fin 1) k) (fun b => match b with | ⟨0, _⟩ => by show 0 = s.val; omega | ⟨1, _⟩ => rfl)).trans ?_
    exact broadcastInDim_apply _ bcast_S_S1x3 _ _ ix0 (fun a => a.elim0)
  · rw [dif_neg h0]
    exact concatenate_pair_apply_right (0 : Fin S14x3.rank) _ _ concatenates_S1x3_S13x3_S14x3_d0 (ix2 s k) rfl rfl
      (ix2 (⟨s.val - 1, by omega⟩ : Fin 13) k)
      (fun b => match b with | ⟨0, _⟩ => fun hb => absurd rfl hb | ⟨1, _⟩ => fun _ => rfl)
      (by show s.val - 1 + 1 = s.val; omega)

/-- The rows times the cell matrix. -/
def shiftImages (x3 : IVec S13x3 32) (x1 : FVec Ideal S3x3 .f32) : FVec Ideal S14x3 .f32 :=
  Host.dotGeneral (F := Ideal) dot_S14x3_S3x3_S14x3_1_0_0_1_n_n none (shiftRows x3) x1

theorem lhs_shift_0 (i : S14x3.Idx) (q : dot_S14x3_S3x3_S14x3_1_0_0_1_n_n.contr.Idx) :
    (dot_S14x3_S3x3_S14x3_1_0_0_1_n_n.lhsIdx i q 0).val = (i 0).val := by
  unfold DotDims.lhsIdx
  rw [dif_neg (show ¬(0 : Fin S14x3.rank) ∈ dot_S14x3_S3x3_S14x3_1_0_0_1_n_n.lhsBatch by decide),
    dif_pos (show (0 : Fin S14x3.rank) ∈ dot_S14x3_S3x3_S14x3_1_0_0_1_n_n.lhsNonContracting by decide)]
  rfl
theorem lhs_shift_1 (i : S14x3.Idx) (q : dot_S14x3_S3x3_S14x3_1_0_0_1_n_n.contr.Idx) :
    (dot_S14x3_S3x3_S14x3_1_0_0_1_n_n.lhsIdx i q 1).val = (q ⟨0, by decide⟩).val :=
  dot_S14x3_S3x3_S14x3_1_0_0_1_n_n.lhsIdx_val_of_single rfl i q
theorem rhs_shift_0 (i : S14x3.Idx) (q : dot_S14x3_S3x3_S14x3_1_0_0_1_n_n.contr.Idx) :
    (dot_S14x3_S3x3_S14x3_1_0_0_1_n_n.rhsIdx i q 0).val = (q ⟨0, by decide⟩).val :=
  dot_S14x3_S3x3_S14x3_1_0_0_1_n_n.rhsIdx_val_of_single rfl i q
theorem rhs_shift_1 (i : S14x3.Idx) (q : dot_S14x3_S3x3_S14x3_1_0_0_1_n_n.contr.Idx) :
    (dot_S14x3_S3x3_S14x3_1_0_0_1_n_n.rhsIdx i q 1).val = (i 1).val := by
  unfold DotDims.rhsIdx
  rw [dif_neg (show ¬(1 : Fin S3x3.rank) ∈ dot_S14x3_S3x3_S14x3_1_0_0_1_n_n.rhsBatch by decide),
    dif_pos (show (1 : Fin S3x3.rank) ∈ dot_S14x3_S3x3_S14x3_1_0_0_1_n_n.rhsNonContracting by decide)]
  rfl

/-- The product read at (s, c) is the image of shift s, coordinate c. -/
theorem shiftImages_apply (x3 : IVec S13x3 32) (x1 : FVec Ideal S3x3 .f32) (s : Fin 14) (c : Fin 3) :
    shiftImages x3 x1 (ix2 s c) = SV x3 x1 s c := by
  unfold shiftImages SV
  have hrow := shiftRows_apply x3
  generalize shiftRows x3 = y0 at hrow ⊢
  simp only [Host.dotGeneral]
  rw [Ideal.dotGeneral_apply, ← Equiv.sum_comp (contrEquiv1 dot_S14x3_S3x3_S14x3_1_0_0_1_n_n 3 rfl rfl).symm]
  refine Finset.sum_congr rfl fun k _ => ?_
  have hk := contrEquiv1_symm_val dot_S14x3_S3x3_S14x3_1_0_0_1_n_n 3 rfl rfl k
  have el : dot_S14x3_S3x3_S14x3_1_0_0_1_n_n.lhsIdx (ix2 s c) ((contrEquiv1 dot_S14x3_S3x3_S14x3_1_0_0_1_n_n 3 rfl rfl).symm k)
      = ix2 s k := funext fun a => Fin.ext (by
    match a with
    | ⟨0, _⟩ => exact lhs_shift_0 _ _
    | ⟨1, _⟩ => exact (lhs_shift_1 _ _).trans hk)
  have er : dot_S14x3_S3x3_S14x3_1_0_0_1_n_n.rhsIdx (ix2 s c) ((contrEquiv1 dot_S14x3_S3x3_S14x3_1_0_0_1_n_n 3 rfl rfl).symm k)
      = ix2 k c := funext fun a => Fin.ext (by
    match a with
    | ⟨0, _⟩ => exact (rhs_shift_0 _ _).trans hk
    | ⟨1, _⟩ => exact rhs_shift_1 _ _)
  rw [el, er, hrow]

end Cert.KernelIdeal.KHost

end
-- ==== Proof.KHostShift.lean ====
/-
  The shift images as the program holds them when the kernel call is entered: the product of the fourteen shift rows
  with the cell matrix, and the same array with a unit middle axis.
-/
import proofs.«417794_j5214090297976_3_alg».proof.Proof.KHostDefs
import proofs.«417794_j5214090297976_3_alg».proof.Proof.KHostShiftMath

noncomputable section

namespace Cert.KernelIdeal.KHost

open Cert.KernelIdeal Cert.KernelIdeal.Gen Cert.Spec Idealize.ShloMosaic Idealize.ShloMosaic.ValueIdx
open Idealize.SL.Sem

variable (m : (ℓ : Loc nD τ sig) → Buf (Elt Ideal) ℓ)

/-- The product array is the fourteen images. -/
theorem V_v3_eq (c : Dev nD) : (V m c main_v3 : FVec Ideal S14x3 .f32) = shiftImages (a3 m c) (a1 m c) := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

theorem V_v3_apply (c : Dev nD) (s : Fin 14) (k : Fin 3) :
    (V m c main_v3 : FVec Ideal S14x3 .f32) (ix2 s k) = SV (a3 m c) (a1 m c) s k := by
  rw [V_v3_eq]; exact shiftImages_apply _ _ s k

/-- The same with a unit middle axis. -/
theorem V_v4_eq (c : Dev nD) :
    (V m c main_v4 : FVec Ideal S14x1x3 .f32) = shapeCast S14x1x3 (shiftImages (a3 m c) (a1 m c)) shapeCasts_S14x3_S14x1x3 := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

theorem V_v4_apply (c : Dev nD) (s : Fin 14) (k : Fin 3) :
    (V m c main_v4 : FVec Ideal S14x1x3 .f32) (ix3 s (0 : Fin 1) k) = SV (a3 m c) (a1 m c) s k := by
  rw [V_v4_eq]
  refine (shapeCast_apply _ shapeCasts_S14x3_S14x1x3 (ix3 s (0 : Fin 1) k) (ix2 s k) ?_).trans (shiftImages_apply _ _ s k)
  rw [Shape.rowMajor_val_two, Shape.rowMajor_val_three]
  show s.val * 3 + k.val = (s.val * 1 + 0) * 3 + k.val
  omega

end Cert.KernelIdeal.KHost

end
-- ==== Proof.LibGather.lean ====
/-
  A row gather read at an index.

  `x[idx]` of a table `x : [N, K]` at a column of start indices `idx : [R, 1]` lowers to `stablehlo.gather` with
  offset_dims `[1]`, collapsed_slice_dims `[0]`, start_index_map `[0]`, index_vector_dim `1` and slice_sizes `[1, K]`:
  result element `(p, c)` is `x` at row `idx[p, 0]`, read as a signed integer and clamped into `[0, N - 1]`, column `c`.
-/
import Idealize.ShloMosaic.PureOps.Ideal
import Idealize.ShloMosaic.Lib.ValueIdx

noncomputable section

namespace Cert.Gather

open Idealize.ShloMosaic Idealize.ShloMosaic.ValueIdx

variable {α : Type}

/-- Those dimension numbers for a table `[N, K]`, start indices `[R, 1]` and result `[R, K]`. -/
abbrev rowDims (N K R : Nat) (wf : GatherDims.WF ⟨2, ![N, K]⟩ ⟨2, ![R, 1]⟩ ⟨2, ![R, K]⟩ [1] [0] [] [0] [] 1 ![1, K]) :
    GatherDims ⟨2, ![N, K]⟩ ⟨2, ![R, 1]⟩ ⟨2, ![R, K]⟩ where
  offsetDims := [1]
  collapsedSliceDims := [0]
  operandBatchingDims := []
  startIndicesBatchingDims := []
  startIndexMap := [0]
  indexVectorDim := 1
  sliceSizes := ![1, K]
  wf := wf

/-- THE ROW GATHER READ AT `(p, c)`: the table at the start index `idx[p, 0]`, read signed and clamped into
    `[0, N - 1]`, column `c`. -/
theorem gather_row_apply {N K R w : Nat} (hN : 0 < N)
    (wf : GatherDims.WF ⟨2, ![N, K]⟩ ⟨2, ![R, 1]⟩ ⟨2, ![R, K]⟩ [1] [0] [] [0] [] 1 ![1, K])
    (x : (⟨2, ![N, K]⟩ : Shape).Idx → α) (idx : IVec ⟨2, ![R, 1]⟩ w) (p : Fin R) (c : Fin K) :
    Host.gather (rowDims N K R wf) x idx (ix2 p c)
      = x (ix2 (⟨min (idx (ix2 p (⟨0, Nat.one_pos⟩ : Fin 1))).toInt.toNat (N - 1), by omega⟩ : Fin N) c) := by
  unfold Host.gather
  congr 1
  funext a
  refine Fin.ext ?_
  show (rowDims N K R wf).start (ix2 p c) idx a + (rowDims N K R wf).batchCoord (ix2 p c) a
      + (rowDims N K R wf).offCoord (ix2 p c) a = _
  rw [GatherDims.batchCoord_eq_zero _ _ _ List.not_mem_nil, Nat.add_zero]
  have two : ∀ b : Fin 2, b = 0 ∨ b = 1 := by decide
  rcases two a with rfl | rfl
  · -- the row axis: collapsed, so no offset; the start is the clamped start index
    rw [GatherDims.offCoord_eq_zero _ _ _
      (fun h => ((GatherDims.mem_sKept _ _).mp h).1 (List.mem_singleton.mpr rfl)), Nat.add_zero]
    unfold GatherDims.start
    rw [dif_pos (show (0 : Fin 2) ∈ (rowDims N K R wf).startIndexMap from List.mem_singleton.mpr rfl)]
    have hsi : (rowDims N K R wf).siIdx (ix2 p c) ⟨List.idxOf (0 : Fin 2) (rowDims N K R wf).startIndexMap,
        List.idxOf_lt_length_iff.2 (List.mem_singleton.mpr rfl)⟩ = ix2 p (⟨0, Nat.one_pos⟩ : Fin 1) := by
      funext b; refine Fin.ext ?_
      match b with
      | ⟨0, _⟩ => rfl
      | ⟨1, _⟩ => rfl
    rw [hsi]
    rfl
  · -- the column axis: not named by the start index map, so the start is 0; it is the one kept axis, and the
    -- result's one offset axis reads it
    have hns : (1 : Fin 2) ∉ (rowDims N K R wf).startIndexMap := by
      show (1 : Fin 2) ∉ [(0 : Fin 2)]; decide
    have hk : (1 : Fin 2) ∈ (rowDims N K R wf).sKept :=
      (GatherDims.mem_sKept _ _).mpr ⟨by show (1 : Fin 2) ∉ [(0 : Fin 2)]; decide, List.not_mem_nil⟩
    unfold GatherDims.start GatherDims.offCoord
    rw [dif_neg hns, dif_pos hk, Nat.zero_add]
    rfl

end Cert.Gather

end
-- ==== Proof.PreFacts.lean ====
/-
  What the precondition says, decoded: every entry of the cell matrix is a real number, and every index of the two
  index lists lies in `[-8320, 8320)` — so that, wrapped from the end when negative, it names a row of the position table.
-/
import proofs.«417794_j5214090297976_3_alg».proof.Pre_finite_inputs
import proofs.«417794_j5214090297976_3_alg».proof.Proof.Spec
import Idealize.ShloMosaic.Lib.ReduceAll
import Idealize.ShloMosaic.Lib.StableHlo.Predicate

noncomputable section

namespace Cert.PreFacts

open Idealize.ShloMosaic Idealize.ShloMosaic.ValueIdx Cert.Spec

/-- An index in `[-8320, 8320)`, wrapped from the end when negative, lies in `[0, 8319]` (as signed words). -/
theorem wrap_in_range (i : BitVec 32) (h1 : -8320 ≤ i.toInt) (h2 : i.toInt < 8320) :
    IntOp.cmpi .sge (wrapIdx i) 0#32 = 1#1 ∧ IntOp.cmpi .sle (wrapIdx i) 8319#32 = 1#1 := by
  have h0 : (0#32 : BitVec 32).toInt = 0 := by decide
  have h8319 : (8319#32 : BitVec 32).toInt = 8319 := by decide
  rw [IntOp.cmpi_sge, IntOp.cmpi_sle, h0, h8319]
  by_cases hneg : i.toInt < 0
  · -- a negative index: 8320 is added, and the sum stays inside the signed 32-bit range, so nothing wraps around
    have hc : IntOp.cmpi .slt i 0#32 = 1#1 := IntOp.cmpi_slt.2 (by rw [h0]; exact hneg)
    have hw : wrapIdx i = i + 8320#32 := by unfold wrapIdx; rw [hc, select_one]; rfl
    have h8320 : (8320#32 : BitVec 32).toInt = 8320 := by decide
    have hadd : (i + 8320#32).toInt = i.toInt + 8320 := by
      have h32 : (2 : Nat) ^ 32 = 4294967296 := by decide
      rw [BitVec.toInt_add, h8320, h32, Int.bmod_def]
      split <;> omega
    rw [hw, hadd]; omega
  · -- a nonnegative index is kept as it is
    have hc : IntOp.cmpi .slt i 0#32 = 0#1 :=
      eq_zero_of_ne_one fun h => hneg (by have := IntOp.cmpi_slt.1 h; rwa [h0] at this)
    have hw : wrapIdx i = i := by unfold wrapIdx; rw [hc, select_zero]
    rw [hw]; omega

/-- The word `0x7F800000` is `+∞`. -/
theorem inf_bits : Ideal.ofBits .f32 0x7F800000#32 = (⊤ : EReal) := by
  simp [Ideal.ofBits, Ideal.ieee]

/-- An extended real whose absolute value `max x (-x)` is below `+∞` is a real number: it is neither infinity. -/
theorem real_of_abs_lt (x : EReal) (h : Ideal.cmp .olt (max x (-x)) (Ideal.ofBits .f32 0x7F800000#32) = 1#1) :
    ∃ r : ℝ, x = (r : EReal) := by
  rw [inf_bits] at h
  unfold Ideal.cmp at h
  induction x using EReal.rec with
  | bot => simp at h
  | coe r => exact ⟨r, rfl⟩
  | top => simp at h

/-- A word at least the word `-8320` and below the word `8320`, both compared signed, has its signed value in
    `[-8320, 8320)`. -/
theorem range_of_bits (v : BitVec 32) (hlo : IntOp.cmpi .sge v 4294958976#32 = 1#1)
    (hhi : IntOp.cmpi .slt v 8320#32 = 1#1) : -8320 ≤ v.toInt ∧ v.toInt < 8320 := by
  rw [IntOp.cmpi_sge] at hlo
  rw [IntOp.cmpi_slt] at hhi
  have e1 : (4294958976#32 : BitVec 32).toInt = -8320 := by decide
  have e2 : (8320#32 : BitVec 32).toInt = 8320 := by decide
  rw [e1] at hlo; rw [e2] at hhi
  exact ⟨hlo, hhi⟩

/-- The precondition, read: the cell matrix is finite and both index lists are in range. -/
theorem of_pre [Cert.Pre_finite_inputs.Facts]
    (x0 : FVec Ideal S8320x3 .f32) (x1 : FVec Ideal S3x3 .f32) (x2 : FVec Ideal S2 .f32)
    (x3 : IVec S13x3 32) (x4 : IVec S128 32) (x5 : IVec S8192 32)
    (h : Cert.Pre_finite_inputs.fn (F := Ideal) x0 x1 x2 x3 x4 x5 = fun _ => 1#1) :
    (∀ j, ∃ r : ℝ, x1 j = (r : EReal))
      ∧ (∀ a : Fin 128, -8320 ≤ (x4 (ix1 a)).toInt ∧ (x4 (ix1 a)).toInt < 8320)
      ∧ (∀ b : Fin 8192, -8320 ≤ (x5 (ix1 b)).toInt ∧ (x5 (ix1 b)).toInt < 8320) := by
  -- the scalar shape has one index, so each "all" reduces into that one index
  haveI : Subsingleton Cert.Pre_finite_inputs.S_.Idx := ⟨fun a b => funext fun d => d.elim0⟩
  have e := congrFun h ix0
  dsimp only [Cert.Pre_finite_inputs.fn, Cert.Pre_finite_inputs.fn_part1] at e
  -- the five conjuncts: positions, cell, cutoffs finite; first and second index list in range
  obtain ⟨e1234, e5⟩ := IntOp.andi_eq_one.1 e
  obtain ⟨e123, e4⟩ := IntOp.andi_eq_one.1 e1234
  obtain ⟨e12, -⟩ := IntOp.andi_eq_one.1 e123
  obtain ⟨-, e2⟩ := IntOp.andi_eq_one.1 e12
  refine ⟨fun j => ?_, fun a => ?_, fun b => ?_⟩
  · exact real_of_abs_lt (x1 j) (Host.reduce_andi_all _ _ _ _ ix0 e2 j)
  · obtain ⟨hlo, hhi⟩ := IntOp.andi_eq_one.1 (Host.reduce_andi_all _ _ _ _ ix0 e4 (ix1 a))
    exact range_of_bits _ hlo hhi
  · obtain ⟨hlo, hhi⟩ := IntOp.andi_eq_one.1 (Host.reduce_andi_all _ _ _ _ ix0 e5 (ix1 b))
    exact range_of_bits _ hlo hhi

end Cert.PreFacts

end
-- ==== Proof.KHostTakeMath.lean ====
/-
  Rows of the position table taken at a list of R indices, as the host program takes them in fill mode: a negative
  index is wrapped from the end, the wrapped indices are put in a column, a row gather reads the table at them
  (clamped into the table), and a select keeps the gathered row only where 0 <= wrapped index <= 8319 (elsewhere a
  constant). When every index lies in [-8320, 8320) the wrapped index is in range, the select keeps every row, the clamp
  does nothing, and the result at (a, k) is coordinate k of the atom that index a names.
-/
import proofs.«417794_j5214090297976_3_alg».proof.Proof.Spec
import proofs.«417794_j5214090297976_3_alg».proof.Proof.LibGather
import proofs.«417794_j5214090297976_3_alg».proof.Proof.PreFacts
import Idealize.ShloMosaic.Lib.Pipeline.Value
import Idealize.ShloMosaic.PureOps.Reduce

noncomputable section

namespace Cert.KernelIdeal.KHost

open Cert.Spec Idealize.ShloMosaic Idealize.ShloMosaic.ValueIdx

/-- A left fold by and over one-bit words that are all 1, started at 1, is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- A reduction by and, from 1, of an array of 1s is 1 everywhere. -/
theorem reduce_andi_one {s t u : Shape} {axes : List (Fin s.rank)} (x : s.Idx → BitVec 1) (init : u.Idx → BitVec 1)
    (h : s.ReducesTo axes t) (hu : 0 < u.numel) (j : t.Idx) (hinit : ∀ i, init i = 1#1) (hx : ∀ i, x i = 1#1) :
    Host.reduce IntOp.andi x init h hu j = 1#1 := by
  rw [Host.reduce_eq_foldl, hinit]
  exact foldl_andi_one x _ fun n _ => hx n

section Take

variable {R : Nat}
  (hbR : (⟨0, ![]⟩ : Shape).BroadcastsInDim ⟨1, ![R]⟩ (![] : Fin 0 → Fin 1))
  (hbR1 : (⟨1, ![R]⟩ : Shape).BroadcastsInDim ⟨2, ![R, 1]⟩ (![0] : Fin 1 → Fin 2))
  (hb0R1 : (⟨0, ![]⟩ : Shape).BroadcastsInDim ⟨2, ![R, 1]⟩ (![] : Fin 0 → Fin 2))
  (hb11 : (⟨1, ![1]⟩ : Shape).BroadcastsInDim ⟨2, ![1, 1]⟩ (![1] : Fin 1 → Fin 2))
  (hb11R1 : (⟨2, ![1, 1]⟩ : Shape).BroadcastsInDim ⟨2, ![R, 1]⟩ (![0, 1] : Fin 2 → Fin 2))
  (hred : (⟨2, ![R, 1]⟩ : Shape).ReducesTo [1] ⟨1, ![R]⟩)
  (hS : 0 < (⟨0, ![]⟩ : Shape).numel)
  (hbR3 : (⟨1, ![R]⟩ : Shape).BroadcastsInDim ⟨2, ![R, 3]⟩ (![0] : Fin 1 → Fin 2))
  (hb0R3 : (⟨0, ![]⟩ : Shape).BroadcastsInDim ⟨2, ![R, 3]⟩ (![] : Fin 0 → Fin 2))
  (wf : GatherDims.WF ⟨2, ![8320, 3]⟩ ⟨2, ![R, 1]⟩ ⟨2, ![R, 3]⟩ [1] [0] [] [0] [] 1 ![1, 3])

/-- The indices, a negative one wrapped from the end. -/
def wrapVec (x : IVec ⟨1, ![R]⟩ 32) : IVec ⟨1, ![R]⟩ 32 :=
  select (cmpi .slt x (broadcastInDim ⟨1, ![R]⟩ ![] hbR (constantI ⟨0, ![]⟩ 32 0#32)))
    (addi x (broadcastInDim ⟨1, ![R]⟩ ![] hbR (constantI ⟨0, ![]⟩ 32 8320#32))) x

theorem wrapVec_apply (x : IVec ⟨1, ![R]⟩ 32) (a : Fin R) : wrapVec hbR x (ix1 a) = wrapIdx (x (ix1 a)) := rfl

/-- The wrapped indices as a column. -/
def wrapCol (x : IVec ⟨1, ![R]⟩ 32) : IVec ⟨2, ![R, 1]⟩ 32 :=
  broadcastInDim ⟨2, ![R, 1]⟩ ![0] hbR1 (wrapVec hbR x)

theorem wrapCol_apply (x : IVec ⟨1, ![R]⟩ 32) (a : Fin R) (q : Fin 1) :
    wrapCol hbR hbR1 x (ix2 a q) = wrapIdx (x (ix1 a)) := by
  unfold wrapCol
  refine (broadcastInDim_apply _ hbR1 _ (ix2 a q) (ix1 a) fun b => ?_).trans (wrapVec_apply hbR x a)
  match b with
  | ⟨0, _⟩ =>
    show a.val = if R = 1 then 0 else a.val
    split
    · have := a.isLt; omega
    · rfl

/-- The in-range bit of every wrapped index: 0 <= w and w <= 8319, and-reduced over the column's unit axis. -/
def inTable (x : IVec ⟨1, ![R]⟩ 32) : IVec ⟨1, ![R]⟩ 1 :=
  Host.reduce IntOp.andi
    (andi (cmpi .sge (wrapCol hbR hbR1 x) (broadcastInDim ⟨2, ![R, 1]⟩ ![] hb0R1 (constantI ⟨0, ![]⟩ 32 0#32)))
      (cmpi .sle (wrapCol hbR hbR1 x) (broadcastInDim ⟨2, ![R, 1]⟩ ![0, 1] hb11R1
        (broadcastInDim ⟨2, ![1, 1]⟩ ![1] hb11 (constantI ⟨1, ![1]⟩ 32 8319#32)))))
    (constantI ⟨0, ![]⟩ 1 1#1) hred hS

/-- With every index in [-8320, 8320) every bit is 1. -/
theorem inTable_apply (x : IVec ⟨1, ![R]⟩ 32)
    (hx : ∀ a : Fin R, -8320 ≤ (x (ix1 a)).toInt ∧ (x (ix1 a)).toInt < 8320) (j : (⟨1, ![R]⟩ : Shape).Idx) :
    inTable hbR hbR1 hb0R1 hb11 hb11R1 hred hS x j = 1#1 := by
  unfold inTable
  refine reduce_andi_one _ _ hred hS j (fun _ => rfl) fun i => ?_
  obtain ⟨p, q, rfl⟩ : ∃ (p : Fin R) (q : Fin 1), i = ix2 p q := ⟨i 0, i 1, eq_ix2 i⟩
  show IntOp.andi (IntOp.cmpi .sge (wrapCol hbR hbR1 x (ix2 p q)) 0#32)
    (IntOp.cmpi .sle (wrapCol hbR hbR1 x (ix2 p q)) 8319#32) = 1#1
  rw [wrapCol_apply, (Cert.PreFacts.wrap_in_range _ (hx p).1 (hx p).2).1, (Cert.PreFacts.wrap_in_range _ (hx p).1 (hx p).2).2]
  rfl

/-- The rows taken, in fill mode. -/
def takeFill (x0 : FVec Ideal S8320x3 .f32) (x : IVec ⟨1, ![R]⟩ 32) : FVec Ideal ⟨2, ![R, 3]⟩ .f32 :=
  select (broadcastInDim ⟨2, ![R, 3]⟩ ![0] hbR3 (inTable hbR hbR1 hb0R1 hb11 hb11R1 hred hS x))
    (Host.gather (Cert.Gather.rowDims 8320 3 R wf) x0 (wrapCol hbR hbR1 x))
    (broadcastInDim ⟨2, ![R, 3]⟩ ![] hb0R3 (constant (F := Ideal) ⟨0, ![]⟩ .f32 0x7FC00000#32))

/-- With every index in [-8320, 8320), row a of the result is the atom index a names. -/
theorem takeFill_apply (x0 : FVec Ideal S8320x3 .f32) (x : IVec ⟨1, ![R]⟩ 32)
    (hx : ∀ a : Fin R, -8320 ≤ (x (ix1 a)).toInt ∧ (x (ix1 a)).toInt < 8320) (a : Fin R) (k : Fin 3) :
    takeFill hbR hbR1 hb0R1 hb11 hb11R1 hred hS hbR3 hb0R3 wf x0 x (ix2 a k) = posAt x0 (x (ix1 a)) k := by
  unfold takeFill
  rw [select_apply]
  have hbit : broadcastInDim ⟨2, ![R, 3]⟩ ![0] hbR3 (inTable hbR hbR1 hb0R1 hb11 hb11R1 hred hS x) (ix2 a k) = 1#1 :=
    (broadcastInDim_apply _ hbR3 _ (ix2 a k) (ix1 a) fun b => by
      match b with
      | ⟨0, _⟩ =>
        show a.val = if R = 1 then 0 else a.val
        split
        · have := a.isLt; omega
        · rfl).trans (inTable_apply hbR hbR1 hb0R1 hb11 hb11R1 hred hS x hx _)
  rw [hbit, select_one, Cert.Gather.gather_row_apply (by decide) wf x0 _ a k]
  unfold posAt rowOf
  refine congrArg x0 (congrArg (fun r : Fin 8320 => ix2 r k) (Fin.ext ?_))
  show min (wrapCol hbR hbR1 x (ix2 a ⟨0, Nat.one_pos⟩)).toInt.toNat (8320 - 1) = min (wrapIdx (x (ix1 a))).toInt.toNat 8319
  rw [wrapCol_apply]

end Take

end Cert.KernelIdeal.KHost

end
-- ==== Proof.KHostTake.lean ====
/-
  The two row tables the kernel call reads: the positions of the atoms the first index list names, one row per
  index, and the positions of the atoms the second list names, transposed to one column per index. Also the cutoffs
  as a column.
-/
import proofs.«417794_j5214090297976_3_alg».proof.Proof.KHostDefs
import proofs.«417794_j5214090297976_3_alg».proof.Proof.KHostTakeMath

noncomputable section

namespace Cert.KernelIdeal.KHost

open Cert.KernelIdeal Cert.KernelIdeal.Gen Cert.Spec Idealize.ShloMosaic Idealize.ShloMosaic.ValueIdx
open Idealize.SL.Sem

variable (m : (ℓ : Loc nD τ sig) → Buf (Elt Ideal) ℓ)

/-- The first table is the rows taken at the first index list. -/
theorem V_v5_eq (c : Dev nD) : (V m c main_v5 : FVec Ideal S128x3 .f32)
    = takeFill bcast_S_S128 bcast_S128_S128x1_0 bcast_S_S128x1 bcast_S1_S1x1_1 bcast_S1x1_S128x1_0_1 reducesTo_S128x1_S128_d1 h_S_
        bcast_S128_S128x3_0 bcast_S_S128x3 gather_S8320x3_S128x1_S128x3_1_0_n_n_0_1_13_wf (a0 m c) (a4 m c) := by
  dsimp only [Gen.V, Gen.V0]
  simp only [Gen.hostOps0, Gen.hostOps0_1, Gen.hostOps0_2, Gen.hostOps0_3, List.flatten_cons, List.flatten_nil,
    List.append_nil, List.cons_append, List.nil_append]
  after_results_simp
  rfl

theorem V_v5_apply (c : Dev nD)
    (hml : ∀ a : Fin 128, -8320 ≤ (a4 m c (ix1 a)).toInt ∧ (a4 m c (ix1 a)).toInt < 8320) (a : Fin 128) (k : Fin 3) :
    (V m c main_v5 : FVec Ideal S128x3 .f32) (ix2 a k) = posAt (a0 m c) (a4 m c (ix1 a)) k := by
  rw [V_v5_eq]; exact takeFill_apply _ _ _ _ _ _ _ _ _ _ (a0 m c) (a4 m c) hml a k

/-- The second table, before it is transposed, is the rows taken at the second index list. -/
theorem V_v6_eq (c : Dev nD) : (V m c main_v6 : FVec Ideal S8192x3 .f32)
    = takeFill bcast_S_S8192 bcast_S8192_S8192x1_0 bcast_S_S8192x1 bcast_S1_S1x1_1 bcast_S1x1_S8192x1_0_1 reducesTo_S8192x1_S8192_d1 h_S_
        bcast_S8192_S8192x3_0 bcast_S_S8192x3 gather_S8320x3_S8192x1_S8192x3_1_0_n_n_0_1_13_wf (a0 m c) (a5 m c) := by
  dsimp only [Gen.V, Gen.V0]
  simp only [Gen.hostOps0, Gen.hostOps0_1, Gen.hostOps0_2, Gen.hostOps0_3, List.flatten_cons, List.flatten_nil,
    List.append_nil, List.cons_append, List.nil_append]
  after_results_simp
  rfl

/-- The second table is that, transposed. -/
theorem V_v7_eq (c : Dev nD) : (V m c main_v7 : FVec Ideal S3x8192 .f32)
    = transpose S3x8192 [1, 0]
        (takeFill bcast_S_S8192 bcast_S8192_S8192x1_0 bcast_S_S8192x1 bcast_S1_S1x1_1 bcast_S1x1_S8192x1_0_1 reducesTo_S8192x1_S8192_d1 h_S_
          bcast_S8192_S8192x3_0 bcast_S_S8192x3 gather_S8320x3_S8192x1_S8192x3_1_0_n_n_0_1_13_wf (a0 m c) (a5 m c))
        transposes_S8192x3_S3x8192_1_0 := by
  dsimp only [Gen.V, Gen.V0]
  simp only [Gen.hostOps0, Gen.hostOps0_1, Gen.hostOps0_2, Gen.hostOps0_3, List.flatten_cons, List.flatten_nil,
    List.append_nil, List.cons_append, List.nil_append]
  after_results_simp
  rfl

theorem V_v7_apply (c : Dev nD)
    (hmm : ∀ b : Fin 8192, -8320 ≤ (a5 m c (ix1 b)).toInt ∧ (a5 m c (ix1 b)).toInt < 8320) (k : Fin 3) (b : Fin 8192) :
    (V m c main_v7 : FVec Ideal S3x8192 .f32) (ix2 k b) = posAt (a0 m c) (a5 m c (ix1 b)) k := by
  rw [V_v7_eq]
  exact (transpose_ix2_apply _ transposes_S8192x3_S3x8192_1_0 k b).trans
    (takeFill_apply _ _ _ _ _ _ _ _ _ _ (a0 m c) (a5 m c) hmm b k)

/-- The cutoffs as a column. -/
theorem V_v8_eq (c : Dev nD) : (V m c main_v8 : FVec Ideal S2x1 .f32) = shapeCast S2x1 (a2 m c) shapeCasts_S2_S2x1 := by
  dsimp only [Gen.V, Gen.V0]
  simp only [Gen.hostOps0, Gen.hostOps0_1, Gen.hostOps0_2, Gen.hostOps0_3, List.flatten_cons, List.flatten_nil,
    List.append_nil, List.cons_append, List.nil_append]
  after_results_simp
  rfl

theorem V_v8_apply (c : Dev nD) (r : Fin 2) :
    (V m c main_v8 : FVec Ideal S2x1 .f32) (ix2 r (0 : Fin 1)) = a2 m c (ix1 r) := by
  rw [V_v8_eq]
  refine shapeCast_apply _ shapeCasts_S2_S2x1 (ix2 r (0 : Fin 1)) (ix1 r) ?_
  rw [Shape.rowMajor_val_one, Shape.rowMajor_val_two]
  show r.val = r.val * 1 + 0
  omega

end Cert.KernelIdeal.KHost

end
-- ==== Proof.KHostTailMath.lean ====
/-
  The three lists the program builds on the host after the kernel call, read at the flat position of (h, s, a, b).
  The first index list is spread over (s, b) and the second over (s, a); stacked in the two orders along a leading
  axis h and flattened, they give the first and the second atom of every listed pair. The fourteen shift images,
  negated and plain, are stacked along h, spread over (a, b) and flattened: the offset of every listed pair.
-/
import proofs.«417794_j5214090297976_3_alg».proof.Proof.Gen.KernelIdeal
import proofs.«417794_j5214090297976_3_alg».proof.Proof.Spec
import Idealize.ShloMosaic.Lib.Pipeline.Value

noncomputable section

namespace Cert.KernelIdeal.KHost

open Cert.KernelIdeal Cert.KernelIdeal.Gen Cert.Spec Idealize.ShloMosaic Idealize.ShloMosaic.ValueIdx
open Idealize.SL.Sem

/-- The first index list spread over (s, b). -/
def spreadA (x4 : IVec S128 32) : IVec S1x14x128x8192 32 :=
  broadcastInDim S1x14x128x8192 ![0, 1, 2, 3] bcast_S1x1x128x1_S1x14x128x8192_0_1_2_3
    (shapeCast S1x1x128x1 x4 shapeCasts_S128_S1x1x128x1)

theorem spreadA_apply (x4 : IVec S128 32) (z : Fin 1) (s : Fin 14) (a : Fin 128) (b : Fin 8192) :
    spreadA x4 (ix4 z s a b) = x4 (ix1 a) := by
  unfold spreadA
  refine (broadcastInDim_apply _ bcast_S1x1x128x1_S1x14x128x8192_0_1_2_3 _ (ix4 z s a b)
    (ix4 (0 : Fin 1) (0 : Fin 1) a (0 : Fin 1)) fun d => ?_).trans ?_
  · match d with
    | ⟨0, _⟩ => rfl
    | ⟨1, _⟩ => rfl
    | ⟨2, _⟩ => rfl
    | ⟨3, _⟩ => rfl
  · refine shapeCast_apply x4 shapeCasts_S128_S1x1x128x1 _ (ix1 a) ?_
    rw [Shape.rowMajor_val_one, Shape.rowMajor_val_four]
    show a.val = ((0 * 1 + 0) * 128 + a.val) * 1 + 0
    omega

/-- The second index list spread over (s, a). -/
def spreadB (x5 : IVec S8192 32) : IVec S1x14x128x8192 32 :=
  broadcastInDim S1x14x128x8192 ![0, 1, 2, 3] bcast_S1x1x1x8192_S1x14x128x8192_0_1_2_3
    (shapeCast S1x1x1x8192 x5 shapeCasts_S8192_S1x1x1x8192)

theorem spreadB_apply (x5 : IVec S8192 32) (z : Fin 1) (s : Fin 14) (a : Fin 128) (b : Fin 8192) :
    spreadB x5 (ix4 z s a b) = x5 (ix1 b) := by
  unfold spreadB
  refine (broadcastInDim_apply _ bcast_S1x1x1x8192_S1x14x128x8192_0_1_2_3 _ (ix4 z s a b)
    (ix4 (0 : Fin 1) (0 : Fin 1) (0 : Fin 1) b) fun d => ?_).trans ?_
  · match d with
    | ⟨0, _⟩ => rfl
    | ⟨1, _⟩ => rfl
    | ⟨2, _⟩ => rfl
    | ⟨3, _⟩ => rfl
  · refine shapeCast_apply x5 shapeCasts_S8192_S1x1x1x8192 _ (ix1 b) ?_
    rw [Shape.rowMajor_val_one, Shape.rowMajor_val_four]
    show b.val = ((0 * 1 + 0) * 1 + 0) * 8192 + b.val
    omega

/-- Two arrays over (s, a, b) stacked along a leading axis and flattened. -/
def stackFlat (u v : IVec S1x14x128x8192 32) : IVec S29360128 32 :=
  shapeCast S29360128
    (concatenate S2x14x128x8192 0 [⟨S1x14x128x8192, u⟩, ⟨S1x14x128x8192, v⟩]
      concatenates_S1x14x128x8192_S1x14x128x8192_S2x14x128x8192_d0)
    shapeCasts_S2x14x128x8192_S29360128

/-- At the flat position of (h, s, a, b) the stack reads the first array when h = 0, the second when h = 1. -/
theorem stackFlat_apply (u v : IVec S1x14x128x8192 32) (h : Fin 2) (s : Fin 14) (a : Fin 128) (b : Fin 8192) :
    stackFlat u v (ix1 (flat4 h s a b))
      = if h.val = 0 then u (ix4 (0 : Fin 1) s a b) else v (ix4 (0 : Fin 1) s a b) := by
  unfold stackFlat
  refine (shapeCast_apply _ shapeCasts_S2x14x128x8192_S29360128 _ (ix4 h s a b) ?_).trans ?_
  · rw [Shape.rowMajor_val_one, Shape.rowMajor_val_four]; rfl
  · by_cases h0 : h.val = 0
    · rw [if_pos h0]
      exact concatenate_pair_apply_left (0 : Fin S2x14x128x8192.rank) u v
        concatenates_S1x14x128x8192_S1x14x128x8192_S2x14x128x8192_d0 (ix4 h s a b) rfl (ix4 (0 : Fin 1) s a b)
        (fun d => match d with
          | ⟨0, _⟩ => by show 0 = h.val; omega
          | ⟨1, _⟩ => rfl
          | ⟨2, _⟩ => rfl
          | ⟨3, _⟩ => rfl)
    · rw [if_neg h0]
      exact concatenate_pair_apply_right (0 : Fin S2x14x128x8192.rank) u v
        concatenates_S1x14x128x8192_S1x14x128x8192_S2x14x128x8192_d0 (ix4 h s a b) rfl rfl (ix4 (0 : Fin 1) s a b)
        (fun d => match d with
          | ⟨0, _⟩ => fun hd => absurd rfl hd
          | ⟨1, _⟩ => fun _ => rfl
          | ⟨2, _⟩ => fun _ => rfl
          | ⟨3, _⟩ => fun _ => rfl)
        (by show 0 + 1 = h.val; have := h.isLt; omega)

/-- The first atom of each listed pair. -/
theorem firstAtom_apply (x4 : IVec S128 32) (x5 : IVec S8192 32) (h : Fin 2) (s : Fin 14) (a : Fin 128) (b : Fin 8192) :
    stackFlat (spreadA x4) (spreadB x5) (ix1 (flat4 h s a b)) = if h.val = 0 then x4 (ix1 a) else x5 (ix1 b) := by
  rw [stackFlat_apply, spreadA_apply, spreadB_apply]

/-- The second atom of each listed pair. -/
theorem secondAtom_apply (x4 : IVec S128 32) (x5 : IVec S8192 32) (h : Fin 2) (s : Fin 14) (a : Fin 128) (b : Fin 8192) :
    stackFlat (spreadB x5) (spreadA x4) (ix1 (flat4 h s a b)) = if h.val = 0 then x5 (ix1 b) else x4 (ix1 a) := by
  rw [stackFlat_apply, spreadA_apply, spreadB_apply]

/-- The offsets: the images negated on top of the images, spread over (a, b), flattened. -/
def offsets (y : FVec Ideal S14x3 .f32) : FVec Ideal S29360128x3 .f32 :=
  shapeCast S29360128x3
    (broadcastInDim S2x14x128x8192x3 ![0, 1, 2, 3, 4] bcast_S2x14x1x1x3_S2x14x128x8192x3_0_1_2_3_4
      (shapeCast S2x14x1x1x3
        (concatenate S28x3 0 [⟨S14x3, Host.negf (F := Ideal) y⟩, ⟨S14x3, y⟩] concatenates_S14x3_S14x3_S28x3_d0)
        shapeCasts_S28x3_S2x14x1x1x3))
    shapeCasts_S2x14x128x8192x3_S29360128x3

theorem offsets_apply (y : FVec Ideal S14x3 .f32) (h : Fin 2) (s : Fin 14) (a : Fin 128) (b : Fin 8192) (k : Fin 3) :
    offsets y (ix2 (flat4 h s a b) k) = if h.val = 0 then -(y (ix2 s k)) else y (ix2 s k) := by
  unfold offsets
  have hh := h.isLt; have hs := s.isLt
  refine (shapeCast_apply _ shapeCasts_S2x14x128x8192x3_S29360128x3 _ (ix5 h s a b k) ?_).trans ?_
  · rw [Shape.rowMajor_val_two, Shape.rowMajor_val_five]; rfl
  refine (broadcastInDim_apply _ bcast_S2x14x1x1x3_S2x14x128x8192x3_0_1_2_3_4 _ (ix5 h s a b k)
    (ix5 h s (0 : Fin 1) (0 : Fin 1) k) fun d => ?_).trans ?_
  · match d with
    | ⟨0, _⟩ => rfl
    | ⟨1, _⟩ => rfl
    | ⟨2, _⟩ => rfl
    | ⟨3, _⟩ => rfl
    | ⟨4, _⟩ => rfl
  refine (shapeCast_apply _ shapeCasts_S28x3_S2x14x1x1x3 _ (ix2 (⟨h.val * 14 + s.val, by omega⟩ : Fin 28) k) ?_).trans ?_
  · rw [Shape.rowMajor_val_two, Shape.rowMajor_val_five]
    show (h.val * 14 + s.val) * 3 + k.val = (((h.val * 14 + s.val) * 1 + 0) * 1 + 0) * 3 + k.val
    omega
  by_cases h0 : h.val = 0
  · rw [if_pos h0]
    exact concatenate_pair_apply_left (0 : Fin S28x3.rank) (Host.negf (F := Ideal) y) y concatenates_S14x3_S14x3_S28x3_d0 _ rfl
      (ix2 s k) (fun d => match d with
        | ⟨0, _⟩ => by show s.val = h.val * 14 + s.val; omega
        | ⟨1, _⟩ => rfl)
  · rw [if_neg h0]
    exact concatenate_pair_apply_right (0 : Fin S28x3.rank) (Host.negf (F := Ideal) y) y concatenates_S14x3_S14x3_S28x3_d0 _ rfl rfl
      (ix2 s k) (fun d => match d with
        | ⟨0, _⟩ => fun hd => absurd rfl hd
        | ⟨1, _⟩ => fun _ => rfl)
      (by show s.val + 14 = h.val * 14 + s.val; omega)

/-- The squared lengths flattened. -/
theorem flatD2_apply (z : FVec Ideal S2x14x128x8192 .f32) (h : Fin 2) (s : Fin 14) (a : Fin 128) (b : Fin 8192) :
    shapeCast S29360128 z shapeCasts_S2x14x128x8192_S29360128 (ix1 (flat4 h s a b)) = z (ix4 h s a b) := by
  refine shapeCast_apply z shapeCasts_S2x14x128x8192_S29360128 _ (ix4 h s a b) ?_
  rw [Shape.rowMajor_val_one, Shape.rowMajor_val_four]; rfl

/-- The in-range words compared with zero, flattened per cutoff. -/
def flatBits (z : IVec S2x2x14x128x8192 32) : IVec S2x29360128 1 :=
  shapeCast S2x29360128
    (id (cmpi .ne z (broadcastInDim S2x2x14x128x8192 ![] bcast_S_S2x2x14x128x8192 (constantI S_ 32 0#32))))
    shapeCasts_S2x2x14x128x8192_S2x29360128

theorem flatBits_apply (z : IVec S2x2x14x128x8192 32) (r : Fin 2) (h : Fin 2) (s : Fin 14) (a : Fin 128) (b : Fin 8192) :
    flatBits z (ix2 r (flat4 h s a b)) = IntOp.cmpi .ne (z (ix5 r h s a b)) 0#32 := by
  unfold flatBits
  have hh := h.isLt; have hs := s.isLt; have ha := a.isLt; have hb := b.isLt
  refine (shapeCast_apply _ shapeCasts_S2x2x14x128x8192_S2x29360128 _ (ix5 r h s a b) ?_).trans rfl
  rw [Shape.rowMajor_val_two, Shape.rowMajor_val_five]
  show (((r.val * 2 + h.val) * 14 + s.val) * 128 + a.val) * 8192 + b.val
    = r.val * 29360128 + (((h.val * 14 + s.val) * 128 + a.val) * 8192 + b.val)
  omega

end Cert.KernelIdeal.KHost

end
-- ==== Proof.KHostTail.lean ====
/-
  The five results as the program leaves them: the host operations after the kernel call read the call's two arrays,
  the two index lists and the shift images, and flatten what they build. Each result is read at the flat position
  of (h, s, a, b).
-/
import proofs.«417794_j5214090297976_3_alg».proof.Proof.KHostDefs
import proofs.«417794_j5214090297976_3_alg».proof.Proof.KHostShift
import proofs.«417794_j5214090297976_3_alg».proof.Proof.KHostTailMath

noncomputable section

namespace Cert.KernelIdeal.KHost

open Cert.KernelIdeal Cert.KernelIdeal.Gen Cert.Spec Idealize.ShloMosaic Idealize.ShloMosaic.ValueIdx
open Idealize.SL.Sem

variable (m : (ℓ : Loc nD τ sig) → Buf (Elt Ideal) ℓ)
variable (dats : (p : Fin 1) → (c : Dev nD) → Pipeline.Dat τ (Elt Ideal) Unit ℕ (UR sig nD τ) ℕ (cfgs p) c)

/-- The buffers when the host operations after the call start: the call's arrays as it leaves them, every other
    buffer as it was when the call was entered. -/
def Wv (c : Dev nD) : Valuation τ sig (Elt Ideal) :=
  Pipeline.withArrays spec0 c (V0 m c) fun w => (dats 0 c).arrAt w cfg0.N

theorem Tl_eq (c : Dev nD) (b : Ref sig .tc) :
    Tl m dats c b = StableHlo.after hostOps1 (Wv m dats c) (Proc.devRef .tc b) := rfl

theorem Wv_arg4 (c : Dev nD) : (Wv m dats c (Proc.devRef .tc main_arg4) : IVec S128 32) = a4 m c :=
  (Pipeline.withArrays_of_ne _ c (V0 m c) _ main_arg4
    (by exact (by decide : ∀ w, Pipeline.arrRef spec0 w ≠ main_arg4))).trans (V_main_arg4 m c)

theorem Wv_arg5 (c : Dev nD) : (Wv m dats c (Proc.devRef .tc main_arg5) : IVec S8192 32) = a5 m c :=
  (Pipeline.withArrays_of_ne _ c (V0 m c) _ main_arg5
    (by exact (by decide : ∀ w, Pipeline.arrRef spec0 w ≠ main_arg5))).trans (V_main_arg5 m c)

theorem Wv_v3 (c : Dev nD) :
    (Wv m dats c (Proc.devRef .tc main_v3) : FVec Ideal S14x3 .f32) = shiftImages (a3 m c) (a1 m c) :=
  (Pipeline.withArrays_of_ne _ c (V0 m c) _ main_v3
    (by exact (by decide : ∀ w, Pipeline.arrRef spec0 w ≠ main_v3))).trans (V_v3_eq m c)

theorem Wv_out4 (c : Dev nD) :
    (Wv m dats c (Proc.devRef .tc main_v9_0) : FVec Ideal S2x14x128x8192 .f32) = out4 dats c :=
  Pipeline.withArrays_arr spec0 launch0.win.arr_inj c _ _ 4

theorem Wv_out5 (c : Dev nD) :
    (Wv m dats c (Proc.devRef .tc main_v9_1) : IVec S2x2x14x128x8192 32) = out5 dats c :=
  Pipeline.withArrays_arr spec0 launch0.win.arr_inj c _ _ 5

theorem tail_v13_eq (c : Dev nD) : (Tl m dats c main_v13 : FVec Ideal S29360128 .f32)
    = shapeCast S29360128 (out4 dats c) shapeCasts_S2x14x128x8192_S29360128 := by
  rw [Tl_eq, ← Wv_out4 m dats c]
  after_results
  rfl

theorem tail_v13 (c : Dev nD) (h : Fin 2) (s : Fin 14) (a : Fin 128) (b : Fin 8192) :
    (Tl m dats c main_v13 : FVec Ideal S29360128 .f32) (ix1 (flat4 h s a b)) = out4 dats c (ix4 h s a b) := by
  rw [tail_v13_eq]; exact flatD2_apply _ h s a b

theorem tail_v14_eq (c : Dev nD) : (Tl m dats c main_v14 : IVec S2x29360128 1) = flatBits (out5 dats c) := by
  rw [Tl_eq, ← Wv_out5 m dats c]
  after_results
  rfl

theorem tail_v14 (c : Dev nD) (r : Fin 2) (h : Fin 2) (s : Fin 14) (a : Fin 128) (b : Fin 8192) :
    (Tl m dats c main_v14 : IVec S2x29360128 1) (ix2 r (flat4 h s a b))
      = IntOp.cmpi .ne (out5 dats c (ix5 r h s a b)) 0#32 := by
  rw [tail_v14_eq]; exact flatBits_apply _ r h s a b

theorem tail_v21_eq (c : Dev nD) :
    (Tl m dats c main_v21 : IVec S29360128 32) = stackFlat (spreadA (a4 m c)) (spreadB (a5 m c)) := by
  rw [Tl_eq, ← Wv_arg4 m dats c, ← Wv_arg5 m dats c]
  after_results
  rfl

theorem tail_v21 (c : Dev nD) (h : Fin 2) (s : Fin 14) (a : Fin 128) (b : Fin 8192) :
    (Tl m dats c main_v21 : IVec S29360128 32) (ix1 (flat4 h s a b))
      = if h.val = 0 then a4 m c (ix1 a) else a5 m c (ix1 b) := by
  rw [tail_v21_eq]; exact firstAtom_apply _ _ h s a b

theorem tail_v22_eq (c : Dev nD) :
    (Tl m dats c main_v22 : IVec S29360128 32) = stackFlat (spreadB (a5 m c)) (spreadA (a4 m c)) := by
  rw [Tl_eq, ← Wv_arg4 m dats c, ← Wv_arg5 m dats c]
  after_results
  rfl

theorem tail_v22 (c : Dev nD) (h : Fin 2) (s : Fin 14) (a : Fin 128) (b : Fin 8192) :
    (Tl m dats c main_v22 : IVec S29360128 32) (ix1 (flat4 h s a b))
      = if h.val = 0 then a5 m c (ix1 b) else a4 m c (ix1 a) := by
  rw [tail_v22_eq]; exact secondAtom_apply _ _ h s a b

theorem tail_v27_eq (c : Dev nD) :
    (Tl m dats c main_v27 : FVec Ideal S29360128x3 .f32) = offsets (shiftImages (a3 m c) (a1 m c)) := by
  rw [Tl_eq, ← Wv_v3 m dats c]
  after_results
  rfl

theorem tail_v27 (c : Dev nD) (h : Fin 2) (s : Fin 14) (a : Fin 128) (b : Fin 8192) (k : Fin 3) :
    (Tl m dats c main_v27 : FVec Ideal S29360128x3 .f32) (ix2 (flat4 h s a b) k)
      = if h.val = 0 then -(SV (a3 m c) (a1 m c) s k) else SV (a3 m c) (a1 m c) s k := by
  rw [tail_v27_eq, offsets_apply, shiftImages_apply]

end Cert.KernelIdeal.KHost

end
-- ==== Proof.KHost.lean ====
/-
  The host side of the neighbour-list program, gathered: the tables and shift images the kernel call reads, and the
  five results read after the host operations that follow it.
-/
import proofs.«417794_j5214090297976_3_alg».proof.Proof.KHostDefs
import proofs.«417794_j5214090297976_3_alg».proof.Proof.KHostShiftMath
import proofs.«417794_j5214090297976_3_alg».proof.Proof.KHostShift
import proofs.«417794_j5214090297976_3_alg».proof.Proof.KHostTakeMath
import proofs.«417794_j5214090297976_3_alg».proof.Proof.KHostTake
import proofs.«417794_j5214090297976_3_alg».proof.Proof.KHostTailMath
import proofs.«417794_j5214090297976_3_alg».proof.Proof.KHostTail
-- ==== Proof.KI.Value.lean ====
/-
  The kernel's five results are the specification's.

  After the run the two arrays of the pallas_call hold the squared lengths and the widened comparison bits of the rows the
  region was handed (`final4`, `final5`); the host lines before the region hand it the rows the two index lists name (the
  fill of the two table look-ups never fires: under the precondition every wrapped index is in range) and the fourteen
  shift images; the host lines after it flatten the two arrays, turn the widened bits back into bits, and build the index
  pairs and the offsets. Read at the flat position of `(h, s, a, b)` each result is the specification's.
-/
import proofs.«417794_j5214090297976_3_alg».proof.Proof.KI.Arrays
import proofs.«417794_j5214090297976_3_alg».proof.Proof.KHost
import proofs.«417794_j5214090297976_3_alg».proof.Proof.Spec

set_option maxRecDepth 16384

noncomputable section

namespace Cert.KernelIdeal.KValue

open Cert.KernelIdeal Cert.KernelIdeal.Gen Cert.KernelIdeal.Body Cert.Spec
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The two index lists are in range on core `c`. -/
def InRange (c : Dev nD) : Prop :=
  (∀ a : Fin 128, -8320 ≤ (KHost.a4 m c (ix1 a)).toInt ∧ (KHost.a4 m c (ix1 a)).toInt < 8320)
    ∧ (∀ b : Fin 8192, -8320 ≤ (KHost.a5 m c (ix1 b)).toInt ∧ (KHost.a5 m c (ix1 b)).toInt < 8320)

/-- The squared length from the rows the region was handed is the specification's. -/
theorem sq_eq (c : Dev nD) (hr : InRange m c) (s : Fin 14) (a : Fin 128) (b : Fin 8192) :
    sq m c s a b = D2 (KHost.a0 m c) (KHost.a1 m c) (KHost.a3 m c) (KHost.a4 m c) (KHost.a5 m c) s a b := by
  have h5 : (fun k : Fin 3 => e5 m c (ix2 a k)) = fun k => posAt (KHost.a0 m c) (KHost.a4 m c (ix1 a)) k :=
    funext fun k => KHost.V_v5_apply m c hr.1 a k
  have h7 : (fun k : Fin 3 => e7 m c (ix2 k b)) = fun k => posAt (KHost.a0 m c) (KHost.a5 m c (ix1 b)) k :=
    funext fun k => KHost.V_v7_apply m c hr.2 k b
  have h4 : (fun k : Fin 3 => e4 m c (ix3 s (0 : Fin 1) k)) = fun k => SV (KHost.a3 m c) (KHost.a1 m c) s k :=
    funext fun k => KHost.V_v4_apply m c s k
  unfold Body.sq
  rw [h5, h7, h4]
  rfl

/-- The cutoff column the region was handed is the cutoffs. -/
theorem e8_apply (c : Dev nD) (r : Fin 2) : e8 m c (ix2 r (0 : Fin 1)) = KHost.a2 m c (ix1 r) := KHost.V_v8_apply m c r

/-! ## The five results after the host tail -/

theorem res_v21 (c : Dev nD) :
    (Pipeline.afterTail₀ cfgs (dats m) 0 (V0 m) [hostOps1] c main_v21 : IVec S29360128 32) = G_idx_i (KHost.a4 m c) (KHost.a5 m c) := by
  funext j
  obtain ⟨p, rfl⟩ : ∃ p : Fin 29360128, j = ix1 p := ⟨j 0, eq_ix1 j⟩
  obtain ⟨h, s, a, b, rfl⟩ := exists_flat4 p
  rw [G_idx_i_flat]
  exact KHost.tail_v21 m (dats m) c h s a b

theorem res_v22 (c : Dev nD) :
    (Pipeline.afterTail₀ cfgs (dats m) 0 (V0 m) [hostOps1] c main_v22 : IVec S29360128 32) = G_idx_j (KHost.a4 m c) (KHost.a5 m c) := by
  funext j
  obtain ⟨p, rfl⟩ : ∃ p : Fin 29360128, j = ix1 p := ⟨j 0, eq_ix1 j⟩
  obtain ⟨h, s, a, b, rfl⟩ := exists_flat4 p
  rw [G_idx_j_flat]
  exact KHost.tail_v22 m (dats m) c h s a b

theorem res_v27 (c : Dev nD) :
    (Pipeline.afterTail₀ cfgs (dats m) 0 (V0 m) [hostOps1] c main_v27 : FVec Ideal S29360128x3 .f32) = G_off (KHost.a1 m c) (KHost.a3 m c) := by
  funext j
  obtain ⟨p, k, rfl⟩ : ∃ (p : Fin 29360128) (k : Fin 3), j = ix2 p k := ⟨j 0, j 1, eq_ix2 j⟩
  obtain ⟨h, s, a, b, rfl⟩ := exists_flat4 p
  rw [G_off_flat]
  exact KHost.tail_v27 m (dats m) c h s a b k

set_option maxHeartbeats 1000000 in
theorem res_v13 (c : Dev nD) (hr : InRange m c) :
    (Pipeline.afterTail₀ cfgs (dats m) 0 (V0 m) [hostOps1] c main_v13 : FVec Ideal S29360128 .f32)
      = G_d2 (KHost.a0 m c) (KHost.a1 m c) (KHost.a3 m c) (KHost.a4 m c) (KHost.a5 m c) := by
  funext j
  obtain ⟨p, rfl⟩ : ∃ p : Fin 29360128, j = ix1 p := ⟨j 0, eq_ix1 j⟩
  obtain ⟨h, s, a, b, rfl⟩ := exists_flat4 p
  rw [G_d2_flat]
  refine (KHost.tail_v13 m (dats m) c h s a b).trans ?_
  show ((dats m 0 c).arrAt 4 cfg0.N : FVec Ideal S2x14x128x8192 .f32) (ix4 h s a b) = _
  rw [final4]
  exact sq_eq m c hr s a b

set_option maxHeartbeats 1000000 in
theorem res_v14 (c : Dev nD) (hr : InRange m c) :
    (Pipeline.afterTail₀ cfgs (dats m) 0 (V0 m) [hostOps1] c main_v14 : IVec S2x29360128 1)
      = G_mask (KHost.a0 m c) (KHost.a1 m c) (KHost.a2 m c) (KHost.a3 m c) (KHost.a4 m c) (KHost.a5 m c) := by
  funext j
  obtain ⟨r, p, rfl⟩ : ∃ (r : Fin 2) (p : Fin 29360128), j = ix2 r p := ⟨j 0, j 1, eq_ix2 j⟩
  obtain ⟨h, s, a, b, rfl⟩ := exists_flat4 p
  rw [G_mask_flat]
  refine (KHost.tail_v14 m (dats m) c r h s a b).trans ?_
  show IntOp.cmpi .ne (((dats m 0 c).arrAt 5 cfg0.N : IVec S2x2x14x128x8192 32) (ix5 r h s a b)) 0#32 = _
  rw [final5, G5_at, ne_zero_setWidth, sq_eq m c hr s a b, e8_apply]
  rfl

/-! ## The run, read -/

/-- The kernel's run re-posted: each result at the specification's array, the arguments unchanged. -/
theorem run_G (hr : ∀ c : Dev nD, InRange m c) :
    θ_run defs (onTc (τ := τ) (main (F := Ideal))) ⟨m, fun _ => 0, ρ⟩ fun r => ∀ c : Dev nD,
      r.2.mem ((c.tc : Thread nD τ).loc main_v21) = G_idx_i (KHost.a4 m c) (KHost.a5 m c)
      ∧ r.2.mem ((c.tc : Thread nD τ).loc main_v22) = G_idx_j (KHost.a4 m c) (KHost.a5 m c)
      ∧ r.2.mem ((c.tc : Thread nD τ).loc main_v27) = G_off (KHost.a1 m c) (KHost.a3 m c)
      ∧ r.2.mem ((c.tc : Thread nD τ).loc main_v13) = G_d2 (KHost.a0 m c) (KHost.a1 m c) (KHost.a3 m c) (KHost.a4 m c) (KHost.a5 m c)
      ∧ r.2.mem ((c.tc : Thread nD τ).loc main_v14) = G_mask (KHost.a0 m c) (KHost.a1 m c) (KHost.a2 m c) (KHost.a3 m c) (KHost.a4 m c) (KHost.a5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v21 (Pipeline.mem_restRefs_of main_v21 (by decide) (by decide))).trans (res_v21 m c),
      ((h c).2 main_v22 (Pipeline.mem_restRefs_of main_v22 (by decide) (by decide))).trans (res_v22 m c),
      ((h c).2 main_v27 (Pipeline.mem_restRefs_of main_v27 (by decide) (by decide))).trans (res_v27 m c),
      ((h c).2 main_v13 (Pipeline.mem_restRefs_of main_v13 (by decide) (by decide))).trans (res_v13 m c (hr c)),
      ((h c).2 main_v14 (Pipeline.mem_restRefs_of main_v14 (by decide) (by decide))).trans (res_v14 m c (hr c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KValue

end
-- ==== Proof.RefValueLayout.lean ====
/-
  The reference's flat layouts, read by coordinates.

  Every result lists the pairs twice (direction `h`), each half holding the fourteen images `s` of the `128 × 8192`
  pair table `(a, b)`. The position of `(a, b)` in the pair table is `a·8192 + b`, that of `(s, a, b)` in one half is
  `s·1048576 + a·8192 + b`, and the flat position of `(h, s, a, b)` is `h·14680064` further. Here: a two-piece
  concatenation read at such a position, the two broadcast index tables read at a pair, and the two index results.
-/
import proofs.«417794_j5214090297976_3_alg».proof.Proof.Gen.ReferenceIdeal.Read
import proofs.«417794_j5214090297976_3_alg».proof.Proof.Spec

set_option maxRecDepth 8192

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open Cert.Spec (flat4 wrapIdx rowOf posAt sfr SV disp D2 D2_eq_sum inRange exists_flat4 G_idx_i G_idx_j G_off G_d2 G_mask G_idx_i_flat G_idx_j_flat G_off_flat G_d2_flat G_mask_flat)
open Cert.ReferenceIdeal.Read

/-- The position of the pair `(a, b)` in the flattened pair table: `a·8192 + b`. -/
def flat2 (a : Fin 128) (b : Fin 8192) : Fin 1048576 :=
  ⟨a.val * 8192 + b.val, by have := a.isLt; have := b.isLt; omega⟩

/-- The position of `(s, a, b)` within one half: `s·1048576 + (a·8192 + b)`. -/
def flat3 (s : Fin 14) (a : Fin 128) (b : Fin 8192) : Fin 14680064 :=
  ⟨s.val * 1048576 + (a.val * 8192 + b.val), by have := s.isLt; have := a.isLt; have := b.isLt; omega⟩

/-! ## A concatenation of two halves at the flat position of `(h, s, a, b)` -/

/-- Two halves of length 14680064 joined: position `(h, s, a, b)` reads half `h` at `(s, a, b)`. -/
theorem concat_half_flat {α : Type} (x₁ x₂ : S14680064.Idx → α) (h : Fin 2) (s : Fin 14) (a : Fin 128) (b : Fin 8192) :
    concatenate S29360128 0 [⟨S14680064, x₁⟩, ⟨S14680064, x₂⟩] concatenates_S14680064_S14680064_S29360128_d0 (ix1 (flat4 h s a b))
      = if h.val = 0 then x₁ (ix1 (flat3 s a b)) else x₂ (ix1 (flat3 s a b)) := by
  have hs := s.isLt; have ha := a.isLt; have hb := b.isLt; have hh := h.isLt
  by_cases h0 : h.val = 0
  · rw [if_pos h0]
    exact concatenate_pair_apply_left (t := S29360128) (s₁ := S14680064) (s₂ := S14680064) 0 x₁ x₂
      concatenates_S14680064_S14680064_S29360128_d0 (ix1 (flat4 h s a b)) rfl (ix1 (flat3 s a b)) (fun d => match d with
      | ⟨0, _⟩ => by
        show s.val * 1048576 + (a.val * 8192 + b.val) = ((h.val * 14 + s.val) * 128 + a.val) * 8192 + b.val
        omega)
  · rw [if_neg h0]
    exact concatenate_pair_apply_right (t := S29360128) (s₁ := S14680064) (s₂ := S14680064) 0 x₁ x₂
      concatenates_S14680064_S14680064_S29360128_d0 (ix1 (flat4 h s a b)) rfl rfl (ix1 (flat3 s a b))
      (fun d hd => match d with | ⟨0, _⟩ => absurd rfl hd)
      (by
        show s.val * 1048576 + (a.val * 8192 + b.val) + 14680064 = ((h.val * 14 + s.val) * 128 + a.val) * 8192 + b.val
        omega)

/-- The same for two halves of shape `[14680064, 3]` joined along the rows; the column is kept. -/
theorem concat_half_flat_col {α : Type} (x₁ x₂ : S14680064x3.Idx → α) (h : Fin 2) (s : Fin 14) (a : Fin 128) (b : Fin 8192) (c : Fin 3) :
    concatenate S29360128x3 0 [⟨S14680064x3, x₁⟩, ⟨S14680064x3, x₂⟩] concatenates_S14680064x3_S14680064x3_S29360128x3_d0 (ix2 (flat4 h s a b) c)
      = if h.val = 0 then x₁ (ix2 (flat3 s a b) c) else x₂ (ix2 (flat3 s a b) c) := by
  have hs := s.isLt; have ha := a.isLt; have hb := b.isLt; have hh := h.isLt
  by_cases h0 : h.val = 0
  · rw [if_pos h0]
    exact concatenate_pair_apply_left (t := S29360128x3) (s₁ := S14680064x3) (s₂ := S14680064x3) 0 x₁ x₂
      concatenates_S14680064x3_S14680064x3_S29360128x3_d0 (ix2 (flat4 h s a b) c) rfl (ix2 (flat3 s a b) c) (fun d => match d with
      | ⟨0, _⟩ => by
        show s.val * 1048576 + (a.val * 8192 + b.val) = ((h.val * 14 + s.val) * 128 + a.val) * 8192 + b.val
        omega
      | ⟨1, _⟩ => rfl)
  · rw [if_neg h0]
    exact concatenate_pair_apply_right (t := S29360128x3) (s₁ := S14680064x3) (s₂ := S14680064x3) 0 x₁ x₂
      concatenates_S14680064x3_S14680064x3_S29360128x3_d0 (ix2 (flat4 h s a b) c) rfl rfl (ix2 (flat3 s a b) c)
      (fun d hd => match d with | ⟨0, _⟩ => absurd rfl hd | ⟨1, _⟩ => rfl)
      (by
        show s.val * 1048576 + (a.val * 8192 + b.val) + 14680064 = ((h.val * 14 + s.val) * 128 + a.val) * 8192 + b.val
        omega)

/-! ## The two index tables at a pair -/

/-- The first index list broadcast over the pair table: pair `(a, b)` holds `ml[a]`. -/
theorem v6_at (x4 : IVec S128 32) (a : Fin 128) (b : Fin 8192) :
    val_main_v6 (F := Ideal) x4 (ix1 (flat2 a b)) = x4 (ix1 a) := by
  rw [val_main_v6_apply, val_main_v5_apply, val_main_v4_apply]
  refine congrArg x4 (funext fun d => match d with | ⟨0, _⟩ => Fin.ext ?_)
  show (a.val * 8192 + b.val) / 8192 = a.val
  have := b.isLt; omega

/-- The second index list broadcast over the pair table: pair `(a, b)` holds `mm[b]`. -/
theorem v9_at (x5 : IVec S8192 32) (a : Fin 128) (b : Fin 8192) :
    val_main_v9 (F := Ideal) x5 (ix1 (flat2 a b)) = x5 (ix1 b) := by
  rw [val_main_v9_apply, val_main_v8_apply, val_main_v7_apply]
  refine congrArg x5 (funext fun d => match d with | ⟨0, _⟩ => Fin.ext ?_)
  show (a.val * 8192 + b.val) % 8192 = b.val
  have := b.isLt; omega

/-- The first index table repeated over the fourteen images. -/
theorem v36_at (x4 : IVec S128 32) (s : Fin 14) (a : Fin 128) (b : Fin 8192) :
    val_main_v36 (F := Ideal) x4 (ix1 (flat3 s a b)) = x4 (ix1 a) := by
  rw [val_main_v36_apply, val_main_v35_apply, val_main_v34_apply, ← v6_at x4 a b]
  refine congrArg (val_main_v6 (F := Ideal) x4) (funext fun d => match d with | ⟨0, _⟩ => Fin.ext ?_)
  show (s.val * 1048576 + (a.val * 8192 + b.val)) % 1048576 = a.val * 8192 + b.val
  have := a.isLt; have := b.isLt; omega

/-- The second index table repeated over the fourteen images. -/
theorem v39_at (x5 : IVec S8192 32) (s : Fin 14) (a : Fin 128) (b : Fin 8192) :
    val_main_v39 (F := Ideal) x5 (ix1 (flat3 s a b)) = x5 (ix1 b) := by
  rw [val_main_v39_apply, val_main_v38_apply, val_main_v37_apply, ← v9_at x5 a b]
  refine congrArg (val_main_v9 (F := Ideal) x5) (funext fun d => match d with | ⟨0, _⟩ => Fin.ext ?_)
  show (s.val * 1048576 + (a.val * 8192 + b.val)) % 1048576 = a.val * 8192 + b.val
  have := a.isLt; have := b.isLt; omega

/-! ## The two index results -/

/-- Every index of a `[29360128]` array is the flat position of some `(h, s, a, b)`. -/
theorem exists_ix1_flat4 (j : S29360128.Idx) : ∃ h s a b, j = ix1 (flat4 h s a b) := by
  obtain ⟨h, s, a, b, hp⟩ := exists_flat4 ⟨(j 0).val, (j 0).isLt⟩
  exact ⟨h, s, a, b, (eq_ix1 j).trans (congrArg ix1 hp)⟩

/-- First atoms: `ml[a]` in the first half, `mm[b]` in the second. -/
theorem ref_idx_i (x4 : IVec S128 32) (x5 : IVec S8192 32) :
    val_main_v43 (F := Ideal) x4 x5 = G_idx_i x4 x5 := by
  funext j
  obtain ⟨h, s, a, b, rfl⟩ := exists_ix1_flat4 j
  rw [G_idx_i_flat]
  unfold val_main_v43
  rw [concat_half_flat, v36_at, v39_at]

/-- Second atoms: the other one of each pair. -/
theorem ref_idx_j (x4 : IVec S128 32) (x5 : IVec S8192 32) :
    val_main_v44 (F := Ideal) x4 x5 = G_idx_j x4 x5 := by
  funext j
  obtain ⟨h, s, a, b, rfl⟩ := exists_ix1_flat4 j
  rw [G_idx_j_flat]
  unfold val_main_v44
  rw [concat_half_flat, v39_at, v36_at]

end Cert.ReferenceIdeal.RefValue

end
-- ==== Proof.RefValueShift.lean ====
/-
  The fourteen shifts in the reference: the zero row joined to the converted half-shifts is `sfr`, its product with
  the cell matrix is `SV`, and the offsets result is `SV` repeated over the pairs, negated in the first half.

  The reference negates the fractional shifts BEFORE multiplying by the cell, `∑ₖ (-(sfr s k)) · cell k c`, where the
  specification negates the product, `-(∑ₖ sfr s k · cell k c)`. On the extended reals these agree when every term is
  finite: each `sfr s k` is an integer as a real, and the cell entries are real by hypothesis.
-/
import proofs.«417794_j5214090297976_3_alg».proof.Proof.RefValueLayout

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open Cert.Spec (flat4 wrapIdx rowOf posAt sfr SV disp D2 D2_eq_sum inRange exists_flat4 G_idx_i G_idx_j G_off G_d2 G_mask G_idx_i_flat G_idx_j_flat G_off_flat G_d2_flat G_mask_flat)
open Cert.ReferenceIdeal.Read

/-! ## The shifts -/

/-- The zero row joined to the converted half-shifts, at `(s, k)`. -/
theorem v2_at (x3 : IVec S13x3 32) (s : Fin 14) (k : Fin 3) :
    val_main_v2 (F := Ideal) x3 (ix2 s k) = sfr x3 s k := by
  unfold val_main_v2 sfr
  by_cases h0 : s.val = 0
  · rw [dif_pos h0]
    rw [concatenate_pair_apply_left (t := S14x3) (s₁ := S1x3) (s₂ := S13x3) 0 _ _
      concatenates_S1x3_S13x3_S14x3_d0 (ix2 s k) rfl (ix2 (⟨0, Nat.one_pos⟩ : Fin 1) k) (fun d => match d with
        | ⟨0, _⟩ => h0.symm
        | ⟨1, _⟩ => rfl)]
    rw [val_main_v0_apply, val_main_cst_apply]
    rfl
  · rw [dif_neg h0]
    have hs := s.isLt
    rw [concatenate_pair_apply_right (t := S14x3) (s₁ := S1x3) (s₂ := S13x3) 0 _ _
      concatenates_S1x3_S13x3_S14x3_d0 (ix2 s k) rfl rfl (ix2 (⟨s.val - 1, by omega⟩ : Fin 13) k)
      (fun d hd => match d with | ⟨0, _⟩ => absurd rfl hd | ⟨1, _⟩ => rfl)
      (by show s.val - 1 + 1 = s.val; omega)]
    rfl

/-- The shifts' cartesian images: the product with the cell matrix at `(s, c)`. -/
theorem v3_at (x1 : FVec Ideal S3x3 .f32) (x3 : IVec S13x3 32) (s : Fin 14) (c : Fin 3) :
    val_main_v3 (F := Ideal) x1 x3 (ix2 s c) = SV x3 x1 s c := by
  rw [val_main_v3_apply]
  unfold SV
  refine Finset.sum_congr rfl fun k _ => ?_
  have e1 : lidx_main_v3 (ix2 s c) k = ix2 s k := funext fun d => match d with | ⟨0, _⟩ => rfl | ⟨1, _⟩ => rfl
  have e2 : ridx_main_v3 (ix2 s c) k = ix2 k c := funext fun d => match d with | ⟨0, _⟩ => rfl | ⟨1, _⟩ => rfl
  rw [e1, e2, v2_at]

/-- The shifts repeated over the pair table and flattened: row `(s, a, b)`, column `c` holds `sfr s c`. -/
theorem v42_at (x3 : IVec S13x3 32) (s : Fin 14) (a : Fin 128) (b : Fin 8192) (c : Fin 3) :
    val_main_v42 (F := Ideal) x3 (ix2 (flat3 s a b) c) = sfr x3 s c := by
  rw [val_main_v42_apply, val_main_v41_apply, val_main_v40_apply, ← v2_at x3 s c]
  have hs := s.isLt; have ha := a.isLt; have hb := b.isLt; have hc := c.isLt
  refine congrArg (val_main_v2 (F := Ideal) x3) (funext fun d => match d with
    | ⟨0, _⟩ => Fin.ext ?_
    | ⟨1, _⟩ => Fin.ext ?_)
  · show ((s.val * 1048576 + (a.val * 8192 + b.val)) * 3 + c.val) / 3145728 = s.val
    omega
  · show ((s.val * 1048576 + (a.val * 8192 + b.val)) * 3 + c.val) % 3 = c.val
    omega

/-- The negated shifts joined to the shifts: the first half holds `-(sfr s k)`, the second `sfr s k`. -/
theorem v46_at (x3 : IVec S13x3 32) (h : Fin 2) (s : Fin 14) (a : Fin 128) (b : Fin 8192) (k : Fin 3) :
    val_main_v46 (F := Ideal) x3 (ix2 (flat4 h s a b) k) = if h.val = 0 then -(sfr x3 s k) else sfr x3 s k := by
  unfold val_main_v46
  rw [concat_half_flat_col, val_main_v45_apply, v42_at]
  rfl

/-! ## Finiteness -/

/-- Every fractional shift is a real number (zero, or an integer). -/
theorem sfr_real (x3 : IVec S13x3 32) (s : Fin 14) (k : Fin 3) : ∃ r : ℝ, sfr x3 s k = (r : EReal) := by
  unfold sfr
  by_cases h0 : s.val = 0
  · rw [dif_pos h0]
    exact ⟨0, by rw [Ideal.ofBits_zero_f32]; rfl⟩
  · rw [dif_neg h0]
    exact ⟨_, rfl⟩

/-- For real numbers, negating the factors of a three-term dot product negates the product (in the extended reals). -/
theorem neg_dot3 (r0 r1 r2 y0 y1 y2 : ℝ) :
    -(r0 : EReal) * (y0 : EReal) + -(r1 : EReal) * (y1 : EReal) + -(r2 : EReal) * (y2 : EReal)
      = -((r0 : EReal) * (y0 : EReal) + (r1 : EReal) * (y1 : EReal) + (r2 : EReal) * (y2 : EReal)) := by
  simp only [← EReal.coe_neg, ← EReal.coe_mul, ← EReal.coe_add]
  congr 1
  ring

/-! ## The offsets result -/

/-- Every index of a `[29360128, 3]` array is `(flat position of some (h, s, a, b), c)`. -/
theorem exists_ix2_flat4 (j : S29360128x3.Idx) : ∃ h s a b c, j = ix2 (flat4 h s a b) c := by
  obtain ⟨h, s, a, b, hp⟩ := exists_flat4 ⟨(j 0).val, idx2_lt0 j⟩
  refine ⟨h, s, a, b, ⟨(j 1).val, idx2_lt1 j⟩, (eq_ix2 j).trans ?_⟩
  rw [← hp]
  rfl

/-- The cartesian offsets: minus the image's shift in the first half, the shift in the second. -/
theorem ref_off (x1 : FVec Ideal S3x3 .f32) (x3 : IVec S13x3 32) (hcell : ∀ j, ∃ x : ℝ, x1 j = (x : EReal)) :
    val_main_v47 (F := Ideal) x1 x3 = G_off x1 x3 := by
  funext j
  obtain ⟨h, s, a, b, c, rfl⟩ := exists_ix2_flat4 j
  rw [G_off_flat, val_main_v47_apply]
  have e1 : ∀ k : Fin 3, lidx_main_v47 (ix2 (flat4 h s a b) c) k = ix2 (flat4 h s a b) k :=
    fun k => funext fun d => match d with | ⟨0, _⟩ => rfl | ⟨1, _⟩ => rfl
  have e2 : ∀ k : Fin 3, ridx_main_v47 (ix2 (flat4 h s a b) c) k = ix2 k c :=
    fun k => funext fun d => match d with | ⟨0, _⟩ => rfl | ⟨1, _⟩ => rfl
  simp only [e1, e2, v46_at]
  unfold SV
  by_cases h0 : h.val = 0
  · simp only [if_pos h0, Fin.sum_univ_three]
    obtain ⟨r0, hr0⟩ := sfr_real x3 s 0
    obtain ⟨r1, hr1⟩ := sfr_real x3 s 1
    obtain ⟨r2, hr2⟩ := sfr_real x3 s 2
    obtain ⟨y0, hy0⟩ := hcell (ix2 0 c)
    obtain ⟨y1, hy1⟩ := hcell (ix2 1 c)
    obtain ⟨y2, hy2⟩ := hcell (ix2 2 c)
    rw [hr0, hr1, hr2, hy0, hy1, hy2]
    exact neg_dot3 r0 r1 r2 y0 y1 y2
  · simp only [if_neg h0]

end Cert.ReferenceIdeal.RefValue

end
-- ==== Proof.RefValueD2.lean ====
/-
  The squared lengths and the in-range bits in the reference.

  Both atoms of a pair are fetched by a row gather at the wrapped index (a negative index counts from the end); the
  displacement adds the image's cartesian shift, the squared length is the sum of the three squared coordinates
  started from zero, and both halves of the result hold the same squared lengths. The bits compare them with the
  squared cutoffs.
-/
import proofs.«417794_j5214090297976_3_alg».proof.Proof.RefValueShift
import proofs.«417794_j5214090297976_3_alg».proof.Proof.LibGather

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open Cert.Spec (flat4 wrapIdx rowOf posAt sfr SV disp D2 D2_eq_sum inRange exists_flat4 G_idx_i G_idx_j G_off G_d2 G_mask G_idx_i_flat G_idx_j_flat G_off_flat G_d2_flat G_mask_flat)
open Cert.ReferenceIdeal.Read

/-! ## The wrapped indices and the gathered rows -/

/-- The select on "index below zero" is the wrap from the end, at pair `(a, b)` of the first table. -/
theorem v14_at (x4 : IVec S128 32) (a : Fin 128) (b : Fin 8192) :
    val_main_v14 (F := Ideal) x4 (ix1 (flat2 a b)) = wrapIdx (x4 (ix1 a)) := by
  rw [val_main_v14_apply, val_main_v11_apply, val_main_v13_apply, val_main_v10_apply, val_main_v12_apply,
    val_main_c_apply, val_main_c_0_apply, v6_at]
  rfl

/-- The same for the second table. -/
theorem v22_at (x5 : IVec S8192 32) (a : Fin 128) (b : Fin 8192) :
    val_main_v22 (F := Ideal) x5 (ix1 (flat2 a b)) = wrapIdx (x5 (ix1 b)) := by
  rw [val_main_v22_apply, val_main_v19_apply, val_main_v21_apply, val_main_v18_apply, val_main_v20_apply,
    val_main_c_1_apply, val_main_c_2_apply, v9_at]
  rfl

/-- The row gather of the first atoms: pair `(a, b)`, coordinate `c` holds the position of atom `ml[a]`. -/
theorem v16_at (x0 : FVec Ideal S8320x3 .f32) (x4 : IVec S128 32) (a : Fin 128) (b : Fin 8192) (c : Fin 3) :
    val_main_v16 (F := Ideal) x0 x4 (ix2 (flat2 a b) c) = posAt x0 (x4 (ix1 a)) c := by
  have e : val_main_v15 (F := Ideal) x4 (ix2 (flat2 a b) (⟨0, Nat.one_pos⟩ : Fin 1)) = wrapIdx (x4 (ix1 a)) := by
    rw [val_main_v15_apply, ← v14_at x4 a b]
    exact congrArg (val_main_v14 (F := Ideal) x4) (funext fun d => match d with | ⟨0, _⟩ => rfl)
  refine (Cert.Gather.gather_row_apply (N := 8320) (K := 3) (R := 1048576) (by decide)
    gather_S8320x3_S1048576x1_S1048576x3_1_0_n_n_0_1_13_wf x0 (val_main_v15 (F := Ideal) x4) (flat2 a b) c).trans ?_
  unfold posAt rowOf
  refine congrArg x0 (funext fun d => match d with
    | ⟨0, _⟩ => Fin.ext ?_
    | ⟨1, _⟩ => rfl)
  show min (val_main_v15 (F := Ideal) x4 (ix2 (flat2 a b) (⟨0, Nat.one_pos⟩ : Fin 1))).toInt.toNat (8320 - 1)
    = min (wrapIdx (x4 (ix1 a))).toInt.toNat 8319
  rw [e]

/-- The row gather of the second atoms: pair `(a, b)`, coordinate `c` holds the position of atom `mm[b]`. -/
theorem v24_at (x0 : FVec Ideal S8320x3 .f32) (x5 : IVec S8192 32) (a : Fin 128) (b : Fin 8192) (c : Fin 3) :
    val_main_v24 (F := Ideal) x0 x5 (ix2 (flat2 a b) c) = posAt x0 (x5 (ix1 b)) c := by
  have e : val_main_v23 (F := Ideal) x5 (ix2 (flat2 a b) (⟨0, Nat.one_pos⟩ : Fin 1)) = wrapIdx (x5 (ix1 b)) := by
    rw [val_main_v23_apply, ← v22_at x5 a b]
    exact congrArg (val_main_v22 (F := Ideal) x5) (funext fun d => match d with | ⟨0, _⟩ => rfl)
  refine (Cert.Gather.gather_row_apply (N := 8320) (K := 3) (R := 1048576) (by decide)
    gather_S8320x3_S1048576x1_S1048576x3_1_0_n_n_0_1_13_wf x0 (val_main_v23 (F := Ideal) x5) (flat2 a b) c).trans ?_
  unfold posAt rowOf
  refine congrArg x0 (funext fun d => match d with
    | ⟨0, _⟩ => Fin.ext ?_
    | ⟨1, _⟩ => rfl)
  show min (val_main_v23 (F := Ideal) x5 (ix2 (flat2 a b) (⟨0, Nat.one_pos⟩ : Fin 1))).toInt.toNat (8320 - 1)
    = min (wrapIdx (x5 (ix1 b))).toInt.toNat 8319
  rw [e]

/-! ## Displacements and squared lengths -/

/-- The displacement of pair `(a, b)` under image `s`, coordinate `c`. -/
theorem v30_at (x0 : FVec Ideal S8320x3 .f32) (x1 : FVec Ideal S3x3 .f32) (x3 : IVec S13x3 32) (x4 : IVec S128 32) (x5 : IVec S8192 32)
    (s : Fin 14) (a : Fin 128) (b : Fin 8192) (c : Fin 3) :
    val_main_v30 (F := Ideal) x0 x1 x3 x4 x5 (ix3 s (flat2 a b) c) = disp x0 x1 x3 x4 x5 s a b c := by
  rw [val_main_v30_apply, val_main_v28_apply, val_main_v26_apply, val_main_v17_apply, val_main_v25_apply,
    val_main_v29_apply, val_main_v27_apply]
  have e1 : idx_main_v17 (idx_main_v28 (ix3 s (flat2 a b) c)) = ix2 (flat2 a b) c :=
    funext fun d => match d with | ⟨0, _⟩ => rfl | ⟨1, _⟩ => rfl
  have e2 : idx_main_v25 (idx_main_v28 (ix3 s (flat2 a b) c)) = ix2 (flat2 a b) c :=
    funext fun d => match d with | ⟨0, _⟩ => rfl | ⟨1, _⟩ => rfl
  have e3 : idx_main_v27 (idx_main_v29 (ix3 s (flat2 a b) c)) = ix2 s c :=
    funext fun d => match d with | ⟨0, _⟩ => rfl | ⟨1, _⟩ => rfl
  rw [e1, e2, e3, v16_at, v24_at, v3_at]
  rfl

/-- The sum of the three squared coordinates, started from zero, is the squared length. -/
theorem v32_at (x0 : FVec Ideal S8320x3 .f32) (x1 : FVec Ideal S3x3 .f32) (x3 : IVec S13x3 32) (x4 : IVec S128 32) (x5 : IVec S8192 32)
    (s : Fin 14) (a : Fin 128) (b : Fin 8192) :
    val_main_v32 (F := Ideal) x0 x1 x3 x4 x5 (ix2 s (flat2 a b)) = D2 x0 x1 x3 x4 x5 s a b := by
  rw [val_main_v32_apply, val_main_cst_3_apply, Ideal.ofBits_def, Ideal.ofBits_zero_f32, ← D2_eq_sum]
  refine congrArg (0 + ·) (Finset.sum_congr rfl fun k _ => ?_)
  have e : idx_main_v32 (ix2 s (flat2 a b)) k = ix3 s (flat2 a b) k :=
    funext fun d => match d with | ⟨0, _⟩ => rfl | ⟨1, _⟩ => rfl | ⟨2, _⟩ => rfl
  rw [e, val_main_v31_apply, v30_at]
  rfl

/-- The squared lengths flattened over `(s, a, b)`. -/
theorem v33_at (x0 : FVec Ideal S8320x3 .f32) (x1 : FVec Ideal S3x3 .f32) (x3 : IVec S13x3 32) (x4 : IVec S128 32) (x5 : IVec S8192 32)
    (s : Fin 14) (a : Fin 128) (b : Fin 8192) :
    val_main_v33 (F := Ideal) x0 x1 x3 x4 x5 (ix1 (flat3 s a b)) = D2 x0 x1 x3 x4 x5 s a b := by
  rw [val_main_v33_apply, ← v32_at x0 x1 x3 x4 x5 s a b]
  have hs := s.isLt; have ha := a.isLt; have hb := b.isLt
  refine congrArg (val_main_v32 (F := Ideal) x0 x1 x3 x4 x5) (funext fun d => match d with
    | ⟨0, _⟩ => Fin.ext ?_
    | ⟨1, _⟩ => Fin.ext ?_)
  · show (s.val * 1048576 + (a.val * 8192 + b.val)) / 1048576 = s.val
    omega
  · show (s.val * 1048576 + (a.val * 8192 + b.val)) % 1048576 = a.val * 8192 + b.val
    omega

/-- Both halves hold the squared lengths. -/
theorem v48_at (x0 : FVec Ideal S8320x3 .f32) (x1 : FVec Ideal S3x3 .f32) (x3 : IVec S13x3 32) (x4 : IVec S128 32) (x5 : IVec S8192 32)
    (h : Fin 2) (s : Fin 14) (a : Fin 128) (b : Fin 8192) :
    val_main_v48 (F := Ideal) x0 x1 x3 x4 x5 (ix1 (flat4 h s a b)) = D2 x0 x1 x3 x4 x5 s a b := by
  unfold val_main_v48
  rw [concat_half_flat, v33_at]
  exact ite_self _

/-! ## The two results -/

/-- The squared length of each listed pair. -/
theorem ref_d2 (x0 : FVec Ideal S8320x3 .f32) (x1 : FVec Ideal S3x3 .f32) (x3 : IVec S13x3 32) (x4 : IVec S128 32) (x5 : IVec S8192 32) :
    val_main_v48 (F := Ideal) x0 x1 x3 x4 x5 = G_d2 x0 x1 x3 x4 x5 := by
  funext j
  obtain ⟨h, s, a, b, rfl⟩ := exists_ix1_flat4 j
  rw [G_d2_flat, v48_at]

/-- Every index of a `[2, 29360128]` array is `(r, flat position of some (h, s, a, b))`. -/
theorem exists_ix2_r_flat4 (j : S2x29360128.Idx) : ∃ r h s a b, j = ix2 r (flat4 h s a b) := by
  obtain ⟨h, s, a, b, hp⟩ := exists_flat4 ⟨(j 1).val, idx2_lt1 j⟩
  refine ⟨⟨(j 0).val, idx2_lt0 j⟩, h, s, a, b, (eq_ix2 j).trans ?_⟩
  rw [← hp]
  rfl

/-- The in-range bits: the squared length against each squared cutoff. -/
theorem ref_mask (x0 : FVec Ideal S8320x3 .f32) (x1 : FVec Ideal S3x3 .f32) (x2 : FVec Ideal S2 .f32) (x3 : IVec S13x3 32)
    (x4 : IVec S128 32) (x5 : IVec S8192 32) :
    val_main_v54 (F := Ideal) x0 x1 x2 x3 x4 x5 = G_mask x0 x1 x2 x3 x4 x5 := by
  funext j
  obtain ⟨r, h, s, a, b, rfl⟩ := exists_ix2_r_flat4 j
  rw [G_mask_flat, val_main_v54_apply, val_main_v52_apply, val_main_v49_apply, val_main_v53_apply, val_main_v51_apply,
    val_main_v50_apply]
  have e1 : idx_main_v49 (idx_main_v52 (ix2 r (flat4 h s a b))) = ix1 (flat4 h s a b) :=
    funext fun d => match d with | ⟨0, _⟩ => rfl
  have e2 : idx_main_v51 (idx_main_v53 (ix2 r (flat4 h s a b))) = ix1 r :=
    funext fun d => match d with | ⟨0, _⟩ => rfl
  rw [e1, e2, v48_at]
  rfl

end Cert.ReferenceIdeal.RefValue

end
-- ==== Proof.RefValue.lean ====
/-
  The reference's run, stated against the specification: every weakly fair execution ends with the five results
  holding the specification's arrays of the launch contents, and the six arguments unchanged. The cell matrix is
  assumed real-valued (needed for the offsets: a sign moves through a three-term product).
-/
import proofs.«417794_j5214090297976_3_alg».proof.Proof.RefValueD2

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open Cert.Spec (flat4 wrapIdx rowOf posAt sfr SV disp D2 D2_eq_sum inRange exists_flat4 G_idx_i G_idx_j G_off G_d2 G_mask G_idx_i_flat G_idx_j_flat G_off_flat G_d2_flat G_mask_flat)
open Cert.ReferenceIdeal.Read

theorem run_G (m : (ℓ : Loc nD τ sig) → Buf (Elt Ideal) ℓ) (ρ : Dev nD → PrngReg)
    (hcell : ∀ (c : Dev nD) (j : S3x3.Idx), ∃ x : ℝ, (m ((c.tc : Thread nD τ).loc main_arg1) : FVec Ideal S3x3 .f32) j = (x : EReal)) :
    θ_run defs (onTc (τ := τ) (main (F := Ideal))) ⟨m, fun _ => 0, ρ⟩ fun r => ∀ c : Dev nD,
      r.2.mem ((c.tc : Thread nD τ).loc main_v43) = Cert.Spec.G_idx_i (m ((c.tc : Thread nD τ).loc main_arg4)) (m ((c.tc : Thread nD τ).loc main_arg5))
      ∧ r.2.mem ((c.tc : Thread nD τ).loc main_v44) = Cert.Spec.G_idx_j (m ((c.tc : Thread nD τ).loc main_arg4)) (m ((c.tc : Thread nD τ).loc main_arg5))
      ∧ r.2.mem ((c.tc : Thread nD τ).loc main_v47) = Cert.Spec.G_off (m ((c.tc : Thread nD τ).loc main_arg1)) (m ((c.tc : Thread nD τ).loc main_arg3))
      ∧ r.2.mem ((c.tc : Thread nD τ).loc main_v48) = Cert.Spec.G_d2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_v54) = Cert.Spec.G_mask (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r hr c => ?_) (Cert.ReferenceIdeal.Value.run (F := Ideal) m ρ)
  obtain ⟨h43, h44, h47, h48, h54, hrest⟩ := hr c
  refine ⟨h43.trans ?_, h44.trans ?_, h47.trans ?_, h48.trans ?_, h54.trans ?_, hrest⟩
  · exact (val_main_v43_eq _ _).trans (ref_idx_i _ _)
  · exact (val_main_v44_eq _ _).trans (ref_idx_j _ _)
  · exact (val_main_v47_eq _ _).trans (ref_off _ _ (hcell c))
  · exact (val_main_v48_eq m c).trans (ref_d2 _ _ _ _ _)
  · exact (val_main_v54_eq m c).trans (ref_mask _ _ _ _ _ _)

end Cert.ReferenceIdeal.RefValue

end
-- ==== Proof.lean ====
/-
  The certificate of the periodic neighbour-list kernel against its reference, over the extended reals.

  Both programs list, for every direction h, periodic image s (the centre image and thirteen half-shifts), first atom
  ml[a] and second atom mm[b], at flat position ((h·14 + s)·128 + a)·8192 + b: the index pair (swapped in the second
  direction), the image's cartesian offset (negated in the first direction), the squared length of
  (pos[ml[a]] − pos[mm[b]]) + shift_s, and for each cutoff the bit "squared length below the cutoff's square".
  The kernel computes the squared lengths and the bits once per (s, a, b) in a 14 × 2 grid of [128, 4096] tiles and stores
  each tile into both directions' slots; the reference materialises all pairs and concatenates the two directions.
  The two agree wherever both index lists name rows of the position table (the precondition's added conjuncts: indices
  in [−8320, 8320), a negative index counting from the end): there the kernel's table look-ups never reach their fill
  value. The only algebraic law used is that negation passes through the three-term products-and-sum that turns a
  fractional shift into a cartesian one, which on the extended reals needs the cell matrix finite (the precondition).
  The frames: each program runs to the end, faults nowhere and leaves its six arguments as they were — the kernel's from
  the run of its pipeline (one body triple per grid point), the reference's from its run as a sequence of host operations.
  The idealised kernel is the kernel's own text read over the extended reals (no operation was rewritten).
-/
import proofs.«417794_j5214090297976_3_alg».proof.Defs
import proofs.«417794_j5214090297976_3_alg».proof.Proof.Gen.Kernel
import proofs.«417794_j5214090297976_3_alg».proof.Proof.Gen.KernelIdeal
import proofs.«417794_j5214090297976_3_alg».proof.Proof.Gen.ReferenceIdeal
import proofs.«417794_j5214090297976_3_alg».proof.Proof.Gen.Pre_finite_inputs
import proofs.«417794_j5214090297976_3_alg».proof.Proof.KB.Run
import proofs.«417794_j5214090297976_3_alg».proof.Proof.KI.Value
import proofs.«417794_j5214090297976_3_alg».proof.Proof.RefValue
import proofs.«417794_j5214090297976_3_alg».proof.Proof.PreFacts
import Idealize.ShloMosaic.Adequacy
import Idealize.ShloMosaic.Init

noncomputable section

namespace Cert.Proof

open Idealize.ShloMosaic Idealize.SL.Sem

/-- The kernel as printed runs and keeps its arguments. -/
theorem frame_p : Cert.frame_Kernel := fun m ρ _ => Cert.Kernel.Body.frame m ρ

/-- So does the kernel read over the extended reals. -/
theorem frame_pi : Cert.frame_KernelIdeal := fun m ρ _ => Cert.KernelIdeal.Body.frame m ρ

/-- So does the reference: its run with the results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

/-- No operation of the kernel was rewritten by the idealisation. -/
theorem preserves : Cert.preserves_Kernel_KernelIdeal := trivial

/-- From memories agreeing on the arguments, under the precondition, both programs end with each of the five results at
    the specification's array of the arguments. -/
theorem algebraic : Cert.algebraic_KernelIdeal_ReferenceIdeal := by
  intro m ρ m' ρ' hpre hagree
  have hp := fun c => Cert.PreFacts.of_pre _ _ _ _ _ _ (hpre c)
  have hr : ∀ c, Cert.KernelIdeal.KValue.InRange m c := fun c => ⟨(hp c).2.1, (hp c).2.2⟩
  have hcell' : ∀ (c : Dev Cert.ReferenceIdeal.nD) (j : Cert.ReferenceIdeal.S3x3.Idx), ∃ x : ℝ,
      (m' ((c.tc : Thread Cert.ReferenceIdeal.nD Cert.ReferenceIdeal.τ).loc Cert.ReferenceIdeal.main_arg1) : FVec Ideal Cert.ReferenceIdeal.S3x3 .f32) j
        = (x : EReal) := by
    intro c j
    rw [(hagree c).2.1]
    exact (hp c).1 j
  refine ⟨_, _, _, _, _, Cert.KernelIdeal.KValue.run_G m ρ hr, ?_⟩
  refine (θ_run Cert.ReferenceIdeal.defs _ _).mono (fun _ h c => ?_) (Cert.ReferenceIdeal.RefValue.run_G m' ρ' hcell')
  obtain ⟨h0, h1, h2, h3, h4, k0, k1, k2, k3, k4, k5⟩ := h c
  obtain ⟨g0, g1, g2, g3, g4, g5⟩ := hagree c
  refine ⟨h0.trans ?_, h1.trans ?_, h2.trans ?_, h3.trans ?_, h4.trans ?_, k0, k1, k2, k3, k4, k5⟩
  · rw [g4, g5]
  · rw [g4, g5]
  · rw [g1, g3]
  · rw [g0, g1, g3, g4, g5]
  · rw [g0, g1, g2, g3, g4, g5]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
